-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S256x128 : Shape := ⟨2, ![256, 128]⟩
abbrev S256x1 : Shape := ⟨2, ![256, 1]⟩
abbrev S1024x128 : Shape := ⟨2, ![1024, 128]⟩
abbrev S1x1024 : Shape := ⟨2, ![1, 1024]⟩
abbrev S128x1024 : Shape := ⟨2, ![128, 1024]⟩
abbrev S256x1024 : Shape := ⟨2, ![256, 1024]⟩
abbrev S256 : Shape := ⟨1, ![256]⟩
abbrev S64 : Shape := ⟨1, ![64]⟩

abbrev nBuf : Space → Nat
  | .hbm => 41
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S8192x1, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S64, .f32⟩
  | .hbm, ⟨15, _⟩ => ⟨S8192x1, .i32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S8192x1, .i32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .i1⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S256x1, .i32⟩
  | .local _ .vmem, ⟨7, _⟩ => ⟨S256x1, .i32⟩
  | .local _ .vmem, ⟨8, _⟩ => ⟨S1x8192, .i32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1_d0_w32 : S256x1.Iotas .tc 32 [0]
  inb_S8192x128_S1024x128_0_0 : ∀ a, (![0, 0] : Fin 2 → Nat) a + S1024x128.size a ≤ S8192x128.size a
  h_S1024x128 : 0 < S1024x128.numel
  inb_S1x8192_S1x1024_0_0 : ∀ a, (![0, 0] : Fin 2 → Nat) a + S1x1024.size a ≤ S1x8192.size a
  h_S1x1024 : 0 < S1x1024.numel
  shapeCasts_S1x1024_S1x1024 : S1x1024.ShapeCasts S1x1024
  transposes_S1024x128_p1_0_S128x1024 : S1024x128.Transposes [1, 0] S128x1024
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  inb_S8192x128_S1024x128_1024_0 : ∀ a, (![1024, 0] : Fin 2 → Nat) a + S1024x128.size a ≤ S8192x128.size a
  inb_S1x8192_S1x1024_0_1024 : ∀ a, (![0, 1024] : Fin 2 → Nat) a + S1x1024.size a ≤ S1x8192.size a
  inb_S8192x128_S1024x128_2048_0 : ∀ a, (![2048, 0] : Fin 2 → Nat) a + S1024x128.size a ≤ S8192x128.size a
  inb_S1x8192_S1x1024_0_2048 : ∀ a, (![0, 2048] : Fin 2 → Nat) a + S1x1024.size a ≤ S1x8192.size a
  inb_S8192x128_S1024x128_3072_0 : ∀ a, (![3072, 0] : Fin 2 → Nat) a + S1024x128.size a ≤ S8192x128.size a
  inb_S1x8192_S1x1024_0_3072 : ∀ a, (![0, 3072] : Fin 2 → Nat) a + S1x1024.size a ≤ S1x8192.size a
  inb_S8192x128_S1024x128_4096_0 : ∀ a, (![4096, 0] : Fin 2 → Nat) a + S1024x128.size a ≤ S8192x128.size a
  inb_S1x8192_S1x1024_0_4096 : ∀ a, (![0, 4096] : Fin 2 → Nat) a + S1x1024.size a ≤ S1x8192.size a
  inb_S8192x128_S1024x128_5120_0 : ∀ a, (![5120, 0] : Fin 2 → Nat) a + S1024x128.size a ≤ S8192x128.size a
  inb_S1x8192_S1x1024_0_5120 : ∀ a, (![0, 5120] : Fin 2 → Nat) a + S1x1024.size a ≤ S1x8192.size a
  inb_S8192x128_S1024x128_6144_0 : ∀ a, (![6144, 0] : Fin 2 → Nat) a + S1024x128.size a ≤ S8192x128.size a
  inb_S1x8192_S1x1024_0_6144 : ∀ a, (![0, 6144] : Fin 2 → Nat) a + S1x1024.size a ≤ S1x8192.size a
  inb_S8192x128_S1024x128_7168_0 : ∀ a, (![7168, 0] : Fin 2 → Nat) a + S1024x128.size a ≤ S8192x128.size a
  inb_S1x8192_S1x1024_0_7168 : ∀ a, (![0, 7168] : Fin 2 → Nat) a + S1x1024.size a ≤ S1x8192.size a
  iota_S1x1024_d1_w32 : S1x1024.Iotas .tc 32 [1]
  natLt_1_32 : 1 < 32
  shapeCasts_S8192x1_S8192 : S8192x1.ShapeCasts S8192
  bcast_S_S64 : S_.BroadcastsInDim S64 (![] : Fin 0 → Fin S64.rank)
  bcast_S8192_S8192x1_0 : S8192.BroadcastsInDim S8192x1 (![0] : Fin 1 → Fin S8192x1.rank)
  reducesTo_S64_S_d0 : S64.ReducesTo [0] S_
  dot_S256x128_S128x1024_S256x1024_1_0_0_1_n_n_wf : DotDims.WF S256x128 S128x1024 S256x1024 [1] [0] [0] [1] [] []
  scatter_S64_S8192x1_S8192_n_0_0_1_wf : ScatterDims.WF S64 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S8192x1.size a
  hwx0_4 : ∀ i : grid0.Coords, EltTy.bits .i32 = 32 ∨ (Rect.block (s := S8192x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S8192x1.size a
  hwx0_6 : ∀ i : grid0.Coords, EltTy.bits .f32 = 32 ∨ (Rect.block (s := S8192x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S64 : Shape := ⟨1, ![64]⟩

abbrev nBuf : Space → Nat
  | .hbm => 80
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192, .i32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .i1⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x8192, .i32⟩
  | .hbm, ⟨49, _⟩ => ⟨S_, .i32⟩
  | .hbm, ⟨50, _⟩ => ⟨S8192, .i32⟩
  | .hbm, ⟨51, _⟩ => ⟨S8192, .f32⟩
  | .hbm, ⟨52, _⟩ => ⟨S_, .f32⟩
  | .hbm, ⟨53, _⟩ => ⟨S64, .f32⟩
  | .hbm, ⟨54, _⟩ => ⟨S8192x1, .i32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S8192x1, .i32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .i1⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S_, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S_, .i32⟩
  | .hbm, ⟨77, _⟩ => ⟨S_, .i32⟩
  | .hbm, ⟨78, _⟩ => ⟨S_, .f32⟩
  | .hbm, ⟨79, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  natLt_1_32 : 1 < 32
  bcast_S_S64 : S_.BroadcastsInDim S64 (![] : Fin 0 → Fin S64.rank)
  reducesTo_S64_S_d0 : S64.ReducesTo [0] S_
  dot_S8192x128_S128x8192_S8192x8192_1_0_0_1_n_n_wf : DotDims.WF S8192x128 S128x8192 S8192x8192 [1] [0] [0] [1] [] []
  scatter_S64_S8192x1_S8192_n_0_0_1_wf : ScatterDims.WF S64 S8192x1 S8192 [] [0] [0] 1

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

class Facts : Prop extends Facts₀ where

variable [Facts]
-- ==== Proof.K.BodyOut.lean ====
/- (template: the generated skeleton proof/Proof/Gen/Kernel/Skeleton.lean; substitutions: a load of input memref argK through a
   rectangle is View.ld x(K-1) of it, a load of the scratch is the value last stored there).
   What one grid point's body leaves in the two result blocks, as a function of the point and of the six input blocks:
   the skeleton's payloads composed along its data flow. The squared-norm column and row, the label column and row and
   the two embedding blocks enter through their rectangles; the running row sum of exp over the negatives is threaded
   through the eight column chunks (s2 … s9, from the zero column s1), then the two pair accumulators through eight more. -/
import proofs.«166613_j1864015806540_1_alg».proof.Proof.Gen.Kernel.Skeleton
import Idealize.ShloMosaic.Lib.Pipeline.FrameBody

set_option maxRecDepth 16384

noncomputable section

namespace Cert.Kernel.Hand

open Idealize.ShloMosaic Idealize.SL.Sem Cert.Kernel Cert.Kernel.Gen

variable {F : FTy → Type} [FloatOps F]

/-- The pair (row sums of the per-pair losses, row counts of the pairs) one grid point computes for its 256 anchor rows. -/
def outs (i : grid0.Coords) (x0 : Vec F S256x128 .f32) (x1 : Vec F S8192x128 .f32) (x2 : Vec F S256x1 .f32) (x3 : Vec F S1x8192 .f32)
    (x4 : Vec F S256x1 .i32) (x5 : Vec F S1x8192 .i32) : Vec F S256x1 .f32 × Vec F S256x1 .f32 :=
  let v0 : Vec F S256x128 .f32 := View.ld x0 (Rect.unit (s := S256x128) ![0, 0] S256x128.size inb_S256x128_S256x128_0_0)
  let v2 : Vec F S256x1 .f32 := View.ld x2 (Rect.unit (s := S256x1) ![0, 0] S256x1.size inb_S256x1_S256x1_0_0)
  let v4 : Vec F S256x1 .i32 := View.ld x4 (Rect.unit (s := S256x1) ![0, 0] S256x1.size inb_S256x1_S256x1_0_0)
  let s1 : Vec F S256x1 .f32 := k0_pay7 (F := F)
  let v14 : Vec F S1024x128 .f32 := View.ld x1 (Rect.unit (s := S8192x128) ![0, 0] S1024x128.size inb_S8192x128_S1024x128_0_0)
  let v16 : Vec F S1x1024 .f32 := View.ld x3 (Rect.unit (s := S1x8192) ![0, 0] S1x1024.size inb_S1x8192_S1x1024_0_0)
  let v18 : Vec F S1x1024 .i32 := View.ld x5 (Rect.unit (s := S1x8192) ![0, 0] S1x1024.size inb_S1x8192_S1x1024_0_0)
  let v32 : Vec F S256x1 .f32 := s1
  let v1 := k0_pay3 v0
  let v3 := k0_pay4 v2
  let v5 := k0_pay5 v4
  let v9 := k0_pay6 i
  let v35 := k0_pay8 v0 v2 v4 v14 v16 v18
  let s2 : Vec F S256x1 .f32 := k0_pay9 v32 v35
  let v41 : Vec F S1024x128 .f32 := View.ld x1 (Rect.unit (s := S8192x128) ![1024, 0] S1024x128.size inb_S8192x128_S1024x128_1024_0)
  let v43 : Vec F S1x1024 .f32 := View.ld x3 (Rect.unit (s := S1x8192) ![0, 1024] S1x1024.size inb_S1x8192_S1x1024_0_1024)
  let v45 : Vec F S1x1024 .i32 := View.ld x5 (Rect.unit (s := S1x8192) ![0, 1024] S1x1024.size inb_S1x8192_S1x1024_0_1024)
  let v59 : Vec F S256x1 .f32 := s2
  let s3 : Vec F S256x1 .f32 := k0_pay10 v1 v3 v5 v41 v43 v45 v59
  let v68 : Vec F S1024x128 .f32 := View.ld x1 (Rect.unit (s := S8192x128) ![2048, 0] S1024x128.size inb_S8192x128_S1024x128_2048_0)
  let v70 : Vec F S1x1024 .f32 := View.ld x3 (Rect.unit (s := S1x8192) ![0, 2048] S1x1024.size inb_S1x8192_S1x1024_0_2048)
  let v69 := k0_pay11 v68
  let v71 := k0_pay12 v70
  let v72 : Vec F S1x1024 .i32 := View.ld x5 (Rect.unit (s := S1x8192) ![0, 2048] S1x1024.size inb_S1x8192_S1x1024_0_2048)
  let v86 : Vec F S256x1 .f32 := s3
  let s4 : Vec F S256x1 .f32 := k0_pay13 v1 v3 v5 v69 v71 v72 v86
  let v95 : Vec F S1024x128 .f32 := View.ld x1 (Rect.unit (s := S8192x128) ![3072, 0] S1024x128.size inb_S8192x128_S1024x128_3072_0)
  let v97 : Vec F S1x1024 .f32 := View.ld x3 (Rect.unit (s := S1x8192) ![0, 3072] S1x1024.size inb_S1x8192_S1x1024_0_3072)
  let v99 : Vec F S1x1024 .i32 := View.ld x5 (Rect.unit (s := S1x8192) ![0, 3072] S1x1024.size inb_S1x8192_S1x1024_0_3072)
  let v111 := k0_pay14 v5 v99
  let v112 := k0_pay15 v1 v3 v95 v97
  let v113 : Vec F S256x1 .f32 := s4
  let s5 : Vec F S256x1 .f32 := k0_pay16 v111 v112 v113
  let v122 : Vec F S1024x128 .f32 := View.ld x1 (Rect.unit (s := S8192x128) ![4096, 0] S1024x128.size inb_S8192x128_S1024x128_4096_0)
  let v124 : Vec F S1x1024 .f32 := View.ld x3 (Rect.unit (s := S1x8192) ![0, 4096] S1x1024.size inb_S1x8192_S1x1024_0_4096)
  let v126 : Vec F S1x1024 .i32 := View.ld x5 (Rect.unit (s := S1x8192) ![0, 4096] S1x1024.size inb_S1x8192_S1x1024_0_4096)
  let v140 : Vec F S256x1 .f32 := s5
  let s6 : Vec F S256x1 .f32 := k0_pay17 v1 v3 v5 v122 v124 v126 v140
  let v149 : Vec F S1024x128 .f32 := View.ld x1 (Rect.unit (s := S8192x128) ![5120, 0] S1024x128.size inb_S8192x128_S1024x128_5120_0)
  let v150 := k0_pay18 v149
  let v151 : Vec F S1x1024 .f32 := View.ld x3 (Rect.unit (s := S1x8192) ![0, 5120] S1x1024.size inb_S1x8192_S1x1024_0_5120)
  let v153 : Vec F S1x1024 .i32 := View.ld x5 (Rect.unit (s := S1x8192) ![0, 5120] S1x1024.size inb_S1x8192_S1x1024_0_5120)
  let v167 : Vec F S256x1 .f32 := s6
  let s7 : Vec F S256x1 .f32 := k0_pay19 v1 v3 v5 v150 v151 v153 v167
  let v176 : Vec F S1024x128 .f32 := View.ld x1 (Rect.unit (s := S8192x128) ![6144, 0] S1024x128.size inb_S8192x128_S1024x128_6144_0)
  let v178 : Vec F S1x1024 .f32 := View.ld x3 (Rect.unit (s := S1x8192) ![0, 6144] S1x1024.size inb_S1x8192_S1x1024_0_6144)
  let v180 : Vec F S1x1024 .i32 := View.ld x5 (Rect.unit (s := S1x8192) ![0, 6144] S1x1024.size inb_S1x8192_S1x1024_0_6144)
  let v181 := k0_pay20 v180
  let v189 := k0_pay21 v1 v3 v176 v178
  let v194 : Vec F S256x1 .f32 := s7
  let s8 : Vec F S256x1 .f32 := k0_pay22 v5 v181 v189 v194
  let v203 : Vec F S1024x128 .f32 := View.ld x1 (Rect.unit (s := S8192x128) ![7168, 0] S1024x128.size inb_S8192x128_S1024x128_7168_0)
  let v205 : Vec F S1x1024 .f32 := View.ld x3 (Rect.unit (s := S1x8192) ![0, 7168] S1x1024.size inb_S1x8192_S1x1024_0_7168)
  let v207 : Vec F S1x1024 .i32 := View.ld x5 (Rect.unit (s := S1x8192) ![0, 7168] S1x1024.size inb_S1x8192_S1x1024_0_7168)
  let v221 : Vec F S256x1 .f32 := s8
  let v226 := k0_pay23 v1 v3 v5 v203 v205 v207 v221
  let s9 : Vec F S256x1 .f32 := k0_pay24 v226
  let v230 : Vec F S256x1 .f32 := s9
  let v233 : Vec F S1024x128 .f32 := View.ld x1 (Rect.unit (s := S8192x128) ![0, 0] S1024x128.size inb_S8192x128_S1024x128_0_0)
  let v235 : Vec F S1x1024 .f32 := View.ld x3 (Rect.unit (s := S1x8192) ![0, 0] S1x1024.size inb_S1x8192_S1x1024_0_0)
  let v237 : Vec F S1x1024 .i32 := View.ld x5 (Rect.unit (s := S1x8192) ![0, 0] S1x1024.size inb_S1x8192_S1x1024_0_0)
  let v232 := k0_pay25 (F := F)
  let v267 := k0_pay27 v1 v3 v5 v9 v230 v233 v235 v237
  let v270 := k0_pay28 v5 v9 v237
  let v273 : Vec F S1024x128 .f32 := View.ld x1 (Rect.unit (s := S8192x128) ![1024, 0] S1024x128.size inb_S8192x128_S1024x128_1024_0)
  let v275 : Vec F S1x1024 .f32 := View.ld x3 (Rect.unit (s := S1x8192) ![0, 1024] S1x1024.size inb_S1x8192_S1x1024_0_1024)
  let v277 : Vec F S1x1024 .i32 := View.ld x5 (Rect.unit (s := S1x8192) ![0, 1024] S1x1024.size inb_S1x8192_S1x1024_0_1024)
  let v313 : Vec F S1024x128 .f32 := View.ld x1 (Rect.unit (s := S8192x128) ![2048, 0] S1024x128.size inb_S8192x128_S1024x128_2048_0)
  let v307 := k0_pay30 v1 v3 v5 v9 v230 v267 v273 v275 v277
  let v312 := k0_pay31 v5 v9 v232 v270 v277
  let v314 := k0_pay32 v313
  let v315 : Vec F S1x1024 .f32 := View.ld x3 (Rect.unit (s := S1x8192) ![0, 2048] S1x1024.size inb_S1x8192_S1x1024_0_2048)
  let v317 : Vec F S1x1024 .i32 := View.ld x5 (Rect.unit (s := S1x8192) ![0, 2048] S1x1024.size inb_S1x8192_S1x1024_0_2048)
  let v353 : Vec F S1024x128 .f32 := View.ld x1 (Rect.unit (s := S8192x128) ![3072, 0] S1024x128.size inb_S8192x128_S1024x128_3072_0)
  let v355 : Vec F S1x1024 .f32 := View.ld x3 (Rect.unit (s := S1x8192) ![0, 3072] S1x1024.size inb_S1x8192_S1x1024_0_3072)
  let v357 : Vec F S1x1024 .i32 := View.ld x5 (Rect.unit (s := S1x8192) ![0, 3072] S1x1024.size inb_S1x8192_S1x1024_0_3072)
  let v347 := k0_pay34 v1 v3 v5 v9 v230 v307 v314 v315 v317
  let v352 := k0_pay35 v5 v9 v312 v317
  let v354 := k0_pay36 v353
  let v356 := k0_pay37 v355
  let v358 := k0_pay38 v357
  let v393 : Vec F S1024x128 .f32 := View.ld x1 (Rect.unit (s := S8192x128) ![4096, 0] S1024x128.size inb_S8192x128_S1024x128_4096_0)
  let v395 : Vec F S1x1024 .f32 := View.ld x3 (Rect.unit (s := S1x8192) ![0, 4096] S1x1024.size inb_S1x8192_S1x1024_0_4096)
  let v397 : Vec F S1x1024 .i32 := View.ld x5 (Rect.unit (s := S1x8192) ![0, 4096] S1x1024.size inb_S1x8192_S1x1024_0_4096)
  let v387 := k0_pay40 v1 v3 v5 v9 v230 v347 v354 v356 v358
  let v392 := k0_pay41 v5 v9 v352 v358
  let v396 := k0_pay42 v395
  let v398 := k0_pay43 v397
  let v401 := k0_pay44
  let v403 := k0_pay45 v1 v393
  let v433 : Vec F S1024x128 .f32 := View.ld x1 (Rect.unit (s := S8192x128) ![5120, 0] S1024x128.size inb_S8192x128_S1024x128_5120_0)
  let v435 : Vec F S1x1024 .f32 := View.ld x3 (Rect.unit (s := S1x8192) ![0, 5120] S1x1024.size inb_S1x8192_S1x1024_0_5120)
  let v437 : Vec F S1x1024 .i32 := View.ld x5 (Rect.unit (s := S1x8192) ![0, 5120] S1x1024.size inb_S1x8192_S1x1024_0_5120)
  let v427 := k0_pay47 v3 v5 v9 v230 v387 v396 v398 v401 v403
  let v432 := k0_pay48 v5 v9 v392 v398 v401
  let v438 := k0_pay49 v437
  let v441 := k0_pay50
  let v449 := k0_pay51 v1 v3 v433 v435
  let v473 : Vec F S1024x128 .f32 := View.ld x1 (Rect.unit (s := S8192x128) ![6144, 0] S1024x128.size inb_S8192x128_S1024x128_6144_0)
  let v475 : Vec F S1x1024 .f32 := View.ld x3 (Rect.unit (s := S1x8192) ![0, 6144] S1x1024.size inb_S1x8192_S1x1024_0_6144)
  let v477 : Vec F S1x1024 .i32 := View.ld x5 (Rect.unit (s := S1x8192) ![0, 6144] S1x1024.size inb_S1x8192_S1x1024_0_6144)
  let v467 := k0_pay53 v5 v9 v230 v427 v438 v441 v449
  let v472 := k0_pay54 v5 v9 v432 v438 v441
  let v489 := k0_pay55 v1 v3 v473 v475
  let v496 := k0_pay56 v5 v9 v477
  let v513 : Vec F S1024x128 .f32 := View.ld x1 (Rect.unit (s := S8192x128) ![7168, 0] S1024x128.size inb_S8192x128_S1024x128_7168_0)
  let v515 : Vec F S1x1024 .f32 := View.ld x3 (Rect.unit (s := S1x8192) ![0, 7168] S1x1024.size inb_S1x8192_S1x1024_0_7168)
  let v517 : Vec F S1x1024 .i32 := View.ld x5 (Rect.unit (s := S1x8192) ![0, 7168] S1x1024.size inb_S1x8192_S1x1024_0_7168)
  let v507 := k0_pay57 v230 v467 v489 v496
  let v512 := k0_pay58 v472 v496
  let v536 := k0_pay59 v5 v9 v517
  let v542 := k0_pay60 v1 v3 v230 v513 v515
  (k0_pay1 v507 v536 v542, k0_pay2 v512 v536)

/-- The block of row sums. -/
def out6 (i : grid0.Coords) (x0 : Vec F S256x128 .f32) (x1 : Vec F S8192x128 .f32) (x2 : Vec F S256x1 .f32) (x3 : Vec F S1x8192 .f32)
    (x4 : Vec F S256x1 .i32) (x5 : Vec F S1x8192 .i32) : Vec F S256x1 .f32 := (outs i x0 x1 x2 x3 x4 x5).1
/-- The block of row counts. -/
def out7 (i : grid0.Coords) (x0 : Vec F S256x128 .f32) (x1 : Vec F S8192x128 .f32) (x2 : Vec F S256x1 .f32) (x3 : Vec F S1x8192 .f32)
    (x4 : Vec F S256x1 .i32) (x5 : Vec F S1x8192 .i32) : Vec F S256x1 .f32 := (outs i x0 x1 x2 x3 x4 x5).2

end Cert.Kernel.Hand

end
-- ==== Proof.K.Body.lean ====
/- The kernel body's triple. On whole staging memrefs — the six inputs' at the contents x0 … x5, the two results' and the
   scratch column's at anything — one call of the body runs to its continuation holding the inputs' as they were, the
   first result's at the block of row sums `out6`, the second's at the block of row counts `out7`, the scratch at some
   contents. The scratch column is cleared before it is first read and only then accumulated into, so what a point
   computes does not depend on what the point before left there. -/
import proofs.«166613_j1864015806540_1_alg».proof.Proof.K.BodyOut
import proofs.«166613_j1864015806540_1_alg».proof.Proof.Gen.Kernel.Launch
import proofs.«166613_j1864015806540_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a rank-two rectangle, spelt as a constant function: the rectangle at these offsets of the
    shape's own extents is the whole shape. -/
theorem zero_offsets : (![0, 0] : Fin 2 → Nat) = fun _ => 0 := funext fun a => by fin_cases a <;> rfl

set_option maxHeartbeats 4000000 in
theorem sound_kernel (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (x0 : Vec F S256x128 .f32) (x1 : Vec F S8192x128 .f32) (x2 : Vec F S256x1 .f32) (x3 : Vec F S1x8192 .f32) (x4 : Vec F S256x1 .i32) (x5 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 i x0 x1 x2 x3 x4 x5) ∗ owns (c : Thread nD τ) arg8 fullShare (out7 i x0 x1 x2 x3 x4 x5)
            ∗ (∃ d, owns (c : Thread nD τ) arg9 fullShare d)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  -- a whole memref's raw contents are determined by what it reads: every value below is a term over x0 … x5
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  -- the body is straight-line: loads through literal rectangles, whole-column stores to the scratch and the results
  sl_exec
  sl_step
  iapply Hk
  -- the six inputs were only read
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    -- the first result was stored once, through its whole rectangle: it reads that payload. Each load of the scratch
    -- column reads the payload of the whole-column store before it (the zero column first, then the running sums), so
    -- the payload is the composite of the chunk payloads along the data flow
    rw [View.read_writes_eq_canon _ _ _
        (fun y => ⟨_, List.mem_singleton_self _, View.mem_set_unit_zero zero_offsets inb_S256x1_S256x1_0_0 y⟩),
      View.canon_unit_zero zero_offsets]
    unfold out6 outs
    dsimp only
    sl_unfold_run_names
    simp only [View.readAt_eq_ld, harg1.read_unread, harg2.read_unread, harg3.read_unread, harg4.read_unread,
      harg5.read_unread, harg6.read_unread, View.readCov_cons_toLoadRect]
  isplitl [H7]
  · iexists _; isplitr; swap; · iexact H7
    ipureintro
    -- the second result likewise; the pair counts do not read the scratch column
    rw [View.read_writes_eq_canon _ _ _
        (fun y => ⟨_, List.mem_singleton_self _, View.mem_set_unit_zero zero_offsets inb_S256x1_S256x1_0_0 y⟩),
      View.canon_unit_zero zero_offsets]
    unfold out7 outs
    dsimp only
    sl_unfold_run_names
    simp only [View.readAt_eq_ld, harg1.read_unread, harg2.read_unread, harg3.read_unread, harg4.read_unread,
      harg5.read_unread, harg6.read_unread, View.readCov_cons_toLoadRect]
  -- the scratch column ends at the last running sum; the triple only says it is held
  iexists _, _; isplitr; swap; · iexact H8
  ipureintro; rfl

end Cert.Kernel.Hand

end
-- ==== Proof.K.Dat.lean ====
/- The pipeline's proof data for the one kernel region, at the contents `V` the region finds in the TensorCore's
   buffers, and the body obligation at every grid point. An input window's staging buffer holds that window's block of
   its array at every point, fetched there or not; the two result windows' hold what the body computes from the six
   input blocks. The embedding table is read through two windows — the 256 anchor rows of the point, and the whole
   table —, so the table's array is held at one half share by each. -/
import proofs.«166613_j1864015806540_1_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The six input blocks at a point, at their literal types. -/
abbrev b0 (c : Dev nD) (t : Fin cfg0.N) : Vec F S256x128 .f32 := iblk V c 0 t
abbrev b1 (c : Dev nD) (t : Fin cfg0.N) : Vec F S8192x128 .f32 := iblk V c 1 t
abbrev b2 (c : Dev nD) (t : Fin cfg0.N) : Vec F S256x1 .f32 := iblk V c 2 t
abbrev b3 (c : Dev nD) (t : Fin cfg0.N) : Vec F S1x8192 .f32 := iblk V c 3 t
abbrev b4 (c : Dev nD) (t : Fin cfg0.N) : Vec F S256x1 .i32 := iblk V c 4 t
abbrev b5 (c : Dev nD) (t : Fin cfg0.N) : Vec F S1x8192 .i32 := iblk V c 5 t

/-- What the body leaves in the first result window's buffer at point `t`: the row sums of its 256 anchors. -/
def blk6 (c : Dev nD) (t : Fin cfg0.N) : Vec F S256x1 .f32 :=
  out6 (grid0.coords t) (b0 V c t) (b1 V c t) (b2 V c t) (b3 V c t) (b4 V c t) (b5 V c t)
/-- and in the second's: their pair counts. -/
def blk7 (c : Dev nD) (t : Fin cfg0.N) : Vec F S256x1 .f32 :=
  out7 (grid0.coords t) (b0 V c t) (b1 V c t) (b2 V c t) (b3 V c t) (b4 V c t) (b5 V c t)

/-- The proof data: the arrays as the region finds them; after the body each input's buffer at its block, each result's
    at what the body computed; the invariant the scoped rest (the scratch column at anything) and the generator register;
    the embedding table's array split in halves between its two windows; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => blk6 V c t
    | ⟨7, _⟩ => blk7 V c t
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t = blk6 V c t := by dsimp only [dat0]
theorem after_7 (c : Dev nD) (t : Fin cfg0.N) : (dat0 V c).after 7 t = blk7 V c t := by dsimp only [dat0]

/-- The shares: the table's array in halves between windows 0 and 1, every other array whole. -/
theorem share_0 (c : Dev nD) : (dat0 V c).share 0 = fullShare.left := by
  unfold Dat.share
  rw [if_neg (by decide)]
  rfl
theorem share_1 (c : Dev nD) : (dat0 V c).share 1 = fullShare.right := by
  unfold Dat.share
  rw [if_neg (by decide)]
  rfl
theorem share_ge2 (c : Dev nD) (w : Fin cfg0.W) (h : 2 ≤ w.val) : (dat0 V c).share w = fullShare := by
  unfold Dat.share
  match w, h with
  | ⟨0, _⟩, h => exact absurd h (by simp)
  | ⟨1, _⟩, h => exact absurd h (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨n + 8, hn⟩, _ => exact absurd hn (Nat.not_lt.2 (Nat.le_add_left _ _))

/-- An input window's array is never written: it ends as the region found it. -/
theorem arrAt_in (c : Dev nD) (w : Fin cfg0.W) (h : w.val < 6) (n : ℕ) : (dat0 V c).arrAt w n = V c (Pipeline.arrRef spec0 w) := by
  have hin : (cfg0.win w).isOut = false := by
    match w, h with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨n + 6, hn⟩, h => exact absurd h (Nat.not_lt.2 (Nat.le_add_left _ _))
  rw [(dat0 V c).arrAt_in w hin n, A_eq]

/-- Each input's current staging buffer holds its block at every point, fetched there or not: fetched, the fetch put
    the block there; unfetched, the block index has not moved since the point before, whose body left the block in place.
    The windows are uncut and never idle. -/
theorem before_0 (c : Dev nD) (t : Fin cfg0.N) (d) : (dat0 V c).before 0 t d = iblk V c 0 t :=
  ((dat0 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 V c).before 4 t d = iblk V c 4 t :=
  ((dat0 V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat0 V c).before 5 t d = iblk V c 5 t :=
  ((dat0 V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- The region invariant with the scratch column as a memref owned at some contents. -/
theorem PhiA_eq (c : Dev nD) :
    (Pipeline.ΦA spec0 c : sProp 𝕄)
      = iprop(iprop((∃ d, owns (c : Thread nD τ) (Memref.whole cc0_scratch0 : Memref sig .tc .vmem S256x1 .f32) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the six inputs' memrefs hold their blocks, the two results' anything; the invariant lends the
    scratch column at some contents and takes it back at some contents, so it is the same invariant at every point;
    what the core owes passes through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat0 V c).Φ t.succ = Pipeline.ΦA spec0 c from rfl,
    show (dat0 V c).Φ t.castSucc = Pipeline.ΦA spec0 c from rfl,
    show (dat0 V c).owesAt () t.succ = (dat0 V c).owesAt () t.castSucc from rfl,
    after_0, after_1, after_2, after_3, after_4, after_5, after_6, after_7, PhiA_eq]
  unfold blk6 blk7
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ (b0 V c t) (b1 V c t) (b2 V c t) (b3 V c t) (b4 V c t) (b5 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.K.Vals.lean ====
/- The TensorCore's buffer contents at each boundary between @main's items, as a fold from the launch memory: the
   host operations before the region (the squared norms and the reshapes), the region (its two result arrays at what
   the write-backs leave; every other buffer as it was, the region's inputs included), then the three stretches of host
   operations after it (the segment sums, the masked mean, the final quotient). -/
import proofs.«166613_j1864015806540_1_alg».proof.Proof.K.Dat
import Idealize.ShloMosaic.Lib.Pipeline.Regions
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations before the region. -/
abbrev W1 : Dev nD → Valuation τ sig (Elt F) := fun c => StableHlo.after hostOps0 (W0 m c)
/-- The same read at the TensorCore's references: what the region's proof data take. -/
abbrev V1 : (c : Dev nD) → (b : Ref sig .tc) → Buf (Elt F) ((c : Thread nD τ).loc b) := fun c b => W1 m c b
/-- The region's proof data, at its entry contents. -/
abbrev dat (c : Dev nD) : Dat τ (Elt F) Unit ℕ (UR sig nD τ) ℕ cfg0 c := dat0 (V1 m) c
/-- At the region's exit: the two result arrays at what the 32 write-backs leave, every other buffer as entered. -/
def W2 (c : Dev nD) : Valuation τ sig (Elt F) :=
  Function.update (Function.update (W1 m c) (Proc.devRef .tc main_v6_0) ((dat m c).arrAt 6 cfg0.N))
    (Proc.devRef .tc main_v6_1) ((dat m c).arrAt 7 cfg0.N)
/-- After the first stretch of host operations behind the region (the segment sums up to the quotient), -/
abbrev W3 : Dev nD → Valuation τ sig (Elt F) := fun c => StableHlo.after hostOps1 (W2 m c)
/-- the masked select, -/
abbrev W4 : Dev nD → Valuation τ sig (Elt F) := fun c => StableHlo.after hostOps1_1 (W3 m c)
/-- and the last stretch (the count of non-empty classes and the final quotient). -/
abbrev W5 : Dev nD → Valuation τ sig (Elt F) := fun c => StableHlo.after hostOps1_2 (W4 m c)

theorem W2_v6_0 (c : Dev nD) : W2 m c (Proc.devRef .tc main_v6_0) = (dat m c).arrAt 6 cfg0.N := by
  unfold W2
  rw [Function.update_of_ne (StableHlo.devRef_ne_of_ne (by decide)), Function.update_self]
theorem W2_v6_1 (c : Dev nD) : W2 m c (Proc.devRef .tc main_v6_1) = (dat m c).arrAt 7 cfg0.N := by
  unfold W2
  rw [Function.update_self]
theorem W2_of_ne (c : Dev nD) (b : Ref sig .tc) (h0 : b ≠ main_v6_0) (h1 : b ≠ main_v6_1) :
    W2 m c (Proc.devRef .tc b) = W1 m c (Proc.devRef .tc b) := by
  unfold W2
  rw [Function.update_of_ne (StableHlo.devRef_ne_of_ne h1), Function.update_of_ne (StableHlo.devRef_ne_of_ne h0)]

end Cert.Kernel.Hand

end
-- ==== Proof.K.Launch.lean ====
/- The run of @main: the host operations before the region, the kernel region, the host operations after it, from
   any launch memory with zero counters. Every weakly fair execution terminates, nothing faulting, with the scalar
   result at the last boundary's contents and both arguments as launched. The region is entered with the embedding
   table's array split in two half shares, one per window on it, and left with the halves joined again: both windows
   only read it, so both halves end at the entry contents. -/
import proofs.«166613_j1864015806540_1_alg».proof.Proof.K.Vals
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's buffer in two halves, and back

The windows' arrays sit on SEVEN buffers: the embedding table's (windows 0 and 1), the two reshapes of the squared
norms, the two reshapes of the labels, and the two results. At entry each buffer is held whole at the full share; the
table's is cut in its left and right half shares, one per window. At exit the two halves, both still at the entry
contents, are joined. -/

/-- The arrays with every element set spelt as the whole buffer: each window's array is a whole buffer. -/
theorem arrays_whole (c : Dev nD) (G : (w : Fin cfg0.W) → Buf (Elt F) ((cfg0.win w).arr.view.loc (c.tc : Thread nD τ))) :
    ((dat m c).arrays G : sProp 𝕄)
      = bigSep Finset.univ fun w : Fin 8 => (((c.tc : Thread nD τ).loc (Pipeline.arrRef spec0 w)) ↦{(dat m c).share w} G w : sProp 𝕄) := by
  unfold Dat.arrays
  exact bigSep_congr fun w _ => by rw [(arr_whole0 w).set_eq_univ]

/-- The seven buffers behind the eight windows, one by one. -/
theorem arrBufs_list (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0)
          ∗ (((c.tc : Thread nD τ).loc main_v2) ↦{fullShare} V main_v2)
          ∗ (((c.tc : Thread nD τ).loc main_v3) ↦{fullShare} V main_v3)
          ∗ (((c.tc : Thread nD τ).loc main_v4) ↦{fullShare} V main_v4)
          ∗ (((c.tc : Thread nD τ).loc main_v5) ↦{fullShare} V main_v5)
          ∗ (((c.tc : Thread nD τ).loc main_v6_0) ↦{fullShare} V main_v6_0)
          ∗ (((c.tc : Thread nD τ).loc main_v6_1) ↦{fullShare} V main_v6_1)) := by
  unfold Pipeline.arrBufs
  exact bigSep_eq_bigSepL_of_eq [main_arg0, main_v2, main_v3, main_v4, main_v5, main_v6_0, main_v6_1] (by decide) (by decide) _

/-- ENTRY: the seven buffers at the entry contents are the eight windows' arrays, the table's buffer cut in halves. -/
theorem arrays_entry (c : Dev nD) :
    (Pipeline.arrBufs (Ix := Unit) (Name := ℕ) (U := UR sig nD τ) (Lvl := ℕ) spec0 c (V1 m c) : sProp 𝕄)
      ⊢ (dat m c).arrays ((dat m c).arrAt · 0) := by
  rw [arrBufs_list, arrays_whole, bigSep_W0, share_0, share_1, share_ge2 (V1 m) c 2 (by decide), share_ge2 (V1 m) c 3 (by decide),
    share_ge2 (V1 m) c 4 (by decide), share_ge2 (V1 m) c 5 (by decide), share_ge2 (V1 m) c 6 (by decide), share_ge2 (V1 m) c 7 (by decide)]
  iintro ⟨H0, H2, H3, H4, H5, H6, H7⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

/-- What each window's array holds after the last write-back, read off the exit contents: an input's array is never
    written and the exit contents keep it; a result's array is what the exit contents are defined to hold. -/
theorem arrAt_exit (c : Dev nD) : ∀ w : Fin 8, (dat m c).arrAt w cfg0.N = W2 m c (Proc.devRef .tc (Pipeline.arrRef spec0 w))
  | 0 => (arrAt_in (V1 m) c 0 (by decide) _).trans (W2_of_ne m c main_arg0 (by decide) (by decide)).symm
  | 1 => (arrAt_in (V1 m) c 1 (by decide) _).trans (W2_of_ne m c main_arg0 (by decide) (by decide)).symm
  | 2 => (arrAt_in (V1 m) c 2 (by decide) _).trans (W2_of_ne m c main_v2 (by decide) (by decide)).symm
  | 3 => (arrAt_in (V1 m) c 3 (by decide) _).trans (W2_of_ne m c main_v3 (by decide) (by decide)).symm
  | 4 => (arrAt_in (V1 m) c 4 (by decide) _).trans (W2_of_ne m c main_v4 (by decide) (by decide)).symm
  | 5 => (arrAt_in (V1 m) c 5 (by decide) _).trans (W2_of_ne m c main_v5 (by decide) (by decide)).symm
  | 6 => (W2_v6_0 m c).symm
  | 7 => (W2_v6_1 m c).symm
  | ⟨_ + 8, h⟩ => absurd h (Nat.not_lt.2 (Nat.le_add_left _ _))

/-- EXIT, the arrays' part: the eight windows' arrays after the last write-back are the seven buffers at the exit
    contents, the table's two halves — both still at the entry contents — joined. -/
theorem arrays_exit_bufs (c : Dev nD) :
    ((dat m c).arrays ((dat m c).arrAt · cfg0.N) : sProp 𝕄)
      ⊢ Pipeline.arrBufs (Ix := Unit) (Name := ℕ) (U := UR sig nD τ) (Lvl := ℕ) spec0 c (fun b => W2 m c b) := by
  rw [arrays_whole,
    show (bigSep Finset.univ fun w : Fin 8 => (((c.tc : Thread nD τ).loc (Pipeline.arrRef spec0 w)) ↦{(dat m c).share w} (dat m c).arrAt w cfg0.N : sProp 𝕄))
      = bigSep Finset.univ fun w : Fin 8 => (((c.tc : Thread nD τ).loc (Pipeline.arrRef spec0 w)) ↦{(dat m c).share w} W2 m c (Proc.devRef .tc (Pipeline.arrRef spec0 w)) : sProp 𝕄)
      from bigSep_congr fun w _ => by rw [arrAt_exit m c w],
    arrBufs_list, bigSep_W0, share_0, share_1, share_ge2 (V1 m) c 2 (by decide), share_ge2 (V1 m) c 3 (by decide),
    share_ge2 (V1 m) c 4 (by decide), share_ge2 (V1 m) c 5 (by decide), share_ge2 (V1 m) c 6 (by decide), share_ge2 (V1 m) c 7 (by decide)]
  iintro ⟨H0l, H0r, H2, H3, H4, H5, H6, H7⟩
  isplitl [H0l H0r]
  · iapply (pointsTo_share (PosShare.mem_left_op_right fullShare)).2
    isplitl [H0l]; · iexact H0l
    iexact H0r
  isplitl [H2]; · iexact H2
  isplitl [H3]; · iexact H3
  isplitl [H4]; · iexact H4
  isplitl [H5]; · iexact H5
  isplitl [H6]; · iexact H6
  iexact H7

/-- EXIT: the windows' arrays after the last write-back, and the unscoped buffers no window is on at the entry
    contents, are all the unscoped buffers at the exit contents. -/
theorem arrays_exit (c : Dev nD) :
    iprop((dat m c).arrays ((dat m c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (fun b => W2 m c b)]
  refine sep_mono (arrays_exit_bufs m c) (Entails.of_eq ?_)
  unfold Pipeline.unscopedRest
  exact bigSep_congr fun b hb => by
    have hb' := (Finset.mem_sdiff.mp hb).2
    beta_reduce
    rw [W2_of_ne m c b (fun e => hb' (by rw [e]; decide)) (fun e => hb' (by rw [e]; decide))]

/-- ENTRY, over all the unscoped buffers: at the entry contents they are the windows' arrays and the rest. -/
theorem held_entry (c : Dev nD) :
    (StableHlo.held (c : Thread nD τ) (Pipeline.ucRefs τ sig) (W1 m c) : sProp 𝕄)
      ⊢ iprop((dat m c).arrays ((dat m c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs 0 winFacts₀0.arr_unscoped c (fun b => W1 m c b)]
  exact sep_mono (arrays_entry m c) .rfl

/-! ## No item writes an argument -/

section Args

variable (b : Ref sig .tc)

/-- A buffer that no host operation of @main writes, and that is neither result array, holds at the end what it held
    at launch. -/
theorem W5_of_not_written (c : Dev nD) (h0 : b ≠ main_v6_0) (h1 : b ≠ main_v6_1)
    (hw0 : ∀ op ∈ (hostOps0 : List (HloOp τ sig (Elt F))), (Proc.devRef .tc b : DevRef τ sig) ∉ op.writes)
    (hw1 : ∀ op ∈ (hostOps1 : List (HloOp τ sig (Elt F))), (Proc.devRef .tc b : DevRef τ sig) ∉ op.writes)
    (hw2 : ∀ op ∈ (hostOps1_1 : List (HloOp τ sig (Elt F))), (Proc.devRef .tc b : DevRef τ sig) ∉ op.writes)
    (hw3 : ∀ op ∈ (hostOps1_2 : List (HloOp τ sig (Elt F))), (Proc.devRef .tc b : DevRef τ sig) ∉ op.writes) :
    W5 m c (Proc.devRef .tc b) = m ((c.tc : Thread nD τ).loc b) :=
  calc W5 m c (Proc.devRef .tc b)
    _ = W4 m c (Proc.devRef .tc b) := StableHlo.after_of_forall_not_mem _ _ hw3
    _ = W3 m c (Proc.devRef .tc b) := StableHlo.after_of_forall_not_mem _ _ hw2
    _ = W2 m c (Proc.devRef .tc b) := StableHlo.after_of_forall_not_mem _ _ hw1
    _ = W1 m c (Proc.devRef .tc b) := W2_of_ne m c b h0 h1
    _ = W0 m c (Proc.devRef .tc b) := StableHlo.after_of_forall_not_mem _ _ hw0
    _ = m ((c.tc : Thread nD τ).loc b) := rfl

end Args

theorem W5_main_arg0 (c : Dev nD) : W5 m c (Proc.devRef .tc main_arg0) = m ((c.tc : Thread nD τ).loc main_arg0) :=
  W5_of_not_written m main_arg0 c (by decide) (by decide)
    (List.forall_iff_forall_mem.mp (by
      simp only [hostOps0, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_2, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))

theorem W5_main_arg1 (c : Dev nD) : W5 m c (Proc.devRef .tc main_arg1) = m ((c.tc : Thread nD τ).loc main_arg1) :=
  W5_of_not_written m main_arg1 c (by decide) (by decide)
    (List.forall_iff_forall_mem.mp (by
      simp only [hostOps0, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_2, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every segment: the generator register at some state, and nothing owed. -/
abbrev ride (c : Dev nD) : sProp 𝕄 := iprop((∃ r, prngReg c r) ∗ ∃ W, owes (c : Thread nD τ) (0 : CellTallies nD τ sig Unit) W)
/-- A stretch of host operations as a segment over all the unscoped buffers, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the last contents, the generator register. -/
abbrev Tₙ (c : Dev nD) : sProp 𝕄 := iprop(StableHlo.held (c : Thread nD τ) (Pipeline.ucRefs τ sig) (W5 m c) ∗ ∃ r, prngReg c r)

/-! ## The region as a segment -/

set_option backward.isDefEq.respectTransparency.types false in
/-- The kernel region over the thread state: entered with every unscoped buffer at the contents the first host
    operations leave, left with them at the exit contents. The generator register goes into the invariant and comes back;
    nothing is owed; the kernel has no semaphore of its own. -/
def reg0 : Pipeline.RegionSeg (pcfgs (F := F)) adm (pdats m) () defs₀ 𝒱₀ Lv lvl 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ Lv lvl 0 fun _ _ => rfl
  pre c := iprop(StableHlo.held (c : Thread nD τ) (Pipeline.ucRefs τ sig) (W1 m c) ∗ ride c)
  post c := iprop(StableHlo.held (c : Thread nD τ) (Pipeline.ucRefs τ sig) (W2 m c) ∗ ride c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := held_entry m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit m c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order: the host operations before the region, the region, the three stretches after it. -/
abbrev segs : List (Pipeline.Seg (pcfgs (F := F)) adm (pdats m) () defs₀ 𝒱₀ Lv lvl) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)) ]

set_option backward.isDefEq.respectTransparency.types false in
/-- THE RUN: from any launch memory with zero counters, every weakly fair execution of @main terminates, nothing
    faulting; the final memory holds the scalar result at the last boundary's contents, and both arguments as launched:
    the segments run in order from the launch's thread state, the last thread state read against the final state, each
    argument walked back through the boundaries to the launch memory. -/
theorem run_main :
    θ_run (defs (F := F)) (onTc (τ := τ) (main (F := F))) ⟨m, fun _ => 0, ρ⟩ (fun r => ∀ c : Dev nD,
      r.2.mem ((c.tc : Thread nD τ).loc main_v26) = W5 m c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ Lv lvl m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ ride c) ⊢ _
      iintro ⟨Hh, Hp, HO⟩
      isplitl [Hh Hp]
      · isplitl [Hh]; · iexact Hh
        iexact Hp
      iexact HO⟩)
    (hinit := by
      refine Pipeline.initEach Lv lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh]; · iexact Hh
      iexact HSI)
    (hQ := fun s h c =>
      ⟨h c _ (mem_uc main_v26 (by decide)),
        (h c _ (mem_uc main_arg0 (by decide))).trans (W5_main_arg0 m c),
        (h c _ (mem_uc main_arg1 (by decide))).trans (W5_main_arg1 m c)⟩)

end Cert.Kernel.Hand

end
-- ==== Proof.KI.BodyOut.lean ====
/- (template: the generated skeleton proof/Proof/Gen/KernelIdeal/Skeleton.lean; substitutions: a load of input memref argK through a
   rectangle is View.ld x(K-1) of it, a load of the scratch is the value last stored there).
   What one grid point's body leaves in the two result blocks, as a function of the point and of the six input blocks:
   the skeleton's payloads composed along its data flow. The squared-norm column and row, the label column and row and
   the two embedding blocks enter through their rectangles; the running row sum of exp over the negatives is threaded
   through the eight column chunks (s2 … s9, from the zero column s1), then the two pair accumulators through eight more. -/
import proofs.«166613_j1864015806540_1_alg».proof.Proof.Gen.KernelIdeal.Skeleton
import Idealize.ShloMosaic.Lib.Pipeline.FrameBody

set_option maxRecDepth 16384

noncomputable section

namespace Cert.KernelIdeal.Hand

open Idealize.ShloMosaic Idealize.SL.Sem Cert.KernelIdeal Cert.KernelIdeal.Gen

variable {F : FTy → Type} [FloatOps F]

/-- The pair (row sums of the per-pair losses, row counts of the pairs) one grid point computes for its 256 anchor rows. -/
def outs (i : grid0.Coords) (x0 : Vec F S256x128 .f32) (x1 : Vec F S8192x128 .f32) (x2 : Vec F S256x1 .f32) (x3 : Vec F S1x8192 .f32)
    (x4 : Vec F S256x1 .i32) (x5 : Vec F S1x8192 .i32) : Vec F S256x1 .f32 × Vec F S256x1 .f32 :=
  let v0 : Vec F S256x128 .f32 := View.ld x0 (Rect.unit (s := S256x128) ![0, 0] S256x128.size inb_S256x128_S256x128_0_0)
  let v2 : Vec F S256x1 .f32 := View.ld x2 (Rect.unit (s := S256x1) ![0, 0] S256x1.size inb_S256x1_S256x1_0_0)
  let v4 : Vec F S256x1 .i32 := View.ld x4 (Rect.unit (s := S256x1) ![0, 0] S256x1.size inb_S256x1_S256x1_0_0)
  let s1 : Vec F S256x1 .f32 := k0_pay7 (F := F)
  let v14 : Vec F S1024x128 .f32 := View.ld x1 (Rect.unit (s := S8192x128) ![0, 0] S1024x128.size inb_S8192x128_S1024x128_0_0)
  let v16 : Vec F S1x1024 .f32 := View.ld x3 (Rect.unit (s := S1x8192) ![0, 0] S1x1024.size inb_S1x8192_S1x1024_0_0)
  let v18 : Vec F S1x1024 .i32 := View.ld x5 (Rect.unit (s := S1x8192) ![0, 0] S1x1024.size inb_S1x8192_S1x1024_0_0)
  let v32 : Vec F S256x1 .f32 := s1
  let v1 := k0_pay3 v0
  let v3 := k0_pay4 v2
  let v5 := k0_pay5 v4
  let v9 := k0_pay6 i
  let v35 := k0_pay8 v0 v2 v4 v14 v16 v18
  let s2 : Vec F S256x1 .f32 := k0_pay9 v32 v35
  let v41 : Vec F S1024x128 .f32 := View.ld x1 (Rect.unit (s := S8192x128) ![1024, 0] S1024x128.size inb_S8192x128_S1024x128_1024_0)
  let v43 : Vec F S1x1024 .f32 := View.ld x3 (Rect.unit (s := S1x8192) ![0, 1024] S1x1024.size inb_S1x8192_S1x1024_0_1024)
  let v45 : Vec F S1x1024 .i32 := View.ld x5 (Rect.unit (s := S1x8192) ![0, 1024] S1x1024.size inb_S1x8192_S1x1024_0_1024)
  let v59 : Vec F S256x1 .f32 := s2
  let s3 : Vec F S256x1 .f32 := k0_pay10 v1 v3 v5 v41 v43 v45 v59
  let v68 : Vec F S1024x128 .f32 := View.ld x1 (Rect.unit (s := S8192x128) ![2048, 0] S1024x128.size inb_S8192x128_S1024x128_2048_0)
  let v70 : Vec F S1x1024 .f32 := View.ld x3 (Rect.unit (s := S1x8192) ![0, 2048] S1x1024.size inb_S1x8192_S1x1024_0_2048)
  let v69 := k0_pay11 v68
  let v71 := k0_pay12 v70
  let v72 : Vec F S1x1024 .i32 := View.ld x5 (Rect.unit (s := S1x8192) ![0, 2048] S1x1024.size inb_S1x8192_S1x1024_0_2048)
  let v86 : Vec F S256x1 .f32 := s3
  let s4 : Vec F S256x1 .f32 := k0_pay13 v1 v3 v5 v69 v71 v72 v86
  let v95 : Vec F S1024x128 .f32 := View.ld x1 (Rect.unit (s := S8192x128) ![3072, 0] S1024x128.size inb_S8192x128_S1024x128_3072_0)
  let v97 : Vec F S1x1024 .f32 := View.ld x3 (Rect.unit (s := S1x8192) ![0, 3072] S1x1024.size inb_S1x8192_S1x1024_0_3072)
  let v99 : Vec F S1x1024 .i32 := View.ld x5 (Rect.unit (s := S1x8192) ![0, 3072] S1x1024.size inb_S1x8192_S1x1024_0_3072)
  let v111 := k0_pay14 v5 v99
  let v112 := k0_pay15 v1 v3 v95 v97
  let v113 : Vec F S256x1 .f32 := s4
  let s5 : Vec F S256x1 .f32 := k0_pay16 v111 v112 v113
  let v122 : Vec F S1024x128 .f32 := View.ld x1 (Rect.unit (s := S8192x128) ![4096, 0] S1024x128.size inb_S8192x128_S1024x128_4096_0)
  let v124 : Vec F S1x1024 .f32 := View.ld x3 (Rect.unit (s := S1x8192) ![0, 4096] S1x1024.size inb_S1x8192_S1x1024_0_4096)
  let v126 : Vec F S1x1024 .i32 := View.ld x5 (Rect.unit (s := S1x8192) ![0, 4096] S1x1024.size inb_S1x8192_S1x1024_0_4096)
  let v140 : Vec F S256x1 .f32 := s5
  let s6 : Vec F S256x1 .f32 := k0_pay17 v1 v3 v5 v122 v124 v126 v140
  let v149 : Vec F S1024x128 .f32 := View.ld x1 (Rect.unit (s := S8192x128) ![5120, 0] S1024x128.size inb_S8192x128_S1024x128_5120_0)
  let v150 := k0_pay18 v149
  let v151 : Vec F S1x1024 .f32 := View.ld x3 (Rect.unit (s := S1x8192) ![0, 5120] S1x1024.size inb_S1x8192_S1x1024_0_5120)
  let v153 : Vec F S1x1024 .i32 := View.ld x5 (Rect.unit (s := S1x8192) ![0, 5120] S1x1024.size inb_S1x8192_S1x1024_0_5120)
  let v167 : Vec F S256x1 .f32 := s6
  let s7 : Vec F S256x1 .f32 := k0_pay19 v1 v3 v5 v150 v151 v153 v167
  let v176 : Vec F S1024x128 .f32 := View.ld x1 (Rect.unit (s := S8192x128) ![6144, 0] S1024x128.size inb_S8192x128_S1024x128_6144_0)
  let v178 : Vec F S1x1024 .f32 := View.ld x3 (Rect.unit (s := S1x8192) ![0, 6144] S1x1024.size inb_S1x8192_S1x1024_0_6144)
  let v180 : Vec F S1x1024 .i32 := View.ld x5 (Rect.unit (s := S1x8192) ![0, 6144] S1x1024.size inb_S1x8192_S1x1024_0_6144)
  let v181 := k0_pay20 v180
  let v189 := k0_pay21 v1 v3 v176 v178
  let v194 : Vec F S256x1 .f32 := s7
  let s8 : Vec F S256x1 .f32 := k0_pay22 v5 v181 v189 v194
  let v203 : Vec F S1024x128 .f32 := View.ld x1 (Rect.unit (s := S8192x128) ![7168, 0] S1024x128.size inb_S8192x128_S1024x128_7168_0)
  let v205 : Vec F S1x1024 .f32 := View.ld x3 (Rect.unit (s := S1x8192) ![0, 7168] S1x1024.size inb_S1x8192_S1x1024_0_7168)
  let v207 : Vec F S1x1024 .i32 := View.ld x5 (Rect.unit (s := S1x8192) ![0, 7168] S1x1024.size inb_S1x8192_S1x1024_0_7168)
  let v221 : Vec F S256x1 .f32 := s8
  let v226 := k0_pay23 v1 v3 v5 v203 v205 v207 v221
  let s9 : Vec F S256x1 .f32 := k0_pay24 v226
  let v230 : Vec F S256x1 .f32 := s9
  let v233 : Vec F S1024x128 .f32 := View.ld x1 (Rect.unit (s := S8192x128) ![0, 0] S1024x128.size inb_S8192x128_S1024x128_0_0)
  let v235 : Vec F S1x1024 .f32 := View.ld x3 (Rect.unit (s := S1x8192) ![0, 0] S1x1024.size inb_S1x8192_S1x1024_0_0)
  let v237 : Vec F S1x1024 .i32 := View.ld x5 (Rect.unit (s := S1x8192) ![0, 0] S1x1024.size inb_S1x8192_S1x1024_0_0)
  let v232 := k0_pay25 (F := F)
  let v267 := k0_pay27 v1 v3 v5 v9 v230 v233 v235 v237
  let v270 := k0_pay28 v5 v9 v237
  let v273 : Vec F S1024x128 .f32 := View.ld x1 (Rect.unit (s := S8192x128) ![1024, 0] S1024x128.size inb_S8192x128_S1024x128_1024_0)
  let v275 : Vec F S1x1024 .f32 := View.ld x3 (Rect.unit (s := S1x8192) ![0, 1024] S1x1024.size inb_S1x8192_S1x1024_0_1024)
  let v277 : Vec F S1x1024 .i32 := View.ld x5 (Rect.unit (s := S1x8192) ![0, 1024] S1x1024.size inb_S1x8192_S1x1024_0_1024)
  let v313 : Vec F S1024x128 .f32 := View.ld x1 (Rect.unit (s := S8192x128) ![2048, 0] S1024x128.size inb_S8192x128_S1024x128_2048_0)
  let v307 := k0_pay30 v1 v3 v5 v9 v230 v267 v273 v275 v277
  let v312 := k0_pay31 v5 v9 v232 v270 v277
  let v314 := k0_pay32 v313
  let v315 : Vec F S1x1024 .f32 := View.ld x3 (Rect.unit (s := S1x8192) ![0, 2048] S1x1024.size inb_S1x8192_S1x1024_0_2048)
  let v317 : Vec F S1x1024 .i32 := View.ld x5 (Rect.unit (s := S1x8192) ![0, 2048] S1x1024.size inb_S1x8192_S1x1024_0_2048)
  let v353 : Vec F S1024x128 .f32 := View.ld x1 (Rect.unit (s := S8192x128) ![3072, 0] S1024x128.size inb_S8192x128_S1024x128_3072_0)
  let v355 : Vec F S1x1024 .f32 := View.ld x3 (Rect.unit (s := S1x8192) ![0, 3072] S1x1024.size inb_S1x8192_S1x1024_0_3072)
  let v357 : Vec F S1x1024 .i32 := View.ld x5 (Rect.unit (s := S1x8192) ![0, 3072] S1x1024.size inb_S1x8192_S1x1024_0_3072)
  let v347 := k0_pay34 v1 v3 v5 v9 v230 v307 v314 v315 v317
  let v352 := k0_pay35 v5 v9 v312 v317
  let v354 := k0_pay36 v353
  let v356 := k0_pay37 v355
  let v358 := k0_pay38 v357
  let v393 : Vec F S1024x128 .f32 := View.ld x1 (Rect.unit (s := S8192x128) ![4096, 0] S1024x128.size inb_S8192x128_S1024x128_4096_0)
  let v395 : Vec F S1x1024 .f32 := View.ld x3 (Rect.unit (s := S1x8192) ![0, 4096] S1x1024.size inb_S1x8192_S1x1024_0_4096)
  let v397 : Vec F S1x1024 .i32 := View.ld x5 (Rect.unit (s := S1x8192) ![0, 4096] S1x1024.size inb_S1x8192_S1x1024_0_4096)
  let v387 := k0_pay40 v1 v3 v5 v9 v230 v347 v354 v356 v358
  let v392 := k0_pay41 v5 v9 v352 v358
  let v396 := k0_pay42 v395
  let v398 := k0_pay43 v397
  let v401 := k0_pay44
  let v403 := k0_pay45 v1 v393
  let v433 : Vec F S1024x128 .f32 := View.ld x1 (Rect.unit (s := S8192x128) ![5120, 0] S1024x128.size inb_S8192x128_S1024x128_5120_0)
  let v435 : Vec F S1x1024 .f32 := View.ld x3 (Rect.unit (s := S1x8192) ![0, 5120] S1x1024.size inb_S1x8192_S1x1024_0_5120)
  let v437 : Vec F S1x1024 .i32 := View.ld x5 (Rect.unit (s := S1x8192) ![0, 5120] S1x1024.size inb_S1x8192_S1x1024_0_5120)
  let v427 := k0_pay47 v3 v5 v9 v230 v387 v396 v398 v401 v403
  let v432 := k0_pay48 v5 v9 v392 v398 v401
  let v438 := k0_pay49 v437
  let v441 := k0_pay50
  let v449 := k0_pay51 v1 v3 v433 v435
  let v473 : Vec F S1024x128 .f32 := View.ld x1 (Rect.unit (s := S8192x128) ![6144, 0] S1024x128.size inb_S8192x128_S1024x128_6144_0)
  let v475 : Vec F S1x1024 .f32 := View.ld x3 (Rect.unit (s := S1x8192) ![0, 6144] S1x1024.size inb_S1x8192_S1x1024_0_6144)
  let v477 : Vec F S1x1024 .i32 := View.ld x5 (Rect.unit (s := S1x8192) ![0, 6144] S1x1024.size inb_S1x8192_S1x1024_0_6144)
  let v467 := k0_pay53 v5 v9 v230 v427 v438 v441 v449
  let v472 := k0_pay54 v5 v9 v432 v438 v441
  let v489 := k0_pay55 v1 v3 v473 v475
  let v496 := k0_pay56 v5 v9 v477
  let v513 : Vec F S1024x128 .f32 := View.ld x1 (Rect.unit (s := S8192x128) ![7168, 0] S1024x128.size inb_S8192x128_S1024x128_7168_0)
  let v515 : Vec F S1x1024 .f32 := View.ld x3 (Rect.unit (s := S1x8192) ![0, 7168] S1x1024.size inb_S1x8192_S1x1024_0_7168)
  let v517 : Vec F S1x1024 .i32 := View.ld x5 (Rect.unit (s := S1x8192) ![0, 7168] S1x1024.size inb_S1x8192_S1x1024_0_7168)
  let v507 := k0_pay57 v230 v467 v489 v496
  let v512 := k0_pay58 v472 v496
  let v536 := k0_pay59 v5 v9 v517
  let v542 := k0_pay60 v1 v3 v230 v513 v515
  (k0_pay1 v507 v536 v542, k0_pay2 v512 v536)

/-- The block of row sums. -/
def out6 (i : grid0.Coords) (x0 : Vec F S256x128 .f32) (x1 : Vec F S8192x128 .f32) (x2 : Vec F S256x1 .f32) (x3 : Vec F S1x8192 .f32)
    (x4 : Vec F S256x1 .i32) (x5 : Vec F S1x8192 .i32) : Vec F S256x1 .f32 := (outs i x0 x1 x2 x3 x4 x5).1
/-- The block of row counts. -/
def out7 (i : grid0.Coords) (x0 : Vec F S256x128 .f32) (x1 : Vec F S8192x128 .f32) (x2 : Vec F S256x1 .f32) (x3 : Vec F S1x8192 .f32)
    (x4 : Vec F S256x1 .i32) (x5 : Vec F S1x8192 .i32) : Vec F S256x1 .f32 := (outs i x0 x1 x2 x3 x4 x5).2

end Cert.KernelIdeal.Hand

end
-- ==== Proof.KI.Body.lean ====
/- The kernel body's triple. On whole staging memrefs — the six inputs' at the contents x0 … x5, the two results' and the
   scratch column's at anything — one call of the body runs to its continuation holding the inputs' as they were, the
   first result's at the block of row sums `out6`, the second's at the block of row counts `out7`, the scratch at some
   contents. The scratch column is cleared before it is first read and only then accumulated into, so what a point
   computes does not depend on what the point before left there. -/
import proofs.«166613_j1864015806540_1_alg».proof.Proof.KI.BodyOut
import proofs.«166613_j1864015806540_1_alg».proof.Proof.Gen.KernelIdeal.Launch
import proofs.«166613_j1864015806540_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two rectangle, spelt as a constant function: the rectangle at these offsets of the
    shape's own extents is the whole shape. -/
theorem zero_offsets : (![0, 0] : Fin 2 → Nat) = fun _ => 0 := funext fun a => by fin_cases a <;> rfl

set_option maxHeartbeats 4000000 in
theorem sound_kernel (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x1 .f32) (harg3 : arg3.IsWhole) (arg4 : Memref sig .tc .vmem S1x8192 .f32) (harg4 : arg4.IsWhole) (arg5 : Memref sig .tc .vmem S256x1 .i32) (harg5 : arg5.IsWhole) (arg6 : Memref sig .tc .vmem S1x8192 .i32) (harg6 : arg6.IsWhole) (arg7 : Memref sig .tc .vmem S256x1 .f32) (harg7 : arg7.IsWhole) (arg8 : Memref sig .tc .vmem S256x1 .f32) (harg8 : arg8.IsWhole) (arg9 : Memref sig .tc .vmem S256x1 .f32) (harg9 : arg9.IsWhole)
    (x0 : Vec F S256x128 .f32) (x1 : Vec F S8192x128 .f32) (x2 : Vec F S256x1 .f32) (x3 : Vec F S1x8192 .f32) (x4 : Vec F S256x1 .i32) (x5 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 i x0 x1 x2 x3 x4 x5) ∗ owns (c : Thread nD τ) arg8 fullShare (out7 i x0 x1 x2 x3 x4 x5)
            ∗ (∃ d, owns (c : Thread nD τ) arg9 fullShare d)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  -- a whole memref's raw contents are determined by what it reads: every value below is a term over x0 … x5
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  -- the body is straight-line: loads through literal rectangles, whole-column stores to the scratch and the results
  sl_exec
  sl_step
  iapply Hk
  -- the six inputs were only read
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    -- the first result was stored once, through its whole rectangle: it reads that payload. Each load of the scratch
    -- column reads the payload of the whole-column store before it (the zero column first, then the running sums), so
    -- the payload is the composite of the chunk payloads along the data flow
    rw [View.read_writes_eq_canon _ _ _
        (fun y => ⟨_, List.mem_singleton_self _, View.mem_set_unit_zero zero_offsets inb_S256x1_S256x1_0_0 y⟩),
      View.canon_unit_zero zero_offsets]
    unfold out6 outs
    dsimp only
    sl_unfold_run_names
    simp only [View.readAt_eq_ld, harg1.read_unread, harg2.read_unread, harg3.read_unread, harg4.read_unread,
      harg5.read_unread, harg6.read_unread, View.readCov_cons_toLoadRect]
  isplitl [H7]
  · iexists _; isplitr; swap; · iexact H7
    ipureintro
    -- the second result likewise; the pair counts do not read the scratch column
    rw [View.read_writes_eq_canon _ _ _
        (fun y => ⟨_, List.mem_singleton_self _, View.mem_set_unit_zero zero_offsets inb_S256x1_S256x1_0_0 y⟩),
      View.canon_unit_zero zero_offsets]
    unfold out7 outs
    dsimp only
    sl_unfold_run_names
    simp only [View.readAt_eq_ld, harg1.read_unread, harg2.read_unread, harg3.read_unread, harg4.read_unread,
      harg5.read_unread, harg6.read_unread, View.readCov_cons_toLoadRect]
  -- the scratch column ends at the last running sum; the triple only says it is held
  iexists _, _; isplitr; swap; · iexact H8
  ipureintro; rfl

end Cert.KernelIdeal.Hand

end
-- ==== Proof.KI.Dat.lean ====
/- The pipeline's proof data for the one kernel region, at the contents `V` the region finds in the TensorCore's
   buffers, and the body obligation at every grid point. An input window's staging buffer holds that window's block of
   its array at every point, fetched there or not; the two result windows' hold what the body computes from the six
   input blocks. The embedding table is read through two windows — the 256 anchor rows of the point, and the whole
   table —, so the table's array is held at one half share by each. -/
import proofs.«166613_j1864015806540_1_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The six input blocks at a point, at their literal types. -/
abbrev b0 (c : Dev nD) (t : Fin cfg0.N) : Vec F S256x128 .f32 := iblk V c 0 t
abbrev b1 (c : Dev nD) (t : Fin cfg0.N) : Vec F S8192x128 .f32 := iblk V c 1 t
abbrev b2 (c : Dev nD) (t : Fin cfg0.N) : Vec F S256x1 .f32 := iblk V c 2 t
abbrev b3 (c : Dev nD) (t : Fin cfg0.N) : Vec F S1x8192 .f32 := iblk V c 3 t
abbrev b4 (c : Dev nD) (t : Fin cfg0.N) : Vec F S256x1 .i32 := iblk V c 4 t
abbrev b5 (c : Dev nD) (t : Fin cfg0.N) : Vec F S1x8192 .i32 := iblk V c 5 t

/-- What the body leaves in the first result window's buffer at point `t`: the row sums of its 256 anchors. -/
def blk6 (c : Dev nD) (t : Fin cfg0.N) : Vec F S256x1 .f32 :=
  out6 (grid0.coords t) (b0 V c t) (b1 V c t) (b2 V c t) (b3 V c t) (b4 V c t) (b5 V c t)
/-- and in the second's: their pair counts. -/
def blk7 (c : Dev nD) (t : Fin cfg0.N) : Vec F S256x1 .f32 :=
  out7 (grid0.coords t) (b0 V c t) (b1 V c t) (b2 V c t) (b3 V c t) (b4 V c t) (b5 V c t)

/-- The proof data: the arrays as the region finds them; after the body each input's buffer at its block, each result's
    at what the body computed; the invariant the scoped rest (the scratch column at anything) and the generator register;
    the embedding table's array split in halves between its two windows; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => blk6 V c t
    | ⟨7, _⟩ => blk7 V c t
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = iblk V c 5 t := by dsimp only [dat0]
theorem after_6 (c : Dev nD) (t : Fin cfg0.N) : (dat0 V c).after 6 t = blk6 V c t := by dsimp only [dat0]
theorem after_7 (c : Dev nD) (t : Fin cfg0.N) : (dat0 V c).after 7 t = blk7 V c t := by dsimp only [dat0]

/-- The shares: the table's array in halves between windows 0 and 1, every other array whole. -/
theorem share_0 (c : Dev nD) : (dat0 V c).share 0 = fullShare.left := by
  unfold Dat.share
  rw [if_neg (by decide)]
  rfl
theorem share_1 (c : Dev nD) : (dat0 V c).share 1 = fullShare.right := by
  unfold Dat.share
  rw [if_neg (by decide)]
  rfl
theorem share_ge2 (c : Dev nD) (w : Fin cfg0.W) (h : 2 ≤ w.val) : (dat0 V c).share w = fullShare := by
  unfold Dat.share
  match w, h with
  | ⟨0, _⟩, h => exact absurd h (by simp)
  | ⟨1, _⟩, h => exact absurd h (by simp)
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨n + 8, hn⟩, _ => exact absurd hn (Nat.not_lt.2 (Nat.le_add_left _ _))

/-- An input window's array is never written: it ends as the region found it. -/
theorem arrAt_in (c : Dev nD) (w : Fin cfg0.W) (h : w.val < 6) (n : ℕ) : (dat0 V c).arrAt w n = V c (Pipeline.arrRef spec0 w) := by
  have hin : (cfg0.win w).isOut = false := by
    match w, h with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨n + 6, hn⟩, h => exact absurd h (Nat.not_lt.2 (Nat.le_add_left _ _))
  rw [(dat0 V c).arrAt_in w hin n, A_eq]

/-- Each input's current staging buffer holds its block at every point, fetched there or not: fetched, the fetch put
    the block there; unfetched, the block index has not moved since the point before, whose body left the block in place.
    The windows are uncut and never idle. -/
theorem before_0 (c : Dev nD) (t : Fin cfg0.N) (d) : (dat0 V c).before 0 t d = iblk V c 0 t :=
  ((dat0 V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 V c).before 4 t d = iblk V c 4 t :=
  ((dat0 V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat0 V c).before 5 t d = iblk V c 5 t :=
  ((dat0 V c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- The region invariant with the scratch column as a memref owned at some contents. -/
theorem PhiA_eq (c : Dev nD) :
    (Pipeline.ΦA spec0 c : sProp 𝕄)
      = iprop(iprop((∃ d, owns (c : Thread nD τ) (Memref.whole cc0_scratch0 : Memref sig .tc .vmem S256x1 .f32) fullShare d)) ∗ (∃ r, prngReg c r)) := by
  unfold Pipeline.ΦA; rw [scopedRest0_eq]; simp only [owns_whole]; try rfl

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the six inputs' memrefs hold their blocks, the two results' anything; the invariant lends the
    scratch column at some contents and takes it back at some contents, so it is the same invariant at every point;
    what the core owes passes through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat0 V c).Φ t.succ = Pipeline.ΦA spec0 c from rfl,
    show (dat0 V c).Φ t.castSucc = Pipeline.ΦA spec0 c from rfl,
    show (dat0 V c).owesAt () t.succ = (dat0 V c).owesAt () t.castSucc from rfl,
    after_0, after_1, after_2, after_3, after_4, after_5, after_6, after_7, PhiA_eq]
  unfold blk6 blk7
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ (b0 V c t) (b1 V c t) (b2 V c t) (b3 V c t) (b4 V c t) (b5 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KI.Vals.lean ====
/- The TensorCore's buffer contents at each boundary between @main's items, as a fold from the launch memory: the
   host operations before the region (the squared norms and the reshapes), the region (its two result arrays at what
   the write-backs leave; every other buffer as it was, the region's inputs included), then the three stretches of host
   operations after it (the segment sums, the masked mean, the final quotient). -/
import proofs.«166613_j1864015806540_1_alg».proof.Proof.KI.Dat
import Idealize.ShloMosaic.Lib.Pipeline.Regions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations before the region. -/
abbrev W1 : Dev nD → Valuation τ sig (Elt F) := fun c => StableHlo.after hostOps0 (W0 m c)
/-- The same read at the TensorCore's references: what the region's proof data take. -/
abbrev V1 : (c : Dev nD) → (b : Ref sig .tc) → Buf (Elt F) ((c : Thread nD τ).loc b) := fun c b => W1 m c b
/-- The region's proof data, at its entry contents. -/
abbrev dat (c : Dev nD) : Dat τ (Elt F) Unit ℕ (UR sig nD τ) ℕ cfg0 c := dat0 (V1 m) c
/-- At the region's exit: the two result arrays at what the 32 write-backs leave, every other buffer as entered. -/
def W2 (c : Dev nD) : Valuation τ sig (Elt F) :=
  Function.update (Function.update (W1 m c) (Proc.devRef .tc main_v6_0) ((dat m c).arrAt 6 cfg0.N))
    (Proc.devRef .tc main_v6_1) ((dat m c).arrAt 7 cfg0.N)
/-- After the first stretch of host operations behind the region (the segment sums up to the quotient), -/
abbrev W3 : Dev nD → Valuation τ sig (Elt F) := fun c => StableHlo.after hostOps1 (W2 m c)
/-- the masked select, -/
abbrev W4 : Dev nD → Valuation τ sig (Elt F) := fun c => StableHlo.after hostOps1_1 (W3 m c)
/-- and the last stretch (the count of non-empty classes and the final quotient). -/
abbrev W5 : Dev nD → Valuation τ sig (Elt F) := fun c => StableHlo.after hostOps1_2 (W4 m c)

theorem W2_v6_0 (c : Dev nD) : W2 m c (Proc.devRef .tc main_v6_0) = (dat m c).arrAt 6 cfg0.N := by
  unfold W2
  rw [Function.update_of_ne (StableHlo.devRef_ne_of_ne (by decide)), Function.update_self]
theorem W2_v6_1 (c : Dev nD) : W2 m c (Proc.devRef .tc main_v6_1) = (dat m c).arrAt 7 cfg0.N := by
  unfold W2
  rw [Function.update_self]
theorem W2_of_ne (c : Dev nD) (b : Ref sig .tc) (h0 : b ≠ main_v6_0) (h1 : b ≠ main_v6_1) :
    W2 m c (Proc.devRef .tc b) = W1 m c (Proc.devRef .tc b) := by
  unfold W2
  rw [Function.update_of_ne (StableHlo.devRef_ne_of_ne h1), Function.update_of_ne (StableHlo.devRef_ne_of_ne h0)]

end Cert.KernelIdeal.Hand

end
-- ==== Proof.KI.Launch.lean ====
/- The run of @main: the host operations before the region, the kernel region, the host operations after it, from
   any launch memory with zero counters. Every weakly fair execution terminates, nothing faulting, with the scalar
   result at the last boundary's contents and both arguments as launched. The region is entered with the embedding
   table's array split in two half shares, one per window on it, and left with the halves joined again: both windows
   only read it, so both halves end at the entry contents. -/
import proofs.«166613_j1864015806540_1_alg».proof.Proof.KI.Vals
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's buffer in two halves, and back

The windows' arrays sit on SEVEN buffers: the embedding table's (windows 0 and 1), the two reshapes of the squared
norms, the two reshapes of the labels, and the two results. At entry each buffer is held whole at the full share; the
table's is cut in its left and right half shares, one per window. At exit the two halves, both still at the entry
contents, are joined. -/

/-- The arrays with every element set spelt as the whole buffer: each window's array is a whole buffer. -/
theorem arrays_whole (c : Dev nD) (G : (w : Fin cfg0.W) → Buf (Elt F) ((cfg0.win w).arr.view.loc (c.tc : Thread nD τ))) :
    ((dat m c).arrays G : sProp 𝕄)
      = bigSep Finset.univ fun w : Fin 8 => (((c.tc : Thread nD τ).loc (Pipeline.arrRef spec0 w)) ↦{(dat m c).share w} G w : sProp 𝕄) := by
  unfold Dat.arrays
  exact bigSep_congr fun w _ => by rw [(arr_whole0 w).set_eq_univ]

/-- The seven buffers behind the eight windows, one by one. -/
theorem arrBufs_list (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0)
          ∗ (((c.tc : Thread nD τ).loc main_v2) ↦{fullShare} V main_v2)
          ∗ (((c.tc : Thread nD τ).loc main_v3) ↦{fullShare} V main_v3)
          ∗ (((c.tc : Thread nD τ).loc main_v4) ↦{fullShare} V main_v4)
          ∗ (((c.tc : Thread nD τ).loc main_v5) ↦{fullShare} V main_v5)
          ∗ (((c.tc : Thread nD τ).loc main_v6_0) ↦{fullShare} V main_v6_0)
          ∗ (((c.tc : Thread nD τ).loc main_v6_1) ↦{fullShare} V main_v6_1)) := by
  unfold Pipeline.arrBufs
  exact bigSep_eq_bigSepL_of_eq [main_arg0, main_v2, main_v3, main_v4, main_v5, main_v6_0, main_v6_1] (by decide) (by decide) _

/-- ENTRY: the seven buffers at the entry contents are the eight windows' arrays, the table's buffer cut in halves. -/
theorem arrays_entry (c : Dev nD) :
    (Pipeline.arrBufs (Ix := Unit) (Name := ℕ) (U := UR sig nD τ) (Lvl := ℕ) spec0 c (V1 m c) : sProp 𝕄)
      ⊢ (dat m c).arrays ((dat m c).arrAt · 0) := by
  rw [arrBufs_list, arrays_whole, bigSep_W0, share_0, share_1, share_ge2 (V1 m) c 2 (by decide), share_ge2 (V1 m) c 3 (by decide),
    share_ge2 (V1 m) c 4 (by decide), share_ge2 (V1 m) c 5 (by decide), share_ge2 (V1 m) c 6 (by decide), share_ge2 (V1 m) c 7 (by decide)]
  iintro ⟨H0, H2, H3, H4, H5, H6, H7⟩
  ihave H0 := (pointsTo_share (PosShare.mem_left_op_right fullShare)).1 $$ H0
  icases H0 with ⟨H0l, H0r⟩
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

/-- What each window's array holds after the last write-back, read off the exit contents: an input's array is never
    written and the exit contents keep it; a result's array is what the exit contents are defined to hold. -/
theorem arrAt_exit (c : Dev nD) : ∀ w : Fin 8, (dat m c).arrAt w cfg0.N = W2 m c (Proc.devRef .tc (Pipeline.arrRef spec0 w))
  | 0 => (arrAt_in (V1 m) c 0 (by decide) _).trans (W2_of_ne m c main_arg0 (by decide) (by decide)).symm
  | 1 => (arrAt_in (V1 m) c 1 (by decide) _).trans (W2_of_ne m c main_arg0 (by decide) (by decide)).symm
  | 2 => (arrAt_in (V1 m) c 2 (by decide) _).trans (W2_of_ne m c main_v2 (by decide) (by decide)).symm
  | 3 => (arrAt_in (V1 m) c 3 (by decide) _).trans (W2_of_ne m c main_v3 (by decide) (by decide)).symm
  | 4 => (arrAt_in (V1 m) c 4 (by decide) _).trans (W2_of_ne m c main_v4 (by decide) (by decide)).symm
  | 5 => (arrAt_in (V1 m) c 5 (by decide) _).trans (W2_of_ne m c main_v5 (by decide) (by decide)).symm
  | 6 => (W2_v6_0 m c).symm
  | 7 => (W2_v6_1 m c).symm
  | ⟨_ + 8, h⟩ => absurd h (Nat.not_lt.2 (Nat.le_add_left _ _))

/-- EXIT, the arrays' part: the eight windows' arrays after the last write-back are the seven buffers at the exit
    contents, the table's two halves — both still at the entry contents — joined. -/
theorem arrays_exit_bufs (c : Dev nD) :
    ((dat m c).arrays ((dat m c).arrAt · cfg0.N) : sProp 𝕄)
      ⊢ Pipeline.arrBufs (Ix := Unit) (Name := ℕ) (U := UR sig nD τ) (Lvl := ℕ) spec0 c (fun b => W2 m c b) := by
  rw [arrays_whole,
    show (bigSep Finset.univ fun w : Fin 8 => (((c.tc : Thread nD τ).loc (Pipeline.arrRef spec0 w)) ↦{(dat m c).share w} (dat m c).arrAt w cfg0.N : sProp 𝕄))
      = bigSep Finset.univ fun w : Fin 8 => (((c.tc : Thread nD τ).loc (Pipeline.arrRef spec0 w)) ↦{(dat m c).share w} W2 m c (Proc.devRef .tc (Pipeline.arrRef spec0 w)) : sProp 𝕄)
      from bigSep_congr fun w _ => by rw [arrAt_exit m c w],
    arrBufs_list, bigSep_W0, share_0, share_1, share_ge2 (V1 m) c 2 (by decide), share_ge2 (V1 m) c 3 (by decide),
    share_ge2 (V1 m) c 4 (by decide), share_ge2 (V1 m) c 5 (by decide), share_ge2 (V1 m) c 6 (by decide), share_ge2 (V1 m) c 7 (by decide)]
  iintro ⟨H0l, H0r, H2, H3, H4, H5, H6, H7⟩
  isplitl [H0l H0r]
  · iapply (pointsTo_share (PosShare.mem_left_op_right fullShare)).2
    isplitl [H0l]; · iexact H0l
    iexact H0r
  isplitl [H2]; · iexact H2
  isplitl [H3]; · iexact H3
  isplitl [H4]; · iexact H4
  isplitl [H5]; · iexact H5
  isplitl [H6]; · iexact H6
  iexact H7

/-- EXIT: the windows' arrays after the last write-back, and the unscoped buffers no window is on at the entry
    contents, are all the unscoped buffers at the exit contents. -/
theorem arrays_exit (c : Dev nD) :
    iprop((dat m c).arrays ((dat m c).arrAt · cfg0.N)
        ∗ Pipeline.unscopedRest (Ix := Unit) (Name := ℕ) (U := UR sig nD τ) (Lvl := ℕ) spec0 c (V1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.unscopedBufs_split₀ cfgs 0 winFacts₀0.arr_unscoped c (fun b => W2 m c b)]
  refine sep_mono (arrays_exit_bufs m c) (Entails.of_eq ?_)
  unfold Pipeline.unscopedRest
  exact bigSep_congr fun b hb => by
    have hb' := (Finset.mem_sdiff.mp hb).2
    beta_reduce
    rw [W2_of_ne m c b (fun e => hb' (by rw [e]; decide)) (fun e => hb' (by rw [e]; decide))]

/-- ENTRY, over all the unscoped buffers: at the entry contents they are the windows' arrays and the rest. -/
theorem held_entry (c : Dev nD) :
    (StableHlo.held (c : Thread nD τ) (Pipeline.ucRefs τ sig) (W1 m c) : sProp 𝕄)
      ⊢ iprop((dat m c).arrays ((dat m c).arrAt · 0)
          ∗ Pipeline.unscopedRest (Ix := Unit) (Name := ℕ) (U := UR sig nD τ) (Lvl := ℕ) spec0 c (V1 m c)) := by
  rw [← Pipeline.unscopedBufs_held (Ix := Unit) (Name := ℕ) (U := UR sig nD τ) (Lvl := ℕ) c (W1 m c),
    Pipeline.unscopedBufs_split₀ cfgs 0 winFacts₀0.arr_unscoped c (fun b => W1 m c b)]
  exact sep_mono (arrays_entry m c) .rfl

/-! ## No item writes an argument -/

section Args

variable (b : Ref sig .tc)

/-- A buffer that no host operation of @main writes, and that is neither result array, holds at the end what it held
    at launch. -/
theorem W5_of_not_written (c : Dev nD) (h0 : b ≠ main_v6_0) (h1 : b ≠ main_v6_1)
    (hw0 : ∀ op ∈ (hostOps0 : List (HloOp τ sig (Elt F))), (Proc.devRef .tc b : DevRef τ sig) ∉ op.writes)
    (hw1 : ∀ op ∈ (hostOps1 : List (HloOp τ sig (Elt F))), (Proc.devRef .tc b : DevRef τ sig) ∉ op.writes)
    (hw2 : ∀ op ∈ (hostOps1_1 : List (HloOp τ sig (Elt F))), (Proc.devRef .tc b : DevRef τ sig) ∉ op.writes)
    (hw3 : ∀ op ∈ (hostOps1_2 : List (HloOp τ sig (Elt F))), (Proc.devRef .tc b : DevRef τ sig) ∉ op.writes) :
    W5 m c (Proc.devRef .tc b) = m ((c.tc : Thread nD τ).loc b) :=
  calc W5 m c (Proc.devRef .tc b)
    _ = W4 m c (Proc.devRef .tc b) := StableHlo.after_of_forall_not_mem _ _ hw3
    _ = W3 m c (Proc.devRef .tc b) := StableHlo.after_of_forall_not_mem _ _ hw2
    _ = W2 m c (Proc.devRef .tc b) := StableHlo.after_of_forall_not_mem _ _ hw1
    _ = W1 m c (Proc.devRef .tc b) := W2_of_ne m c b h0 h1
    _ = W0 m c (Proc.devRef .tc b) := StableHlo.after_of_forall_not_mem _ _ hw0
    _ = m ((c.tc : Thread nD τ).loc b) := rfl

end Args

theorem W5_main_arg0 (c : Dev nD) : W5 m c (Proc.devRef .tc main_arg0) = m ((c.tc : Thread nD τ).loc main_arg0) :=
  W5_of_not_written m main_arg0 c (by decide) (by decide)
    (List.forall_iff_forall_mem.mp (by
      simp only [hostOps0, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_2, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))

theorem W5_main_arg1 (c : Dev nD) : W5 m c (Proc.devRef .tc main_arg1) = m ((c.tc : Thread nD τ).loc main_arg1) :=
  W5_of_not_written m main_arg1 c (by decide) (by decide)
    (List.forall_iff_forall_mem.mp (by
      simp only [hostOps0, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_1, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))
    (List.forall_iff_forall_mem.mp (by
      simp only [hostOps1_2, List.Forall, StableHlo.nullary_writes, StableHlo.unary_writes, StableHlo.binary_writes, StableHlo.ternary_writes,
        StableHlo.reshape_writes, Finset.mem_singleton]
      repeat' apply And.intro
      all_goals exact StableHlo.devRef_ne_of_ne (by decide)))

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
/-- No core owes another anything: no level is assigned. -/
abbrev Lv : GSem nD τ sig → Finset Unit := fun _ => ∅
abbrev lvl : GSem nD τ sig → Unit → ℕ := fun _ _ => 0
/-- What rides beside the buffers through every segment: the generator register at some state, and nothing owed. -/
abbrev ride (c : Dev nD) : sProp 𝕄 := iprop((∃ r, prngReg c r) ∗ ∃ W, owes (c : Thread nD τ) (0 : CellTallies nD τ sig Unit) W)
/-- A stretch of host operations as a segment over all the unscoped buffers, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what is owed: every unscoped buffer at the last contents, the generator register. -/
abbrev Tₙ (c : Dev nD) : sProp 𝕄 := iprop(StableHlo.held (c : Thread nD τ) (Pipeline.ucRefs τ sig) (W5 m c) ∗ ∃ r, prngReg c r)

/-! ## The region as a segment -/

set_option backward.isDefEq.respectTransparency.types false in
/-- The kernel region over the thread state: entered with every unscoped buffer at the contents the first host
    operations leave, left with them at the exit contents. The generator register goes into the invariant and comes back;
    nothing is owed; the kernel has no semaphore of its own. -/
def reg0 : Pipeline.RegionSeg (pcfgs (F := F)) adm (pdats m) () defs₀ 𝒱₀ Lv lvl 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ Lv lvl 0 fun _ _ => rfl
  pre c := iprop(StableHlo.held (c : Thread nD τ) (Pipeline.ucRefs τ sig) (W1 m c) ∗ ride c)
  post c := iprop(StableHlo.held (c : Thread nD τ) (Pipeline.ucRefs τ sig) (W2 m c) ∗ ride c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := held_entry m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit m c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order: the host operations before the region, the region, the three stretches after it. -/
abbrev segs : List (Pipeline.Seg (pcfgs (F := F)) adm (pdats m) () defs₀ 𝒱₀ Lv lvl) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)) ]

set_option backward.isDefEq.respectTransparency.types false in
/-- THE RUN: from any launch memory with zero counters, every weakly fair execution of @main terminates, nothing
    faulting; the final memory holds the scalar result at the last boundary's contents, and both arguments as launched:
    the segments run in order from the launch's thread state, the last thread state read against the final state, each
    argument walked back through the boundaries to the launch memory. -/
theorem run_main :
    θ_run (defs (F := F)) (onTc (τ := τ) (main (F := F))) ⟨m, fun _ => 0, ρ⟩ (fun r => ∀ c : Dev nD,
      r.2.mem ((c.tc : Thread nD τ).loc main_v26) = W5 m c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ Lv lvl m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ ride c) ⊢ _
      iintro ⟨Hh, Hp, HO⟩
      isplitl [Hh Hp]
      · isplitl [Hh]; · iexact Hh
        iexact Hp
      iexact HO⟩)
    (hinit := by
      refine Pipeline.initEach Lv lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh]; · iexact Hh
      iexact HSI)
    (hQ := fun s h c =>
      ⟨h c _ (mem_uc main_v26 (by decide)),
        (h c _ (mem_uc main_arg0 (by decide))).trans (W5_main_arg0 m c),
        (h c _ (mem_uc main_arg1 (by decide))).trans (W5_main_arg1 m c)⟩)

end Cert.KernelIdeal.Hand

end
-- ==== Proof.Spec.lean ====
/- The N-pair loss's two per-anchor quantities as plain functions on the extended reals, stated once for both programs.
   For an anchor row with embedding `xr`, squared norm `sr` and label `lr`, against all 8192 rows (embeddings `xc`, squared
   norms `sc`, labels `lc`): the distance to row j is (sr + sc j) − 2·⟨xr, xc j⟩; Z is the sum of exp of the distances over
   the rows of another label; a pair is a row of the same label with a larger index than the anchor's own index `g`; the
   anchor's loss is the sum over its pairs of log(1 + Z·exp(−distance)), its count the number of its pairs. The squared
   norms enter as given numbers: both programs compute them by the same host reduction, which is never opened. -/
import Idealize.ShloMosaic.PureOps.Ideal
import Idealize.ShloMosaic.Lib.ValueIdx
import Mathlib.Algebra.BigOperators.Group.Finset.Basic

noncomputable section

namespace Cert.Spec

open Idealize.ShloMosaic

/-- The float literal 2.0, kept as its word. -/
abbrev two : EReal := Ideal.ofBits .f32 0x40000000#32

/-- The distance from the anchor to row `j`. -/
def dist (xr : Fin 128 → EReal) (sr : EReal) (xc : Fin 8192 → Fin 128 → EReal) (sc : Fin 8192 → EReal) (j : Fin 8192) : EReal :=
  (sr + sc j) - two * ∑ k : Fin 128, xr k * xc j k

/-- Z: the sum of exp of the distances over the rows of another label. -/
def zsum (xr : Fin 128 → EReal) (sr : EReal) (lr : BitVec 32) (xc : Fin 8192 → Fin 128 → EReal) (sc : Fin 8192 → EReal)
    (lc : Fin 8192 → BitVec 32) : EReal :=
  ∑ j : Fin 8192, if lr ≠ lc j then Ideal.exp (dist xr sr xc sc j) else 0

/-- Row `j` pairs with the anchor of index `g`: same label, larger index. -/
def IsPair (g : ℕ) (lr : BitVec 32) (lc : Fin 8192 → BitVec 32) (j : Fin 8192) : Prop := lr = lc j ∧ g < j.val

instance (g : ℕ) (lr : BitVec 32) (lc : Fin 8192 → BitVec 32) (j : Fin 8192) : Decidable (IsPair g lr lc j) := by
  unfold IsPair; infer_instance

/-- The anchor's loss summed over its pairs. -/
def rowSum (g : ℕ) (xr : Fin 128 → EReal) (sr : EReal) (lr : BitVec 32) (xc : Fin 8192 → Fin 128 → EReal) (sc : Fin 8192 → EReal)
    (lc : Fin 8192 → BitVec 32) : EReal :=
  ∑ j : Fin 8192, if IsPair g lr lc j then Ideal.log1p (zsum xr sr lr xc sc lc * Ideal.exp (-(dist xr sr xc sc j))) else 0

/-- The number of the anchor's pairs. -/
def rowCnt (g : ℕ) (lr : BitVec 32) (lc : Fin 8192 → BitVec 32) : EReal :=
  ∑ j : Fin 8192, if IsPair g lr lc j then 1 else 0

/-- Row `r`'s loss and count in the whole table: the anchor is row `r` itself. -/
def rowSumAt (x : Fin 8192 → Fin 128 → EReal) (sq : Fin 8192 → EReal) (l : Fin 8192 → BitVec 32) (r : Fin 8192) : EReal :=
  rowSum r.val (x r) (sq r) (l r) x sq l
def rowCntAt (l : Fin 8192 → BitVec 32) (r : Fin 8192) : EReal := rowCnt r.val (l r) l

end Cert.Spec

end
-- ==== Proof.RefVal.lean ====
/- The reference's per-row loss and pair count at the exact instance, read at a row: the specification's row loss and
   row count of that row against the whole table. The reference builds the full 8192 × 8192 distance matrix by
   broadcasts and one matrix product with the transposed table, masks it, and reduces along the columns; its pair count
   is an integer sum of the widened mask bits converted to a float afterwards — at most 8192, so the 32-bit sum never
   wraps and the conversion is the number of pairs. -/
import proofs.«166613_j1864015806540_1_alg».proof.Proof.RefReadP
import proofs.«166613_j1864015806540_1_alg».proof.Proof.Spec
import Idealize.ShloMosaic.Lib.StableHlo.Predicate
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.ReadP
open scoped BigOperators

/-! ## One-bit words -/

/-- The conjunction of two bits is set exactly when both are. -/
theorem and_bit_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- The complement of a bit is set exactly when the bit is not. -/
theorem not_bit_iff (a : BitVec 1) : ~~~a = 1#1 ↔ ¬a = 1#1 := by
  rcases BitVec.eq_zero_or_eq_one a with rfl | rfl <;> decide

/-- Two positions below 8192, as 32-bit words, compare signed as the positions do. -/
theorem pos_lt_iff (r j : Fin 8192) :
    IntOp.cmpi .slt (BitVec.ofNat 32 r.val) (BitVec.ofNat 32 j.val) = 1#1 ↔ r.val < j.val := by
  have hr : (BitVec.ofNat 32 r.val).toNat = r.val := by
    rw [BitVec.toNat_ofNat]; exact Nat.mod_eq_of_lt (by have := r.isLt; omega)
  have hj : (BitVec.ofNat 32 j.val).toNat = j.val := by
    rw [BitVec.toNat_ofNat]; exact Nat.mod_eq_of_lt (by have := j.isLt; omega)
  rw [StableHlo.Predicate.slt_iff_toNat (by rw [hr]; have := r.isLt; omega) (by rw [hj]; have := j.isLt; omega), hr, hj]

/-! ## Where each broadcast, the transpose and the product read, at row `r` and column `j` -/

theorem e_v2v4 (r j : Fin 8192) : idx_main_v2 (idx_main_v4 (ix2 r j)) = ix1 r :=
  funext fun a => Fin.ext (by match a with | ⟨0, _⟩ => rfl)
theorem e_v3v5 (r j : Fin 8192) : idx_main_v3 (idx_main_v5 (ix2 r j)) = ix1 j :=
  funext fun a => Fin.ext (by match a with | ⟨0, _⟩ => rfl)
theorem e_v12v14 (r j : Fin 8192) : idx_main_v12 (idx_main_v14 (ix2 r j)) = ix1 r :=
  funext fun a => Fin.ext (by match a with | ⟨0, _⟩ => rfl)
theorem e_v13v15 (r j : Fin 8192) : idx_main_v13 (idx_main_v15 (ix2 r j)) = ix1 j :=
  funext fun a => Fin.ext (by match a with | ⟨0, _⟩ => rfl)
theorem e_v22v24 (r j : Fin 8192) : idx_main_v22 (idx_main_v24 (ix2 r j)) = ix1 r :=
  funext fun a => Fin.ext (by match a with | ⟨0, _⟩ => rfl)
theorem e_v23v25 (r j : Fin 8192) : idx_main_v23 (idx_main_v25 (ix2 r j)) = ix1 j :=
  funext fun a => Fin.ext (by match a with | ⟨0, _⟩ => rfl)
theorem e_v28v31 (r j : Fin 8192) : idx_main_v28 (idx_main_v31 (ix2 r j)) = ix1 r :=
  funext fun a => Fin.ext (by match a with | ⟨0, _⟩ => rfl)
theorem e_l8 (r j : Fin 8192) (k : Fin 128) : lidx_main_v8 (ix2 r j) k = ix2 r k :=
  funext fun a => Fin.ext (by match a with | ⟨0, _⟩ => rfl | ⟨1, _⟩ => rfl)
theorem e_r8 (r j : Fin 8192) (k : Fin 128) : idx_main_v7 (ridx_main_v8 (ix2 r j) k) = ix2 j k :=
  funext fun a => Fin.ext (by match a with | ⟨0, _⟩ => rfl | ⟨1, _⟩ => rfl)
theorem e_v20 (r j : Fin 8192) : idx_main_v20 (ix1 r) j = ix2 r j :=
  funext fun a => Fin.ext (by match a with | ⟨0, _⟩ => rfl | ⟨1, _⟩ => rfl)
theorem e_v35 (r j : Fin 8192) : idx_main_v35 (ix1 r) j = ix2 r j :=
  funext fun a => Fin.ext (by match a with | ⟨0, _⟩ => rfl | ⟨1, _⟩ => rfl)

/-! ## The distance matrix and the two masks at an element -/

/-- The distance matrix at (r, j) is the specification's distance from row `r` to row `j`. -/
theorem dist_apply (x0 : (⟨S8192x128, .f32⟩ : BufTy).Contents (Elt Ideal)) (r j : Fin 8192) :
    val_main_v11 (F := Ideal) x0 (ix2 r j)
      = Spec.dist (fun k => x0 (ix2 r k)) (val_main_v1 (F := Ideal) x0 (ix1 r)) (fun j k => x0 (ix2 j k))
          (fun j => val_main_v1 (F := Ideal) x0 (ix1 j)) j := by
  rw [val_main_v11_apply, val_main_v6_apply, val_main_v4_apply, val_main_v2_apply, val_main_v5_apply, val_main_v3_apply,
    val_main_v10_apply, val_main_v9_apply, val_main_cst_0_apply, val_main_v8_apply]
  simp only [val_main_v7_apply, e_v2v4, e_v3v5, e_l8, e_r8, Ideal.subf_def, Ideal.addf_def, Ideal.mulf_def, Ideal.ofBits_def]
  rfl

/-- The label mask at (r, j) compares the two rows' labels. -/
theorem same_apply (x1 : (⟨S8192, .i32⟩ : BufTy).Contents (Elt Ideal)) (r j : Fin 8192) :
    val_main_v16 (F := Ideal) x1 (ix2 r j) = IntOp.cmpi .eq (x1 (ix1 r)) (x1 (ix1 j)) := by
  rw [val_main_v16_apply, val_main_v14_apply, val_main_v12_apply, val_main_v15_apply, val_main_v13_apply, e_v12v14, e_v13v15]

/-- The index mask at (r, j) compares the two positions. -/
theorem lt_apply (r j : Fin 8192) :
    val_main_v26 (F := Ideal) (ix2 r j) = IntOp.cmpi .slt (BitVec.ofNat 32 r.val) (BitVec.ofNat 32 j.val) := by
  rw [val_main_v26_apply, val_main_v24_apply, val_main_v22_apply, val_main_v21_apply, val_main_v25_apply, val_main_v23_apply,
    val_main_v21_apply, e_v22v24, e_v23v25]

/-- The pair mask's bit at (r, j) is set exactly when row `j` pairs with row `r`. -/
theorem pair_bit (x1 : (⟨S8192, .i32⟩ : BufTy).Contents (Elt Ideal)) (r j : Fin 8192) :
    val_main_v27 (F := Ideal) x1 (ix2 r j) = 1#1 ↔ Spec.IsPair r.val (x1 (ix1 r)) (fun j => x1 (ix1 j)) j := by
  rw [val_main_v27_apply, same_apply, lt_apply, and_bit_iff, StableHlo.Predicate.cmpi_eq_iff, pos_lt_iff]
  rfl

/-! ## Z and the row loss -/

/-- Z of row `r` is the specification's: the sum of exp of the distances over the rows of another label. -/
theorem zsum_apply (x0 : (⟨S8192x128, .f32⟩ : BufTy).Contents (Elt Ideal)) (x1 : (⟨S8192, .i32⟩ : BufTy).Contents (Elt Ideal))
    (r : Fin 8192) :
    val_main_v20 (F := Ideal) x0 x1 (ix1 r)
      = Spec.zsum (fun k => x0 (ix2 r k)) (val_main_v1 (F := Ideal) x0 (ix1 r)) (x1 (ix1 r)) (fun j k => x0 (ix2 j k))
          (fun j => val_main_v1 (F := Ideal) x0 (ix1 j)) (fun j => x1 (ix1 j)) := by
  rw [val_main_v20_apply, val_main_cst_2_apply, Ideal.ofBits_def, Ideal.ofBits_zero_f32, zero_add]
  unfold Spec.zsum
  refine Finset.sum_congr rfl fun j _ => ?_
  rw [e_v20, val_main_v19_apply, val_main_v17_apply, val_main_v18_apply, same_apply, dist_apply, val_main_call0_v1_apply,
    val_main_call0_v0_apply, val_main_cst_1_apply, Ideal.hostUnary_exp_def, Ideal.ofBits_def, Ideal.ofBits_zero_f32]
  by_cases h : x1 (ix1 r) = x1 (ix1 j)
  · rw [if_neg (not_not.mpr h),
      eq_zero_of_ne_one (fun hc => (not_bit_iff _).mp hc (StableHlo.Predicate.cmpi_eq_iff.mpr h)), select_zero]
  · rw [if_pos h, (not_bit_iff _).mpr (fun hc => h (StableHlo.Predicate.cmpi_eq_iff.mp hc)), select_one]

theorem rowsum_apply (x0 : (⟨S8192x128, .f32⟩ : BufTy).Contents (Elt Ideal)) (x1 : (⟨S8192, .i32⟩ : BufTy).Contents (Elt Ideal)) (r : Fin 8192) :
    val_main_v35 (F := Ideal) x0 x1 (ix1 r)
      = Spec.rowSumAt (fun r k => x0 (ix2 r k)) (fun r => val_main_v1 (F := Ideal) x0 (ix1 r)) (fun r => x1 (ix1 r)) r := by
  rw [val_main_v35_apply, val_main_cst_4_apply, Ideal.ofBits_def, Ideal.ofBits_zero_f32, zero_add]
  unfold Spec.rowSumAt Spec.rowSum
  refine Finset.sum_congr rfl fun j _ => ?_
  rw [e_v35, val_main_v34_apply, val_main_v33_apply, val_main_v32_apply, val_main_v31_apply, val_main_v28_apply, e_v28v31,
    zsum_apply, val_main_v30_apply, val_main_v29_apply, dist_apply, val_main_call1_v1_apply, val_main_call1_v0_apply,
    val_main_cst_3_apply, Ideal.hostUnary_log1p_def, Ideal.hostUnary_exp_def, Ideal.hostNegf_def, Ideal.negf_def,
    Ideal.mulf_def, Ideal.ofBits_def, Ideal.ofBits_zero_f32]
  by_cases h : Spec.IsPair r.val (x1 (ix1 r)) (fun j => x1 (ix1 j)) j
  · rw [if_pos h, (pair_bit x1 r j).mpr h, select_one]
  · rw [if_neg h, eq_zero_of_ne_one (fun hc => h ((pair_bit x1 r j).mp hc)), select_zero]

/-! ## The pair count -/

/-- A count of rows as an extended real is the sum of ones over the counted rows. -/
theorem sum_ite_one (P : Fin 8192 → Prop) [DecidablePred P] :
    (∑ j : Fin 8192, if P j then (1 : EReal) else 0) = (((Finset.univ.filter P).card : ℝ) : EReal) := by
  rw [← Finset.sum_filter, Finset.sum_const, nsmul_one, EReal.coe_natCast]

theorem rowcnt_apply (x1 : (⟨S8192, .i32⟩ : BufTy).Contents (Elt Ideal)) (r : Fin 8192) :
    val_main_v38 (F := Ideal) x1 (ix1 r) = Spec.rowCntAt (fun r => x1 (ix1 r)) r := by
  have hcount := StableHlo.Predicate.toNat_reduce_count_cols (n := 8192) (m := 8192) (by decide) (val_main_v27 (F := Ideal) x1)
    natLt_1_32 reducesTo_S8192x8192_S8192_d1 h_S_ (ix1 r)
  have hfilter : (Finset.univ.filter (fun q : Fin 8192 => val_main_v27 (F := Ideal) x1 (StableHlo.Predicate.ij ((ix1 r) 0) q) = 1#1))
      = Finset.univ.filter (fun q : Fin 8192 => Spec.IsPair r.val (x1 (ix1 r)) (fun j => x1 (ix1 j)) q) := by
    refine Finset.filter_congr fun q _ => ?_
    have e : StableHlo.Predicate.ij ((ix1 r) 0) q = ix2 r q :=
      funext fun a => by match a with | ⟨0, _⟩ => rfl | ⟨1, _⟩ => rfl
    exact (iff_of_eq (congrArg (fun i => val_main_v27 (F := Ideal) x1 i = 1#1) e)).trans (pair_bit x1 r q)
  rw [hfilter] at hcount
  have hle : (Finset.univ.filter (fun q : Fin 8192 => Spec.IsPair r.val (x1 (ix1 r)) (fun j => x1 (ix1 j)) q)).card ≤ 8192 := by
    have := Finset.card_le_univ (Finset.univ.filter (fun q : Fin 8192 => Spec.IsPair r.val (x1 (ix1 r)) (fun j => x1 (ix1 j)) q))
    simpa using this
  rw [val_main_v38_apply]
  unfold Spec.rowCntAt Spec.rowCnt
  rw [sum_ite_one]
  show (((val_main_v37 (F := Ideal) x1 (ix1 r)).toInt : ℝ) : EReal) = _
  have hnat : (val_main_v37 (F := Ideal) x1 (ix1 r)).toNat
      = (Finset.univ.filter (fun q : Fin 8192 => Spec.IsPair r.val (x1 (ix1 r)) (fun j => x1 (ix1 j)) q)).card := hcount
  rw [StableHlo.Predicate.toInt_eq_toNat_of_lt (by rw [hnat]; omega), hnat, Int.cast_natCast]

end Cert.ReferenceIdeal.RefValue

end
-- ==== Proof.KV.Tail.lean ====
/- The host operations after the region, as one function of the two per-row arrays and the labels: the per-class sums
   of the row losses and of the row counts (two scatter-adds into 64 classes), the per-class mean where the class has a
   pair and zero elsewhere, the sum of those means, and its quotient by the number of classes with a pair (at least one).
   The reference ends with the same operations, so the function is carried whole and never opened. -/
import proofs.«166613_j1864015806540_1_alg».proof.Proof.KI.Vals
import Idealize.ShloMosaic.Lib.StableHlo.Run
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators

variable {F : FTy → Type} [FloatOps F]

/-- From the row losses `rs`, the row counts `rc` and the labels to the scalar loss. -/
def tailK (rs rc : FVec F S8192 .f32) (lab : IVec S8192 32) : FVec F S_ .f32 :=
  let v11 : FVec F S64 .f32 := Host.scatterAdd scatter_S64_S8192x1_S8192_n_0_0_1 (broadcastInDim S64 ![] bcast_S_S64 (constant S_ .f32 0x00000000#32))
    (broadcastInDim S8192x1 ![0] bcast_S8192_S8192x1_0 lab) rs
  let v14 : FVec F S64 .f32 := Host.scatterAdd scatter_S64_S8192x1_S8192_n_0_0_1 (broadcastInDim S64 ![] bcast_S_S64 (constant S_ .f32 0x00000000#32))
    (broadcastInDim S8192x1 ![0] bcast_S8192_S8192x1_0 lab) rc
  let v16 : IVec S64 1 := cmpf (F := F) .ogt v14 (broadcastInDim S64 ![] bcast_S_S64 (constant S_ .f32 0x00000000#32))
  let v18 : FVec F S64 .f32 := maximumf v14 (broadcastInDim S64 ![] bcast_S_S64 (constant S_ .f32 0x3F800000#32))
  let v19 : FVec F S64 .f32 := Host.divf v11 v18
  let v20 : FVec F S64 .f32 := select v16 v19 (broadcastInDim S64 ![] bcast_S_S64 (id (constant S_ .f32 0x00000000#32)))
  let v22 : IVec S_ 32 := Host.reduce IntOp.addi (extui 32 v16 natLt_1_32) (constantI S_ 32 0#32) reducesTo_S64_S_d0 h_S_
  let v23 : FVec F S_ .f32 := Host.reduceAdd v20 (constant S_ .f32 0x00000000#32) reducesTo_S64_S_d0 h_S_
  Host.divf v23 (sitofp (F := F) .f32 (maxsi v22 (constantI S_ 32 1#32)))

section Stretches

variable (V : Valuation τ sig (Elt F))

/-- The two flattened result arrays and the label argument, as the first stretch reads them. -/
private abbrev rsOf : FVec F S8192 .f32 :=
  shapeCast S8192 (V (Proc.devRef .tc main_v6_0) : FVec F S8192x1 .f32) shapeCasts_S8192x1_S8192
private abbrev rcOf : FVec F S8192 .f32 :=
  shapeCast S8192 (V (Proc.devRef .tc main_v6_1) : FVec F S8192x1 .f32) shapeCasts_S8192x1_S8192
private abbrev labOf : IVec S8192 32 := V (Proc.devRef .tc main_arg1)
/-- The class sums of a per-row array. -/
private abbrev segSum (u : FVec F S8192 .f32) (lab : IVec S8192 32) : FVec F S64 .f32 :=
  Host.scatterAdd scatter_S64_S8192x1_S8192_n_0_0_1 (broadcastInDim S64 ![] bcast_S_S64 (constant S_ .f32 0x00000000#32))
    (broadcastInDim S8192x1 ![0] bcast_S8192_S8192x1_0 lab) u

/-- First stretch: the class sums of the row losses, -/
theorem seg_v11 : StableHlo.after hostOps1 V (Proc.devRef .tc main_v11) = segSum (rsOf V) (labOf V) := by
  dsimp only [hostOps1]
  after_results <;> rfl
/-- of the row counts, -/
theorem seg_v14 : StableHlo.after hostOps1 V (Proc.devRef .tc main_v14) = segSum (rcOf V) (labOf V) := by
  dsimp only [hostOps1]
  after_results <;> rfl
/-- which classes have a pair, -/
theorem seg_v16 : StableHlo.after hostOps1 V (Proc.devRef .tc main_v16)
    = cmpf (F := F) .ogt (segSum (rcOf V) (labOf V)) (broadcastInDim S64 ![] bcast_S_S64 (constant S_ .f32 0x00000000#32)) := by
  dsimp only [hostOps1]
  after_results <;> rfl
/-- the class means (the count raised to one where it is zero), -/
theorem seg_v19 : StableHlo.after hostOps1 V (Proc.devRef .tc main_v19)
    = Host.divf (segSum (rsOf V) (labOf V))
        (maximumf (segSum (rcOf V) (labOf V)) (broadcastInDim S64 ![] bcast_S_S64 (constant S_ .f32 0x3F800000#32))) := by
  dsimp only [hostOps1]
  after_results <;> rfl
/-- and the zero the select falls back to. -/
theorem seg_cst_4 : StableHlo.after hostOps1 V (Proc.devRef .tc main_cst_4) = (constant S_ .f32 0x00000000#32 : FVec F S_ .f32) := by
  dsimp only [hostOps1]
  after_results <;> rfl

/-- Second stretch: the masked means; the mask itself is not touched. -/
theorem sel_v20 : StableHlo.after hostOps1_1 V (Proc.devRef .tc main_v20)
    = select (V (Proc.devRef .tc main_v16) : IVec S64 1) (V (Proc.devRef .tc main_v19) : FVec F S64 .f32)
        (broadcastInDim S64 ![] bcast_S_S64 (id (V (Proc.devRef .tc main_cst_4) : FVec F S_ .f32))) := by
  dsimp only [hostOps1_1]
  after_results <;> rfl
theorem sel_v16 : StableHlo.after hostOps1_1 V (Proc.devRef .tc main_v16) = V (Proc.devRef .tc main_v16) := by
  dsimp only [hostOps1_1]
  after_results <;> rfl

/-- Third stretch: the sum of the masked means over the number of classes with a pair, at least one. -/
theorem fin_v26 : StableHlo.after hostOps1_2 V (Proc.devRef .tc main_v26)
    = Host.divf (Host.reduceAdd (V (Proc.devRef .tc main_v20) : FVec F S64 .f32) (constant S_ .f32 0x00000000#32) reducesTo_S64_S_d0 h_S_)
        (sitofp (F := F) .f32 (maxsi (Host.reduce IntOp.addi (extui 32 (V (Proc.devRef .tc main_v16) : IVec S64 1) natLt_1_32)
          (constantI S_ 32 0#32) reducesTo_S64_S_d0 h_S_) (constantI S_ 32 1#32))) := by
  dsimp only [hostOps1_2]
  after_results <;> rfl

/-- The three stretches together are `tailK` of what the first one reads. -/
theorem tail_v26 :
    StableHlo.after hostOps1_2 (StableHlo.after hostOps1_1 (StableHlo.after hostOps1 V)) (Proc.devRef .tc main_v26)
      = tailK (rsOf V) (rcOf V) (labOf V) := by
  rw [fin_v26, sel_v20, sel_v16, seg_v16, seg_v19, seg_cst_4]
  rfl

end Stretches

variable (m : (ℓ : Loc nD τ sig) → Buf (Elt F) ℓ)

/-- The label argument is never written: at the region's exit it is the launch memory's. -/
theorem W2_arg1 (c : Dev nD) : W2 m c (Proc.devRef .tc main_arg1) = m ((c.tc : Thread nD τ).loc main_arg1) := by
  rw [W2_of_ne m c main_arg1 (by decide) (by decide)]
  show StableHlo.after hostOps0 (W0 m c) (Proc.devRef .tc main_arg1) = _
  dsimp only [hostOps0]
  after_results <;> rfl

/-- The scalar result at the last boundary is that function of the two result arrays, flattened, and the label argument. -/
theorem W5_v26 (c : Dev nD) :
    W5 m c (Proc.devRef .tc main_v26)
      = tailK (shapeCast S8192 ((dat m c).arrAt 6 cfg0.N : FVec F S8192x1 .f32) shapeCasts_S8192x1_S8192)
          (shapeCast S8192 ((dat m c).arrAt 7 cfg0.N : FVec F S8192x1 .f32) shapeCasts_S8192x1_S8192)
          (m ((c.tc : Thread nD τ).loc main_arg1)) := by
  refine (tail_v26 (W2 m c)).trans ?_
  dsimp only [rsOf, rcOf, labOf]
  rw [W2_v6_0, W2_v6_1, W2_arg1]

end Cert.KernelIdeal.Val

end
-- ==== Proof.RefTail.lean ====
/- The reference's last operations are the kernel program's host operations after its region, applied to the reference's
   own row losses and row counts: the same function. -/
import proofs.«166613_j1864015806540_1_alg».proof.Proof.RefReadP
import proofs.«166613_j1864015806540_1_alg».proof.Proof.KV.Tail

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.ReadP

variable {F : FTy → Type} [FloatOps F]

theorem v56_tail (x0 : (⟨S8192x128, .f32⟩ : BufTy).Contents (Elt F)) (x1 : (⟨S8192, .i32⟩ : BufTy).Contents (Elt F)) :
    val_main_v56 (F := F) x0 x1 = Cert.KernelIdeal.Val.tailK (F := F) (val_main_v35 (F := F) x0 x1) (val_main_v38 (F := F) x1) x1 := by
  unfold val_main_v56 val_main_v55 val_main_v54 val_main_v53 val_main_v52 val_main_v51 val_main_v50 val_main_call2_v1
    val_main_call2_v0 val_main_v49 val_main_v48 val_main_v47 val_main_v46 val_main_v45 val_main_v44 val_main_v43 val_main_v42
    val_main_v41 val_main_v40 val_main_v39 val_main_cst_5 val_main_cst_6 val_main_cst_7 val_main_cst_8 val_main_cst_9
    val_main_c_10 val_main_cst_11 val_main_c_12 Cert.KernelIdeal.Val.tailK
  rfl

end Cert.ReferenceIdeal.RefValue

end
-- ==== Proof.KV.Cover.lean ====
/- From the 32 written-back blocks to the two result arrays. Block t of a result array is rows 256·t … 256·t + 255
   (one column), the 32 blocks tile the 8192 rows, and each is written back once: so after the last write-back row r of
   the array holds entry (r mod 256) of what point r / 256 computed. -/
import proofs.«166613_j1864015806540_1_alg».proof.Proof.KI.Dat
import proofs.«166613_j1864015806540_1_alg».proof.Proof.Gen.KernelIdeal.Points
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators

variable {F : FTy → Type} [FloatOps F]
variable (V : (c : Dev nD) → (b : Ref sig .tc) → Buf (Elt F) ((c : Thread nD τ).loc b))

/-- The grid has 32 points. -/
theorem points_eq : cfg0.N = 32 := N_0

/-- The grid point whose block holds row `r`. -/
def ptOf (r : Fin 8192) : Fin cfg0.N := ⟨r.val / 256, by
  rw [points_eq]; have h := r.isLt; omega⟩
/-- Row `r`'s place inside that block. -/
def rowIn (r : Fin 8192) : Fin 256 := ⟨r.val % 256, Nat.mod_lt _ (by norm_num)⟩

/-- The block index of either result window at point `t` is `(t, 0)`: decided over the grid. -/
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

/-- Row `256·t + y` with `y < 256` lies in block `t`, at place `y`. -/
theorem ptOf_row (t : Fin cfg0.N) (r : Fin 8192) (y : Fin 256) (h : r.val = t.val * 256 + 1 * y.val) : ptOf r = t := by
  apply Fin.ext
  show r.val / 256 = t.val
  have hy := y.isLt
  omega
theorem rowIn_row (t : Fin cfg0.N) (r : Fin 8192) (y : Fin 256) (h : r.val = t.val * 256 + 1 * y.val) : rowIn r = y := by
  apply Fin.ext
  show r.val % 256 = y.val
  have hy := y.isLt
  omega

/-- An index of a one-column block is its row and column 0. -/
theorem col_index (j : S256x1.Idx) : j = ix2 (j 0) 0 := by
  funext a
  match a with
  | ⟨0, _⟩ => rfl
  | ⟨1, _⟩ => exact Subsingleton.elim (α := Fin 1) _ _

/-- 32 blocks of 256 rows laid end to end as one column of 8192 rows: row `r` is entry `r mod 256` of block `r / 256`. -/
def colOf (B : Fin cfg0.N → Vec F S256x1 .f32) : S8192x1.Idx → Elt F .f32 := fun i => B (ptOf (i 0)) (ix2 (rowIn (i 0)) 0)

/-! ## The first result -/

/-- What point `t` writes back to the first result is block `t` of the column of all the points' blocks. -/
theorem flushed6_eq (c : Dev nD) (t : Fin cfg0.N) :
    (dat0 V c).flushed 6 t = ((cfg0.win 6).blk t).view.read (Elt F) (colOf (blk6 V c)) := by
  show (cfg0.win 6).cut (grid0.coords t) ((dat0 V c).after 6 t) = _
  rw [after_6]
  obtain ⟨e0, e1⟩ := index6 t
  funext j
  show blk6 V c t j = colOf (blk6 V c) (((cfg0.win 6).blk t).view.emb j)
  unfold colOf
  have h0 : ((((cfg0.win 6).blk t).view.emb j) 0).val = t.val * 256 + 1 * (j 0).val := by
    show win0_6.index t (0 : Fin 2) * 256 + 1 * (j 0).val = _
    rw [e0]
  rw [ptOf_row t _ (j 0) h0, rowIn_row t _ (j 0) h0]
  exact congrArg _ (col_index j)

/-- An index of the array is in point `t`'s block iff each coordinate is in the block's range on its axis. -/
theorem mem_blk6 (t : Fin cfg0.N) (i : S8192x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v6_0).slice (win0_6.rect t)).set ↔ _
  rw [View.set_slice_whole, Rect.mem_set_unit]
  exact Iff.rfl

/-- Every row is in the block of the point `row / 256`, which writes back. -/
theorem cover6 (i : S8192x1.Idx) : ∃ t : Fin cfg0.N, (cfg0.win 6).flush t = true ∧ i ∈ ((cfg0.win 6).blk t).view.set := by
  refine ⟨ptOf (i 0), flush0_6 _, ?_⟩
  rw [mem_blk6]
  obtain ⟨e0, e1⟩ := index6 (ptOf (i 0))
  have hp : (ptOf (i 0)).val = (i 0).val / 256 := rfl
  have hi1 : (i 1).val < 1 := (i 1).isLt
  intro a
  match a with
  | ⟨0, _⟩ => show win0_6.index (ptOf (i 0)) (0 : Fin 2) * 256 ≤ (i 0).val ∧ (i 0).val < win0_6.index (ptOf (i 0)) (0 : Fin 2) * 256 + 256; omega
  | ⟨1, _⟩ => show win0_6.index (ptOf (i 0)) (1 : Fin 2) * 1 ≤ (i 1).val ∧ (i 1).val < win0_6.index (ptOf (i 0)) (1 : Fin 2) * 1 + 1; omega

/-- The first result array after the last write-back: the column of all the points' blocks. -/
theorem final6 (c : Dev nD) : ((dat0 V c).arrAt 6 cfg0.N : S8192x1.Idx → Elt F .f32) = colOf (blk6 V c) :=
  (dat0 V c).arrAt_eq_of_cover 6 (colOf (blk6 V c)) (fun t _ => flushed6_eq V c t) cover6

theorem arrAt6_apply (c : Dev nD) (r : Fin 8192) :
    ((dat0 V c).arrAt 6 cfg0.N : S8192x1.Idx → Elt F .f32) (ix2 r 0) = blk6 V c (ptOf r) (ix2 (rowIn r) 0) :=
  congrFun (final6 V c) (ix2 r 0)

/-! ## The second result -/

/-- What point `t` writes back to the second result is block `t` of the column of all the points' blocks. -/
theorem flushed7_eq (c : Dev nD) (t : Fin cfg0.N) :
    (dat0 V c).flushed 7 t = ((cfg0.win 7).blk t).view.read (Elt F) (colOf (blk7 V c)) := by
  show (cfg0.win 7).cut (grid0.coords t) ((dat0 V c).after 7 t) = _
  rw [after_7]
  obtain ⟨e0, e1⟩ := index7 t
  funext j
  show blk7 V c t j = colOf (blk7 V c) (((cfg0.win 7).blk t).view.emb j)
  unfold colOf
  have h0 : ((((cfg0.win 7).blk t).view.emb j) 0).val = t.val * 256 + 1 * (j 0).val := by
    show win0_7.index t (0 : Fin 2) * 256 + 1 * (j 0).val = _
    rw [e0]
  rw [ptOf_row t _ (j 0) h0, rowIn_row t _ (j 0) h0]
  exact congrArg _ (col_index j)

theorem mem_blk7 (t : Fin cfg0.N) (i : S8192x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v6_1).slice (win0_7.rect t)).set ↔ _
  rw [View.set_slice_whole, Rect.mem_set_unit]
  exact Iff.rfl

theorem cover7 (i : S8192x1.Idx) : ∃ t : Fin cfg0.N, (cfg0.win 7).flush t = true ∧ i ∈ ((cfg0.win 7).blk t).view.set := by
  refine ⟨ptOf (i 0), flush0_7 _, ?_⟩
  rw [mem_blk7]
  obtain ⟨e0, e1⟩ := index7 (ptOf (i 0))
  have hp : (ptOf (i 0)).val = (i 0).val / 256 := rfl
  have hi1 : (i 1).val < 1 := (i 1).isLt
  intro a
  match a with
  | ⟨0, _⟩ => show win0_7.index (ptOf (i 0)) (0 : Fin 2) * 256 ≤ (i 0).val ∧ (i 0).val < win0_7.index (ptOf (i 0)) (0 : Fin 2) * 256 + 256; omega
  | ⟨1, _⟩ => show win0_7.index (ptOf (i 0)) (1 : Fin 2) * 1 ≤ (i 1).val ∧ (i 1).val < win0_7.index (ptOf (i 0)) (1 : Fin 2) * 1 + 1; omega

/-- The second result array after the last write-back. -/
theorem final7 (c : Dev nD) : ((dat0 V c).arrAt 7 cfg0.N : S8192x1.Idx → Elt F .f32) = colOf (blk7 V c) :=
  (dat0 V c).arrAt_eq_of_cover 7 (colOf (blk7 V c)) (fun t _ => flushed7_eq V c t) cover7

theorem arrAt7_apply (c : Dev nD) (r : Fin 8192) :
    ((dat0 V c).arrAt 7 cfg0.N : S8192x1.Idx → Elt F .f32) (ix2 r 0) = blk7 V c (ptOf r) (ix2 (rowIn r) 0) :=
  congrFun (final7 V c) (ix2 r 0)

end Cert.KernelIdeal.Val

end
-- ==== Proof.KV.Reads.lean ====
/- What the region's six input blocks hold at a grid point, entry by entry, in terms of the launch memory: the row
   blocks are rows 256·t … 256·t + 255 of their arrays, the column blocks the whole arrays; the squared-norm column and
   row are two reshapes of one host row reduction of the squared embeddings, the label column and row two reshapes of
   the label argument; the embedding table is the argument itself. -/
import proofs.«166613_j1864015806540_1_alg».proof.Proof.KI.Vals
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators

variable {F : FTy → Type} [FloatOps F]

/-- The host's row reduction of the squared embeddings: the squared norms, never opened. -/
def sqTerm (a : FVec F S8192x128 .f32) : FVec F S8192 .f32 :=
  Host.reduceAdd (mulf a a) (constant S_ .f32 0x00000000#32) reducesTo_S8192x128_S8192_d1 h_S_

section Blocks
variable (V : (c : Dev nD) → (b : Ref sig .tc) → Buf (Elt F) ((c : Thread nD τ).loc b))

/-- The global row of entry `p` of a row block at point `t`. -/
def grow (t : Fin cfg0.N) (p : Fin 256) : Fin 8192 := ⟨256 * t.val + p.val, by
  have h1 : t.val < cfg0.N := t.isLt
  have h2 : cfg0.N = 32 := N_0
  have h3 : p.val < 256 := p.isLt
  omega⟩

theorem grow_val (t : Fin cfg0.N) (p : Fin 256) : (grow t p).val = 256 * t.val + p.val := rfl

/-- The block index of each input window at a grid point: the three row windows move with the point along the rows,
    the three whole windows stay at the origin. -/
theorem idx_rows : ∀ t : Fin cfg0.N,
    (win0_0.index t (0 : Fin 2) = t.val ∧ win0_0.index t (1 : Fin 2) = 0)
    ∧ (win0_2.index t (0 : Fin 2) = t.val ∧ win0_2.index t (1 : Fin 2) = 0)
    ∧ (win0_4.index t (0 : Fin 2) = t.val ∧ win0_4.index t (1 : Fin 2) = 0) :=
  (by decide +kernel : ∀ t : Fin grid0.N, _)
theorem idx_whole : ∀ t : Fin cfg0.N,
    (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0) :=
  (by decide +kernel : ∀ t : Fin grid0.N, _)

theorem b0_apply (c : Dev nD) (t : Fin cfg0.N) (p : Fin 256) (k : Fin 128) :
    b0 V c t (ix2 p k) = (V c main_arg0 : S8192x128.Idx → Elt F .f32) (ix2 (grow t p) k) := by
  obtain ⟨⟨e0, e1⟩, -, -⟩ := idx_rows t
  show iblk V c 0 t (ix2 p k) = _
  unfold iblk
  rw [View.read_apply]
  show V c main_arg0 (((cfg0.win 0).blk t).view.emb (ix2 p k)) = V c main_arg0 (ix2 (grow t p) k)
  refine congrArg _ (funext fun a => Fin.ext ?_)
  match a with
  | ⟨0, _⟩ => show win0_0.index t (0 : Fin 2) * 256 + 1 * p.val = 256 * t.val + p.val; rw [e0]; omega
  | ⟨1, _⟩ => show win0_0.index t (1 : Fin 2) * 128 + 1 * k.val = k.val; rw [e1]; omega
theorem b1_apply (c : Dev nD) (t : Fin cfg0.N) (j : Fin 8192) (k : Fin 128) :
    b1 V c t (ix2 j k) = (V c main_arg0 : S8192x128.Idx → Elt F .f32) (ix2 j k) := by
  obtain ⟨⟨e0, e1⟩, -, -⟩ := idx_whole t
  show iblk V c 1 t (ix2 j k) = _
  unfold iblk
  rw [View.read_apply]
  show V c main_arg0 (((cfg0.win 1).blk t).view.emb (ix2 j k)) = V c main_arg0 (ix2 j k)
  refine congrArg _ (funext fun a => Fin.ext ?_)
  match a with
  | ⟨0, _⟩ => show win0_1.index t (0 : Fin 2) * 8192 + 1 * j.val = j.val; rw [e0]; omega
  | ⟨1, _⟩ => show win0_1.index t (1 : Fin 2) * 128 + 1 * k.val = k.val; rw [e1]; omega
theorem b2_apply (c : Dev nD) (t : Fin cfg0.N) (p : Fin 256) :
    b2 V c t (ix2 p 0) = (V c main_v2 : S8192x1.Idx → Elt F .f32) (ix2 (grow t p) 0) := by
  obtain ⟨-, ⟨e0, e1⟩, -⟩ := idx_rows t
  show iblk V c 2 t (ix2 p 0) = _
  unfold iblk
  rw [View.read_apply]
  show V c main_v2 (((cfg0.win 2).blk t).view.emb (ix2 p 0)) = V c main_v2 (ix2 (grow t p) 0)
  refine congrArg _ (funext fun a => Fin.ext ?_)
  match a with
  | ⟨0, _⟩ => show win0_2.index t (0 : Fin 2) * 256 + 1 * p.val = 256 * t.val + p.val; rw [e0]; omega
  | ⟨1, _⟩ => show win0_2.index t (1 : Fin 2) * 1 + 1 * 0 = 0; rw [e1]
theorem b3_apply (c : Dev nD) (t : Fin cfg0.N) (j : Fin 8192) :
    b3 V c t (ix2 0 j) = (V c main_v3 : S1x8192.Idx → Elt F .f32) (ix2 0 j) := by
  obtain ⟨-, ⟨e0, e1⟩, -⟩ := idx_whole t
  show iblk V c 3 t (ix2 0 j) = _
  unfold iblk
  rw [View.read_apply]
  show V c main_v3 (((cfg0.win 3).blk t).view.emb (ix2 0 j)) = V c main_v3 (ix2 0 j)
  refine congrArg _ (funext fun a => Fin.ext ?_)
  match a with
  | ⟨0, _⟩ => show win0_3.index t (0 : Fin 2) * 1 + 1 * 0 = 0; rw [e0]
  | ⟨1, _⟩ => show win0_3.index t (1 : Fin 2) * 8192 + 1 * j.val = j.val; rw [e1]; omega
theorem b4_apply (c : Dev nD) (t : Fin cfg0.N) (p : Fin 256) :
    b4 V c t (ix2 p 0) = (V c main_v4 : S8192x1.Idx → Elt F .i32) (ix2 (grow t p) 0) := by
  obtain ⟨-, -, ⟨e0, e1⟩⟩ := idx_rows t
  show iblk V c 4 t (ix2 p 0) = _
  unfold iblk
  rw [View.read_apply]
  show V c main_v4 (((cfg0.win 4).blk t).view.emb (ix2 p 0)) = V c main_v4 (ix2 (grow t p) 0)
  refine congrArg _ (funext fun a => Fin.ext ?_)
  match a with
  | ⟨0, _⟩ => show win0_4.index t (0 : Fin 2) * 256 + 1 * p.val = 256 * t.val + p.val; rw [e0]; omega
  | ⟨1, _⟩ => show win0_4.index t (1 : Fin 2) * 1 + 1 * 0 = 0; rw [e1]
theorem b5_apply (c : Dev nD) (t : Fin cfg0.N) (j : Fin 8192) :
    b5 V c t (ix2 0 j) = (V c main_v5 : S1x8192.Idx → Elt F .i32) (ix2 0 j) := by
  obtain ⟨-, -, ⟨e0, e1⟩⟩ := idx_whole t
  show iblk V c 5 t (ix2 0 j) = _
  unfold iblk
  rw [View.read_apply]
  show V c main_v5 (((cfg0.win 5).blk t).view.emb (ix2 0 j)) = V c main_v5 (ix2 0 j)
  refine congrArg _ (funext fun a => Fin.ext ?_)
  match a with
  | ⟨0, _⟩ => show win0_5.index t (0 : Fin 2) * 1 + 1 * 0 = 0; rw [e0]
  | ⟨1, _⟩ => show win0_5.index t (1 : Fin 2) * 8192 + 1 * j.val = j.val; rw [e1]; omega
end Blocks

section Prefix
variable (m : (ℓ : Loc nD τ sig) → Buf (Elt F) ℓ)

/-- A vector cast to a column reads, at row `r`, the vector at `r`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem V1_arg0 (c : Dev nD) : V1 m c main_arg0 = m ((c.tc : Thread nD τ).loc main_arg0) := by
  show StableHlo.after hostOps0 (fun b => m (c, b)) (Proc.devRef .tc main_arg0) = _
  after_results
theorem V1_v2_apply (c : Dev nD) (r : Fin 8192) :
    (V1 m c main_v2 : S8192x1.Idx → Elt F .f32) (ix2 r 0) = sqTerm (m ((c.tc : Thread nD τ).loc main_arg0)) (ix1 r) := by
  have e : (V1 m c main_v2 : S8192x1.Idx → Elt F .f32)
      = shapeCast S8192x1 (sqTerm (m ((c.tc : Thread nD τ).loc main_arg0))) shapeCasts_S8192_S8192x1 := by
    show StableHlo.after hostOps0 (fun b => m (c, b)) (Proc.devRef .tc main_v2) = _
    after_results
    rfl
  rw [e]
  exact shapeCast_a_a1_apply _ _ r 0
theorem V1_v3_apply (c : Dev nD) (j : Fin 8192) :
    (V1 m c main_v3 : S1x8192.Idx → Elt F .f32) (ix2 0 j) = sqTerm (m ((c.tc : Thread nD τ).loc main_arg0)) (ix1 j) := by
  have e : (V1 m c main_v3 : S1x8192.Idx → Elt F .f32)
      = shapeCast S1x8192 (sqTerm (m ((c.tc : Thread nD τ).loc main_arg0))) shapeCasts_S8192_S1x8192 := by
    show StableHlo.after hostOps0 (fun b => m (c, b)) (Proc.devRef .tc main_v3) = _
    after_results
    rfl
  rw [e]
  exact shapeCast_a_1a_apply _ _ 0 j
theorem V1_v4_apply (c : Dev nD) (r : Fin 8192) :
    (V1 m c main_v4 : S8192x1.Idx → Elt F .i32) (ix2 r 0) = (m ((c.tc : Thread nD τ).loc main_arg1) : S8192.Idx → Elt F .i32) (ix1 r) := by
  have e : (V1 m c main_v4 : S8192x1.Idx → Elt F .i32)
      = shapeCast S8192x1 (m ((c.tc : Thread nD τ).loc main_arg1) : S8192.Idx → Elt F .i32) shapeCasts_S8192_S8192x1 := by
    show StableHlo.after hostOps0 (fun b => m (c, b)) (Proc.devRef .tc main_v4) = _
    after_results
    rfl
  rw [e]
  exact shapeCast_a_a1_apply _ _ r 0
theorem V1_v5_apply (c : Dev nD) (j : Fin 8192) :
    (V1 m c main_v5 : S1x8192.Idx → Elt F .i32) (ix2 0 j) = (m ((c.tc : Thread nD τ).loc main_arg1) : S8192.Idx → Elt F .i32) (ix1 j) := by
  have e : (V1 m c main_v5 : S1x8192.Idx → Elt F .i32)
      = shapeCast S1x8192 (m ((c.tc : Thread nD τ).loc main_arg1) : S8192.Idx → Elt F .i32) shapeCasts_S8192_S1x8192 := by
    show StableHlo.after hostOps0 (fun b => m (c, b)) (Proc.devRef .tc main_v5) = _
    after_results
    rfl
  rw [e]
  exact shapeCast_a_1a_apply _ _ 0 j
end Prefix

end Cert.KernelIdeal.Val

end
-- ==== Proof.KI.BodySplit.lean ====
/- (template: the generated skeleton, as for BodyOut.lean; this second output cuts the same let-chain at the last store into the scratch column).
   The point's computation in its two passes: zcol, the column Z of row sums of exp of the distances over the other-label rows,
   accumulated over the eight column chunks; and outsZ, the two pair accumulators over eight more chunks with Z given. -/
import proofs.«166613_j1864015806540_1_alg».proof.Proof.KI.BodyOut

set_option maxRecDepth 16384

noncomputable section

namespace Cert.KernelIdeal.Hand

open Idealize.ShloMosaic Idealize.SL.Sem Cert.KernelIdeal Cert.KernelIdeal.Gen

variable {F : FTy → Type} [FloatOps F]

/-- Pass 1: Z for the point's 256 anchors. -/
def zcol (i : grid0.Coords) (x0 : Vec F S256x128 .f32) (x1 : Vec F S8192x128 .f32) (x2 : Vec F S256x1 .f32) (x3 : Vec F S1x8192 .f32)
    (x4 : Vec F S256x1 .i32) (x5 : Vec F S1x8192 .i32) : Vec F S256x1 .f32 :=
  let v0 : Vec F S256x128 .f32 := View.ld x0 (Rect.unit (s := S256x128) ![0, 0] S256x128.size inb_S256x128_S256x128_0_0)
  let v2 : Vec F S256x1 .f32 := View.ld x2 (Rect.unit (s := S256x1) ![0, 0] S256x1.size inb_S256x1_S256x1_0_0)
  let v4 : Vec F S256x1 .i32 := View.ld x4 (Rect.unit (s := S256x1) ![0, 0] S256x1.size inb_S256x1_S256x1_0_0)
  let s1 : Vec F S256x1 .f32 := k0_pay7 (F := F)
  let v14 : Vec F S1024x128 .f32 := View.ld x1 (Rect.unit (s := S8192x128) ![0, 0] S1024x128.size inb_S8192x128_S1024x128_0_0)
  let v16 : Vec F S1x1024 .f32 := View.ld x3 (Rect.unit (s := S1x8192) ![0, 0] S1x1024.size inb_S1x8192_S1x1024_0_0)
  let v18 : Vec F S1x1024 .i32 := View.ld x5 (Rect.unit (s := S1x8192) ![0, 0] S1x1024.size inb_S1x8192_S1x1024_0_0)
  let v32 : Vec F S256x1 .f32 := s1
  let v1 := k0_pay3 v0
  let v3 := k0_pay4 v2
  let v5 := k0_pay5 v4
  let v9 := k0_pay6 i
  let v35 := k0_pay8 v0 v2 v4 v14 v16 v18
  let s2 : Vec F S256x1 .f32 := k0_pay9 v32 v35
  let v41 : Vec F S1024x128 .f32 := View.ld x1 (Rect.unit (s := S8192x128) ![1024, 0] S1024x128.size inb_S8192x128_S1024x128_1024_0)
  let v43 : Vec F S1x1024 .f32 := View.ld x3 (Rect.unit (s := S1x8192) ![0, 1024] S1x1024.size inb_S1x8192_S1x1024_0_1024)
  let v45 : Vec F S1x1024 .i32 := View.ld x5 (Rect.unit (s := S1x8192) ![0, 1024] S1x1024.size inb_S1x8192_S1x1024_0_1024)
  let v59 : Vec F S256x1 .f32 := s2
  let s3 : Vec F S256x1 .f32 := k0_pay10 v1 v3 v5 v41 v43 v45 v59
  let v68 : Vec F S1024x128 .f32 := View.ld x1 (Rect.unit (s := S8192x128) ![2048, 0] S1024x128.size inb_S8192x128_S1024x128_2048_0)
  let v70 : Vec F S1x1024 .f32 := View.ld x3 (Rect.unit (s := S1x8192) ![0, 2048] S1x1024.size inb_S1x8192_S1x1024_0_2048)
  let v69 := k0_pay11 v68
  let v71 := k0_pay12 v70
  let v72 : Vec F S1x1024 .i32 := View.ld x5 (Rect.unit (s := S1x8192) ![0, 2048] S1x1024.size inb_S1x8192_S1x1024_0_2048)
  let v86 : Vec F S256x1 .f32 := s3
  let s4 : Vec F S256x1 .f32 := k0_pay13 v1 v3 v5 v69 v71 v72 v86
  let v95 : Vec F S1024x128 .f32 := View.ld x1 (Rect.unit (s := S8192x128) ![3072, 0] S1024x128.size inb_S8192x128_S1024x128_3072_0)
  let v97 : Vec F S1x1024 .f32 := View.ld x3 (Rect.unit (s := S1x8192) ![0, 3072] S1x1024.size inb_S1x8192_S1x1024_0_3072)
  let v99 : Vec F S1x1024 .i32 := View.ld x5 (Rect.unit (s := S1x8192) ![0, 3072] S1x1024.size inb_S1x8192_S1x1024_0_3072)
  let v111 := k0_pay14 v5 v99
  let v112 := k0_pay15 v1 v3 v95 v97
  let v113 : Vec F S256x1 .f32 := s4
  let s5 : Vec F S256x1 .f32 := k0_pay16 v111 v112 v113
  let v122 : Vec F S1024x128 .f32 := View.ld x1 (Rect.unit (s := S8192x128) ![4096, 0] S1024x128.size inb_S8192x128_S1024x128_4096_0)
  let v124 : Vec F S1x1024 .f32 := View.ld x3 (Rect.unit (s := S1x8192) ![0, 4096] S1x1024.size inb_S1x8192_S1x1024_0_4096)
  let v126 : Vec F S1x1024 .i32 := View.ld x5 (Rect.unit (s := S1x8192) ![0, 4096] S1x1024.size inb_S1x8192_S1x1024_0_4096)
  let v140 : Vec F S256x1 .f32 := s5
  let s6 : Vec F S256x1 .f32 := k0_pay17 v1 v3 v5 v122 v124 v126 v140
  let v149 : Vec F S1024x128 .f32 := View.ld x1 (Rect.unit (s := S8192x128) ![5120, 0] S1024x128.size inb_S8192x128_S1024x128_5120_0)
  let v150 := k0_pay18 v149
  let v151 : Vec F S1x1024 .f32 := View.ld x3 (Rect.unit (s := S1x8192) ![0, 5120] S1x1024.size inb_S1x8192_S1x1024_0_5120)
  let v153 : Vec F S1x1024 .i32 := View.ld x5 (Rect.unit (s := S1x8192) ![0, 5120] S1x1024.size inb_S1x8192_S1x1024_0_5120)
  let v167 : Vec F S256x1 .f32 := s6
  let s7 : Vec F S256x1 .f32 := k0_pay19 v1 v3 v5 v150 v151 v153 v167
  let v176 : Vec F S1024x128 .f32 := View.ld x1 (Rect.unit (s := S8192x128) ![6144, 0] S1024x128.size inb_S8192x128_S1024x128_6144_0)
  let v178 : Vec F S1x1024 .f32 := View.ld x3 (Rect.unit (s := S1x8192) ![0, 6144] S1x1024.size inb_S1x8192_S1x1024_0_6144)
  let v180 : Vec F S1x1024 .i32 := View.ld x5 (Rect.unit (s := S1x8192) ![0, 6144] S1x1024.size inb_S1x8192_S1x1024_0_6144)
  let v181 := k0_pay20 v180
  let v189 := k0_pay21 v1 v3 v176 v178
  let v194 : Vec F S256x1 .f32 := s7
  let s8 : Vec F S256x1 .f32 := k0_pay22 v5 v181 v189 v194
  let v203 : Vec F S1024x128 .f32 := View.ld x1 (Rect.unit (s := S8192x128) ![7168, 0] S1024x128.size inb_S8192x128_S1024x128_7168_0)
  let v205 : Vec F S1x1024 .f32 := View.ld x3 (Rect.unit (s := S1x8192) ![0, 7168] S1x1024.size inb_S1x8192_S1x1024_0_7168)
  let v207 : Vec F S1x1024 .i32 := View.ld x5 (Rect.unit (s := S1x8192) ![0, 7168] S1x1024.size inb_S1x8192_S1x1024_0_7168)
  let v221 : Vec F S256x1 .f32 := s8
  let v226 := k0_pay23 v1 v3 v5 v203 v205 v207 v221
  let s9 : Vec F S256x1 .f32 := k0_pay24 v226
  s9

/-- Pass 2: the two pair accumulators, given Z as the argument v230. -/
def outsZ (i : grid0.Coords) (x0 : Vec F S256x128 .f32) (x1 : Vec F S8192x128 .f32) (x2 : Vec F S256x1 .f32) (x3 : Vec F S1x8192 .f32)
    (x4 : Vec F S256x1 .i32) (x5 : Vec F S1x8192 .i32) (v230 : Vec F S256x1 .f32) : Vec F S256x1 .f32 × Vec F S256x1 .f32 :=
  let v0 : Vec F S256x128 .f32 := View.ld x0 (Rect.unit (s := S256x128) ![0, 0] S256x128.size inb_S256x128_S256x128_0_0)
  let v2 : Vec F S256x1 .f32 := View.ld x2 (Rect.unit (s := S256x1) ![0, 0] S256x1.size inb_S256x1_S256x1_0_0)
  let v4 : Vec F S256x1 .i32 := View.ld x4 (Rect.unit (s := S256x1) ![0, 0] S256x1.size inb_S256x1_S256x1_0_0)
  let v1 := k0_pay3 v0
  let v3 := k0_pay4 v2
  let v5 := k0_pay5 v4
  let v9 := k0_pay6 i
  let v233 : Vec F S1024x128 .f32 := View.ld x1 (Rect.unit (s := S8192x128) ![0, 0] S1024x128.size inb_S8192x128_S1024x128_0_0)
  let v235 : Vec F S1x1024 .f32 := View.ld x3 (Rect.unit (s := S1x8192) ![0, 0] S1x1024.size inb_S1x8192_S1x1024_0_0)
  let v237 : Vec F S1x1024 .i32 := View.ld x5 (Rect.unit (s := S1x8192) ![0, 0] S1x1024.size inb_S1x8192_S1x1024_0_0)
  let v232 := k0_pay25 (F := F)
  let v267 := k0_pay27 v1 v3 v5 v9 v230 v233 v235 v237
  let v270 := k0_pay28 v5 v9 v237
  let v273 : Vec F S1024x128 .f32 := View.ld x1 (Rect.unit (s := S8192x128) ![1024, 0] S1024x128.size inb_S8192x128_S1024x128_1024_0)
  let v275 : Vec F S1x1024 .f32 := View.ld x3 (Rect.unit (s := S1x8192) ![0, 1024] S1x1024.size inb_S1x8192_S1x1024_0_1024)
  let v277 : Vec F S1x1024 .i32 := View.ld x5 (Rect.unit (s := S1x8192) ![0, 1024] S1x1024.size inb_S1x8192_S1x1024_0_1024)
  let v313 : Vec F S1024x128 .f32 := View.ld x1 (Rect.unit (s := S8192x128) ![2048, 0] S1024x128.size inb_S8192x128_S1024x128_2048_0)
  let v307 := k0_pay30 v1 v3 v5 v9 v230 v267 v273 v275 v277
  let v312 := k0_pay31 v5 v9 v232 v270 v277
  let v314 := k0_pay32 v313
  let v315 : Vec F S1x1024 .f32 := View.ld x3 (Rect.unit (s := S1x8192) ![0, 2048] S1x1024.size inb_S1x8192_S1x1024_0_2048)
  let v317 : Vec F S1x1024 .i32 := View.ld x5 (Rect.unit (s := S1x8192) ![0, 2048] S1x1024.size inb_S1x8192_S1x1024_0_2048)
  let v353 : Vec F S1024x128 .f32 := View.ld x1 (Rect.unit (s := S8192x128) ![3072, 0] S1024x128.size inb_S8192x128_S1024x128_3072_0)
  let v355 : Vec F S1x1024 .f32 := View.ld x3 (Rect.unit (s := S1x8192) ![0, 3072] S1x1024.size inb_S1x8192_S1x1024_0_3072)
  let v357 : Vec F S1x1024 .i32 := View.ld x5 (Rect.unit (s := S1x8192) ![0, 3072] S1x1024.size inb_S1x8192_S1x1024_0_3072)
  let v347 := k0_pay34 v1 v3 v5 v9 v230 v307 v314 v315 v317
  let v352 := k0_pay35 v5 v9 v312 v317
  let v354 := k0_pay36 v353
  let v356 := k0_pay37 v355
  let v358 := k0_pay38 v357
  let v393 : Vec F S1024x128 .f32 := View.ld x1 (Rect.unit (s := S8192x128) ![4096, 0] S1024x128.size inb_S8192x128_S1024x128_4096_0)
  let v395 : Vec F S1x1024 .f32 := View.ld x3 (Rect.unit (s := S1x8192) ![0, 4096] S1x1024.size inb_S1x8192_S1x1024_0_4096)
  let v397 : Vec F S1x1024 .i32 := View.ld x5 (Rect.unit (s := S1x8192) ![0, 4096] S1x1024.size inb_S1x8192_S1x1024_0_4096)
  let v387 := k0_pay40 v1 v3 v5 v9 v230 v347 v354 v356 v358
  let v392 := k0_pay41 v5 v9 v352 v358
  let v396 := k0_pay42 v395
  let v398 := k0_pay43 v397
  let v401 := k0_pay44
  let v403 := k0_pay45 v1 v393
  let v433 : Vec F S1024x128 .f32 := View.ld x1 (Rect.unit (s := S8192x128) ![5120, 0] S1024x128.size inb_S8192x128_S1024x128_5120_0)
  let v435 : Vec F S1x1024 .f32 := View.ld x3 (Rect.unit (s := S1x8192) ![0, 5120] S1x1024.size inb_S1x8192_S1x1024_0_5120)
  let v437 : Vec F S1x1024 .i32 := View.ld x5 (Rect.unit (s := S1x8192) ![0, 5120] S1x1024.size inb_S1x8192_S1x1024_0_5120)
  let v427 := k0_pay47 v3 v5 v9 v230 v387 v396 v398 v401 v403
  let v432 := k0_pay48 v5 v9 v392 v398 v401
  let v438 := k0_pay49 v437
  let v441 := k0_pay50
  let v449 := k0_pay51 v1 v3 v433 v435
  let v473 : Vec F S1024x128 .f32 := View.ld x1 (Rect.unit (s := S8192x128) ![6144, 0] S1024x128.size inb_S8192x128_S1024x128_6144_0)
  let v475 : Vec F S1x1024 .f32 := View.ld x3 (Rect.unit (s := S1x8192) ![0, 6144] S1x1024.size inb_S1x8192_S1x1024_0_6144)
  let v477 : Vec F S1x1024 .i32 := View.ld x5 (Rect.unit (s := S1x8192) ![0, 6144] S1x1024.size inb_S1x8192_S1x1024_0_6144)
  let v467 := k0_pay53 v5 v9 v230 v427 v438 v441 v449
  let v472 := k0_pay54 v5 v9 v432 v438 v441
  let v489 := k0_pay55 v1 v3 v473 v475
  let v496 := k0_pay56 v5 v9 v477
  let v513 : Vec F S1024x128 .f32 := View.ld x1 (Rect.unit (s := S8192x128) ![7168, 0] S1024x128.size inb_S8192x128_S1024x128_7168_0)
  let v515 : Vec F S1x1024 .f32 := View.ld x3 (Rect.unit (s := S1x8192) ![0, 7168] S1x1024.size inb_S1x8192_S1x1024_0_7168)
  let v517 : Vec F S1x1024 .i32 := View.ld x5 (Rect.unit (s := S1x8192) ![0, 7168] S1x1024.size inb_S1x8192_S1x1024_0_7168)
  let v507 := k0_pay57 v230 v467 v489 v496
  let v512 := k0_pay58 v472 v496
  let v536 := k0_pay59 v5 v9 v517
  let v542 := k0_pay60 v1 v3 v230 v513 v515
  (k0_pay1 v507 v536 v542, k0_pay2 v512 v536)

end Cert.KernelIdeal.Hand

end
-- ==== Proof.KV.Pass1.lean ====
/- Pass 1 of a grid point at the exact instance: the scratch column after the eight column chunks holds, for anchor p,
   the sum over ALL 8192 rows of another label of exp of the distance — each chunk adds its 1024 rows' part to what the
   chunks before left, starting from zero, and a sum over 8192 rows is the sum of its eight stretches of 1024.
   One chunk adds, at anchor p, the sum over its rows q of [label p ≠ label q] · exp((sq p + sq q) − 2·⟨x p, x q⟩): the inner
   product is what the matrix product of the anchor block with the TRANSPOSED chunk block reads at (p, q), and narrowing to
   bf16 is the identity on extended reals. -/
import proofs.«166613_j1864015806540_1_alg».proof.Proof.KI.BodySplit
import proofs.«166613_j1864015806540_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Affine

set_option maxRecDepth 16384

noncomputable section

namespace Cert.KernelIdeal.Val.P1

open Idealize.ShloMosaic Idealize.ShloMosaic.TcCoe Idealize.SL.Sem Idealize.ShloMosaic.ValueIdx
open Cert.KernelIdeal Cert.KernelIdeal.Gen Cert.KernelIdeal.Hand
open scoped BigOperators

/-! ## The matrix product at an index -/

theorem dotL0 (i : S256x1024.Idx) (q : dot_S256x128_S128x1024_S256x1024_1_0_0_1_n_n.contr.Idx) :
    (dot_S256x128_S128x1024_S256x1024_1_0_0_1_n_n.lhsIdx i q 0).val = (i 0).val := by
  unfold DotDims.lhsIdx
  rw [dif_neg (show ¬(0 : Fin S256x128.rank) ∈ dot_S256x128_S128x1024_S256x1024_1_0_0_1_n_n.lhsBatch by decide), dif_pos (show (0 : Fin S256x128.rank) ∈ dot_S256x128_S128x1024_S256x1024_1_0_0_1_n_n.lhsNonContracting by decide)]
  rfl
theorem dotL1 (i : S256x1024.Idx) (q : dot_S256x128_S128x1024_S256x1024_1_0_0_1_n_n.contr.Idx) :
    (dot_S256x128_S128x1024_S256x1024_1_0_0_1_n_n.lhsIdx i q 1).val = (q ⟨0, by decide⟩).val :=
  dot_S256x128_S128x1024_S256x1024_1_0_0_1_n_n.lhsIdx_val_of_single rfl i q
theorem dotR0 (i : S256x1024.Idx) (q : dot_S256x128_S128x1024_S256x1024_1_0_0_1_n_n.contr.Idx) :
    (dot_S256x128_S128x1024_S256x1024_1_0_0_1_n_n.rhsIdx i q 0).val = (q ⟨0, by decide⟩).val :=
  dot_S256x128_S128x1024_S256x1024_1_0_0_1_n_n.rhsIdx_val_of_single rfl i q
theorem dotR1 (i : S256x1024.Idx) (q : dot_S256x128_S128x1024_S256x1024_1_0_0_1_n_n.contr.Idx) :
    (dot_S256x128_S128x1024_S256x1024_1_0_0_1_n_n.rhsIdx i q 1).val = (i 1).val := by
  unfold DotDims.rhsIdx
  rw [dif_neg (show ¬(1 : Fin S128x1024.rank) ∈ dot_S256x128_S128x1024_S256x1024_1_0_0_1_n_n.rhsBatch by decide), dif_pos (show (1 : Fin S128x1024.rank) ∈ dot_S256x128_S128x1024_S256x1024_1_0_0_1_n_n.rhsNonContracting by decide)]
  rfl

/-- Into the zero accumulator, the product of a 256×128 block with a 128×1024 block reads at (p, q) as the sum over the 128 shared
    coordinates of the entries' products. -/
theorem matmul_read (A : FVec Ideal S256x128 .bf16) (B : FVec Ideal S128x1024 .bf16) (p : Fin 256) (q : Fin 1024) :
    matmul dot_S256x128_S128x1024_S256x1024_1_0_0_1_n_n none A B (constant (F := Ideal) S256x1024 .f32 0x00000000#32) (ix2 p q)
      = ∑ k : Fin 128, A (ix2 p k) * B (ix2 k q) := by
  simp only [matmul]
  rw [Ideal.matmul_constant_zero_apply, ← Equiv.sum_comp (ValueIdx.contrEquiv1 dot_S256x128_S128x1024_S256x1024_1_0_0_1_n_n 128 rfl rfl).symm]
  refine Finset.sum_congr rfl fun k _ => ?_
  have hk := ValueIdx.contrEquiv1_symm_val dot_S256x128_S128x1024_S256x1024_1_0_0_1_n_n 128 rfl rfl k
  have el : dot_S256x128_S128x1024_S256x1024_1_0_0_1_n_n.lhsIdx (ix2 p q) ((ValueIdx.contrEquiv1 dot_S256x128_S128x1024_S256x1024_1_0_0_1_n_n 128 rfl rfl).symm k) = ix2 p k := funext fun a => Fin.ext (by
    match a with
    | ⟨0, _⟩ => exact dotL0 _ _
    | ⟨1, _⟩ => exact (dotL1 _ _).trans hk)
  have er : dot_S256x128_S128x1024_S256x1024_1_0_0_1_n_n.rhsIdx (ix2 p q) ((ValueIdx.contrEquiv1 dot_S256x128_S128x1024_S256x1024_1_0_0_1_n_n 128 rfl rfl).symm k) = ix2 k q := funext fun a => Fin.ext (by
    match a with
    | ⟨0, _⟩ => exact (dotR0 _ _).trans hk
    | ⟨1, _⟩ => exact dotR1 _ _)
  rw [el, er]

/-! ## A column's layout operations and a row sum at an index -/

/-- A column [a,1] spread over [a,b] reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a,1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the rows of a 256×1024 block reads, at p, the sum over q of the block at (p, q). -/
theorem rowsum_read (src : FVec Ideal S256x1024 .f32) (p : Fin 256) :
    multiReduction (F := Ideal) .add [1] S256 src 0x00000000#32 reduces_S256x1024_S256 (.inl rfl) rfl (ix1 p)
      = ∑ q : Fin 1024, src (ix2 p q) := by
  refine (Ideal.multiReduction_add_single src 0x00000000#32 reduces_S256x1024_S256 (.inl rfl) rfl (ix1 p)).trans ?_
  refine Finset.sum_congr rfl fun q _ => congrArg src ?_
  funext a; apply Fin.ext
  match a with
  | ⟨0, _⟩ => rfl
  | ⟨1, _⟩ => rfl

/-! ## One chunk at an anchor -/

/-- The term row j of the table contributes to anchor p's sum. -/
def term (x0 : Vec Ideal S256x128 .f32) (x1 : Vec Ideal S8192x128 .f32) (x2 : Vec Ideal S256x1 .f32) (x3 : Vec Ideal S1x8192 .f32)
    (x4 : Vec Ideal S256x1 .i32) (x5 : Vec Ideal S1x8192 .i32) (p : Fin 256) (j : Fin 8192) : EReal :=
  if x4 (ix2 p 0) ≠ x5 (ix2 0 j) then Ideal.exp ((x2 (ix2 p 0) + x3 (ix2 0 j)) - Spec.two * ∑ k : Fin 128, x0 (ix2 p k) * x1 (ix2 j k)) else 0

/-- One chunk at anchor p over its own 1024 rows: what was there plus the sum over q of the rows' terms. -/
theorem chunk_local (v1 : FVec Ideal S256x128 .bf16) (v3 : FVec Ideal S256x1 .f32) (v5 : IVec S256x1 32)
    (xc : Vec Ideal S1024x128 .f32) (sc : Vec Ideal S1x1024 .f32) (lc : Vec Ideal S1x1024 .i32) (acc : Vec Ideal S256x1 .f32) (p : Fin 256) :
    k0_pay10 v1 v3 v5 xc sc lc acc (ix2 p 0)
      = acc (ix2 p 0) + ∑ q : Fin 1024, (if v5 (ix2 p 0) ≠ lc (ix2 0 q) then
          Ideal.exp ((v3 (ix2 p 0) + sc (ix2 0 q)) - Spec.two * ∑ k : Fin 128, v1 (ix2 p k) * xc (ix2 q k)) else 0) := by
  unfold k0_pay10
  simp only [shapeCast_self]
  refine (addf_apply _ _ _).trans ?_
  refine congrArg (fun z => acc (ix2 p 0) + z) ?_
  refine (shapeCast_a_a1_apply _ _ p 0).trans ?_
  refine (rowsum_read _ p).trans ?_
  refine Finset.sum_congr rfl fun q _ => ?_
  have e1 := broadcastTo_a1_ab_apply v5 broadcasts_S256x1_S256x1024 p q
  have e2 := broadcastTo_1b_ab_apply lc broadcasts_S1x1024_S256x1024 p q
  have e3 := broadcastTo_a1_ab_apply v3 broadcasts_S256x1_S256x1024 p q
  have e4 := broadcastTo_1b_ab_apply sc broadcasts_S1x1024_S256x1024 p q
  have e5 := matmul_read v1 (transpose S128x1024 [1, 0] (truncf .bf16 xc bitsLt_bf16_f32) transposes_S1024x128_p1_0_S128x1024) p q
  have e6 : ∀ k : Fin 128, (transpose S128x1024 [1, 0] (truncf (F := Ideal) .bf16 xc bitsLt_bf16_f32) transposes_S1024x128_p1_0_S128x1024) (ix2 k q) = xc (ix2 q k) :=
    fun k => transpose_ix2_apply _ _ k q
  show Scalar.select (IntOp.cmpi .ne (broadcastTo S256x1024 v5 broadcasts_S256x1_S256x1024 (ix2 p q)) (broadcastTo S256x1024 lc broadcasts_S1x1024_S256x1024 (ix2 p q)))
      (Ideal.exp ((broadcastTo S256x1024 v3 broadcasts_S256x1_S256x1024 (ix2 p q) + broadcastTo S256x1024 sc broadcasts_S1x1024_S256x1024 (ix2 p q))
        - Spec.two * matmul dot_S256x128_S128x1024_S256x1024_1_0_0_1_n_n none v1 (transpose S128x1024 [1, 0] (truncf .bf16 xc bitsLt_bf16_f32) transposes_S1024x128_p1_0_S128x1024) (constant (F := Ideal) S256x1024 .f32 0x00000000#32) (ix2 p q)))
      (Ideal.ofBits .f32 0x00000000#32) = _
  rw [e1, e2, e3, e4, e5]
  simp only [e6]
  by_cases h : v5 (ix2 p 0) = lc (ix2 0 q)
  · rw [if_neg (not_not.mpr h), eq_zero_of_ne_one (fun h1 => (IntOp.cmpi_ne.mp h1) h), select_zero]
    exact Ideal.ofBits_zero_f32
  · rw [if_pos h, IntOp.cmpi_ne.mpr h, select_one]

/-! ## A chunk's loads: rows o … o + 1023 of the table -/

/-- Row o + q of the table, for the stretch of 1024 rows from o. -/
def rowAt (o : ℕ) (ho : o + 1024 ≤ 8192) (q : Fin 1024) : Fin 8192 := ⟨o + q.val, by omega⟩

/-- One chunk over the stretch from o adds, at anchor p, the stretch's terms. -/
theorem chunk_read (x0 : Vec Ideal S256x128 .f32) (x1 : Vec Ideal S8192x128 .f32) (x2 : Vec Ideal S256x1 .f32) (x3 : Vec Ideal S1x8192 .f32)
    (x4 : Vec Ideal S256x1 .i32) (x5 : Vec Ideal S1x8192 .i32) (o : ℕ) (ho : o + 1024 ≤ 8192)
    (inbX : ∀ a, (![o, 0] : Fin 2 → ℕ) a + S1024x128.size a ≤ S8192x128.size a)
    (inbS : ∀ a, (![0, o] : Fin 2 → ℕ) a + S1x1024.size a ≤ S1x8192.size a)
    (acc : Vec Ideal S256x1 .f32) (p : Fin 256) :
    k0_pay10 (F := Ideal) x0 x2 x4 (View.ld x1 (Rect.unit (s := S8192x128) ![o, 0] S1024x128.size inbX))
        (View.ld x3 (Rect.unit (s := S1x8192) ![0, o] S1x1024.size inbS)) (View.ld x5 (Rect.unit (s := S1x8192) ![0, o] S1x1024.size inbS)) acc (ix2 p 0)
      = acc (ix2 p 0) + ∑ q : Fin 1024, term x0 x1 x2 x3 x4 x5 p (rowAt o ho q) := by
  refine (chunk_local _ _ _ _ _ _ _ p).trans ?_
  refine congrArg (fun z => acc (ix2 p 0) + z) (Finset.sum_congr rfl fun q _ => ?_)
  have hX : ∀ k : Fin 128, View.ld x1 (Rect.unit (s := S8192x128) ![o, 0] S1024x128.size inbX) (ix2 q k) = x1 (ix2 (rowAt o ho q) k) := fun k =>
    congrArg x1 (funext fun a => Fin.ext (by
      match a with
      | ⟨0, _⟩ => show o + 1 * q.val = o + q.val; omega
      | ⟨1, _⟩ => show 0 + 1 * k.val = k.val; omega))
  have hS : View.ld x3 (Rect.unit (s := S1x8192) ![0, o] S1x1024.size inbS) (ix2 0 q) = x3 (ix2 0 (rowAt o ho q)) :=
    congrArg x3 (funext fun a => Fin.ext (by
      match a with
      | ⟨0, _⟩ => rfl
      | ⟨1, _⟩ => show o + 1 * q.val = o + q.val; omega))
  have hL : View.ld x5 (Rect.unit (s := S1x8192) ![0, o] S1x1024.size inbS) (ix2 0 q) = x5 (ix2 0 (rowAt o ho q)) :=
    congrArg x5 (funext fun a => Fin.ext (by
      match a with
      | ⟨0, _⟩ => rfl
      | ⟨1, _⟩ => show o + 1 * q.val = o + q.val; omega))
  unfold term
  rw [hS, hL]
  simp only [hX]

/-! ## A sum over the 8192 rows is the sum of its eight stretches of 1024 -/

theorem sum_eight_stretches (f : Fin 8192 → EReal) :
    ∑ j : Fin 8192, f j
      = 0 + ∑ q, f (rowAt 0 (by omega) q) + ∑ q, f (rowAt 1024 (by omega) q) + ∑ q, f (rowAt 2048 (by omega) q) + ∑ q, f (rowAt 3072 (by omega) q)
          + ∑ q, f (rowAt 4096 (by omega) q) + ∑ q, f (rowAt 5120 (by omega) q) + ∑ q, f (rowAt 6144 (by omega) q) + ∑ q, f (rowAt 7168 (by omega) q) := by
  have key : ∀ (c : Fin 8) (q : Fin 1024), (finProdFinEquiv (c, q) : Fin (8 * 1024)) = rowAt (1024 * c.val) (by have := c.isLt; omega) q :=
    fun c q => Fin.ext (by show q.val + 1024 * c.val = 1024 * c.val + q.val; omega)
  rw [← Equiv.sum_comp (finProdFinEquiv (m := 8) (n := 1024)) f, Fintype.sum_prod_type, Fin.sum_univ_eight, zero_add]
  simp only [key]
  rfl

/-! ## The eight chunks in a row -/

theorem ld_whole_256x128 (x0 : Vec Ideal S256x128 .f32) :
    View.ld x0 (Rect.unit (s := S256x128) ![0, 0] S256x128.size inb_S256x128_S256x128_0_0) = x0 :=
  View.ld_unit_zero (funext fun a => by fin_cases a <;> rfl) _ x0
theorem ld_whole_256x1 {e : EltTy} (x : Vec Ideal S256x1 e) :
    View.ld x (Rect.unit (s := S256x1) ![0, 0] S256x1.size inb_S256x1_S256x1_0_0) = x :=
  View.ld_unit_zero (funext fun a => by fin_cases a <;> rfl) _ x
/-- At the exact instance narrowing the anchor block changes nothing, and the two same-shape casts are the identity. -/
theorem pay3_eq (x0 : Vec Ideal S256x128 .f32) : k0_pay3 (F := Ideal) x0 = x0 := rfl
theorem pay4_eq (x2 : Vec Ideal S256x1 .f32) : k0_pay4 (F := Ideal) x2 = x2 := shapeCast_self _ _
theorem pay5_eq (x4 : Vec Ideal S256x1 .i32) : k0_pay5 (F := Ideal) x4 = x4 := shapeCast_self _ _
/-- The column starts at zero. -/
theorem pay7_apply (j : S256x1.Idx) : k0_pay7 (F := Ideal) j = 0 := by
  unfold k0_pay7
  simp only [shapeCast_self]
  exact Ideal.ofBits_zero_f32

/-- Pass 1 is the chunk applied eight times, to the stretches from 0, 1024, …, 7168, starting from the zero column. -/
theorem zcol_chain (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) :
    Hand.zcol (F := Ideal) i x0 x1 x2 x3 x4 x5
      = (let v0 : Vec Ideal S256x128 .f32 := View.ld x0 (Rect.unit (s := S256x128) ![0, 0] S256x128.size inb_S256x128_S256x128_0_0)
         let v2 : Vec Ideal S256x1 .f32 := View.ld x2 (Rect.unit (s := S256x1) ![0, 0] S256x1.size inb_S256x1_S256x1_0_0)
         let v4 : Vec Ideal S256x1 .i32 := View.ld x4 (Rect.unit (s := S256x1) ![0, 0] S256x1.size inb_S256x1_S256x1_0_0)
         k0_pay10 (k0_pay3 v0) (k0_pay4 v2) (k0_pay5 v4)
        (View.ld x1 (Rect.unit (s := S8192x128) ![7168, 0] S1024x128.size inb_S8192x128_S1024x128_7168_0))
        (View.ld x3 (Rect.unit (s := S1x8192) ![0, 7168] S1x1024.size inb_S1x8192_S1x1024_0_7168))
        (View.ld x5 (Rect.unit (s := S1x8192) ![0, 7168] S1x1024.size inb_S1x8192_S1x1024_0_7168))
      (k0_pay10 (k0_pay3 v0) (k0_pay4 v2) (k0_pay5 v4)
        (View.ld x1 (Rect.unit (s := S8192x128) ![6144, 0] S1024x128.size inb_S8192x128_S1024x128_6144_0))
        (View.ld x3 (Rect.unit (s := S1x8192) ![0, 6144] S1x1024.size inb_S1x8192_S1x1024_0_6144))
        (View.ld x5 (Rect.unit (s := S1x8192) ![0, 6144] S1x1024.size inb_S1x8192_S1x1024_0_6144))
      (k0_pay10 (k0_pay3 v0) (k0_pay4 v2) (k0_pay5 v4)
        (View.ld x1 (Rect.unit (s := S8192x128) ![5120, 0] S1024x128.size inb_S8192x128_S1024x128_5120_0))
        (View.ld x3 (Rect.unit (s := S1x8192) ![0, 5120] S1x1024.size inb_S1x8192_S1x1024_0_5120))
        (View.ld x5 (Rect.unit (s := S1x8192) ![0, 5120] S1x1024.size inb_S1x8192_S1x1024_0_5120))
      (k0_pay10 (k0_pay3 v0) (k0_pay4 v2) (k0_pay5 v4)
        (View.ld x1 (Rect.unit (s := S8192x128) ![4096, 0] S1024x128.size inb_S8192x128_S1024x128_4096_0))
        (View.ld x3 (Rect.unit (s := S1x8192) ![0, 4096] S1x1024.size inb_S1x8192_S1x1024_0_4096))
        (View.ld x5 (Rect.unit (s := S1x8192) ![0, 4096] S1x1024.size inb_S1x8192_S1x1024_0_4096))
      (k0_pay10 (k0_pay3 v0) (k0_pay4 v2) (k0_pay5 v4)
        (View.ld x1 (Rect.unit (s := S8192x128) ![3072, 0] S1024x128.size inb_S8192x128_S1024x128_3072_0))
        (View.ld x3 (Rect.unit (s := S1x8192) ![0, 3072] S1x1024.size inb_S1x8192_S1x1024_0_3072))
        (View.ld x5 (Rect.unit (s := S1x8192) ![0, 3072] S1x1024.size inb_S1x8192_S1x1024_0_3072))
      (k0_pay10 (k0_pay3 v0) (k0_pay4 v2) (k0_pay5 v4)
        (View.ld x1 (Rect.unit (s := S8192x128) ![2048, 0] S1024x128.size inb_S8192x128_S1024x128_2048_0))
        (View.ld x3 (Rect.unit (s := S1x8192) ![0, 2048] S1x1024.size inb_S1x8192_S1x1024_0_2048))
        (View.ld x5 (Rect.unit (s := S1x8192) ![0, 2048] S1x1024.size inb_S1x8192_S1x1024_0_2048))
      (k0_pay10 (k0_pay3 v0) (k0_pay4 v2) (k0_pay5 v4)
        (View.ld x1 (Rect.unit (s := S8192x128) ![1024, 0] S1024x128.size inb_S8192x128_S1024x128_1024_0))
        (View.ld x3 (Rect.unit (s := S1x8192) ![0, 1024] S1x1024.size inb_S1x8192_S1x1024_0_1024))
        (View.ld x5 (Rect.unit (s := S1x8192) ![0, 1024] S1x1024.size inb_S1x8192_S1x1024_0_1024))
      (k0_pay10 (k0_pay3 v0) (k0_pay4 v2) (k0_pay5 v4)
        (View.ld x1 (Rect.unit (s := S8192x128) ![0, 0] S1024x128.size inb_S8192x128_S1024x128_0_0))
        (View.ld x3 (Rect.unit (s := S1x8192) ![0, 0] S1x1024.size inb_S1x8192_S1x1024_0_0))
        (View.ld x5 (Rect.unit (s := S1x8192) ![0, 0] S1x1024.size inb_S1x8192_S1x1024_0_0))
      (k0_pay7 (F := Ideal)))))))))) := rfl

end Cert.KernelIdeal.Val.P1

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators
open P1

/-- Pass 1 at anchor p is the sum over all rows of another label of exp of the distance. -/
theorem zcol_apply (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (p : Fin 256) :
    Hand.zcol (F := Ideal) i x0 x1 x2 x3 x4 x5 (ix2 p 0)
      = Spec.zsum (fun k => x0 (ix2 p k)) (x2 (ix2 p 0)) (x4 (ix2 p 0)) (fun j k => x1 (ix2 j k)) (fun j => x3 (ix2 0 j)) (fun j => x5 (ix2 0 j)) := by
  rw [zcol_chain]
  simp only [pay3_eq, pay4_eq, pay5_eq]
  rw [ld_whole_256x128 x0, ld_whole_256x1 x2, ld_whole_256x1 x4]
  rw [chunk_read x0 x1 x2 x3 x4 x5 7168 (by omega), chunk_read x0 x1 x2 x3 x4 x5 6144 (by omega), chunk_read x0 x1 x2 x3 x4 x5 5120 (by omega),
    chunk_read x0 x1 x2 x3 x4 x5 4096 (by omega), chunk_read x0 x1 x2 x3 x4 x5 3072 (by omega), chunk_read x0 x1 x2 x3 x4 x5 2048 (by omega),
    chunk_read x0 x1 x2 x3 x4 x5 1024 (by omega), chunk_read x0 x1 x2 x3 x4 x5 0 (by omega), pay7_apply]
  exact (sum_eight_stretches (term x0 x1 x2 x3 x4 x5 p)).symm

end Cert.KernelIdeal.Val

end
-- ==== Proof.KV.Pass2Chunk.lean ====
/- One stretch of 1024 rows in the second pass of a grid point: the pair mask, the distance block, the loss block and the
   two accumulation steps as functions of the stretch's three loads; the pass as the eightfold chain of those steps; and,
   at the exact instance, each of them read at an index. -/
import proofs.«166613_j1864015806540_1_alg».proof.Proof.KI.BodySplit
import proofs.«166613_j1864015806540_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators

section Generic
variable {F : FTy → Type} [FloatOps F]

/-- The pair mask of a stretch whose first row has index word `o`: the anchor's label equals the row's, and the anchor's
    index is below the row's index `o + q`. -/
def pairMask (o : BitVec 32) (v5 v9 : IVec S256x1 32) (lc : IVec S1x1024 32) : IVec S256x1024 1 :=
  andi
    (cmpi .eq (broadcastTo S256x1024 v5 broadcasts_S256x1_S256x1024) (broadcastTo S256x1024 lc broadcasts_S1x1024_S256x1024))
    (cmpi .slt (broadcastTo S256x1024 v9 broadcasts_S256x1_S256x1024)
      (broadcastTo S256x1024 (addi (broadcast S1x1024 o) (iota .tc S1x1024 32 [1] iota_S1x1024_d1_w32)) broadcasts_S1x1024_S256x1024))

/-- The distances from the 256 anchors to the stretch's 1024 rows: (sr + sc) − 2·⟨xr, xc⟩. -/
def distBlk (v1 : FVec F S256x128 .bf16) (v3 : FVec F S256x1 .f32) (xc : FVec F S1024x128 .bf16) (sc : FVec F S1x1024 .f32) :
    FVec F S256x1024 .f32 :=
  subf
    (addf (broadcastTo S256x1024 v3 broadcasts_S256x1_S256x1024) (broadcastTo S256x1024 sc broadcasts_S1x1024_S256x1024))
    (mulf (broadcast S256x1024 (Scalar.ofBits .f32 0x40000000#32))
      (matmul dot_S256x128_S128x1024_S256x1024_1_0_0_1_n_n none v1
        (transpose S128x1024 [1, 0] xc transposes_S1024x128_p1_0_S128x1024) (constant S256x1024 .f32 0x00000000#32)))

/-- The loss terms log(1 + Z·exp(0 − distance)) of a stretch. -/
def lossBlk (z : Vec F S256x1 .f32) (d : FVec F S256x1024 .f32) : FVec F S256x1024 .f32 :=
  log1p (mulf (broadcastTo S256x1024 z broadcasts_S256x1_S256x1024) (exp (subf (broadcast S256x1024 (Scalar.ofBits .f32 0x00000000#32)) d)))

/-- One step of the first accumulator: add the row sums of the masked loss terms. -/
def sumStep (acc : FVec F S256x1 .f32) (m : IVec S256x1024 1) (l : FVec F S256x1024 .f32) : FVec F S256x1 .f32 :=
  addf acc (shapeCast S256x1
    (multiReduction .add [1] S256 (select m l (broadcast S256x1024 (Scalar.ofBits .f32 0x00000000#32))) 0x00000000#32
      reduces_S256x1024_S256 (.inl rfl) rfl) shapeCasts_S256_S256x1)

/-- One step of the second accumulator: add the row sums of the mask's bits as numbers. -/
def cntStep (acc : FVec F S256x1 .f32) (m : IVec S256x1024 1) : FVec F S256x1 .f32 :=
  addf acc (shapeCast S256x1
    (multiReduction .add [1] S256 (sitofp .f32 (extui 32 m natLt_1_32)) 0x00000000#32
      reduces_S256x1024_S256 (.inl rfl) rfl) shapeCasts_S256_S256x1)

end Generic

section Generic
variable {F : FTy → Type} [FloatOps F]

/-- One stretch's step of the first accumulator, from the stretch's three loads. -/
def sumStretch (o : BitVec 32) (v1 : FVec F S256x128 .bf16) (v3 : FVec F S256x1 .f32) (v5 v9 : IVec S256x1 32) (z : Vec F S256x1 .f32)
    (acc : FVec F S256x1 .f32) (E : Vec F S1024x128 .f32) (N : Vec F S1x1024 .f32) (L : Vec F S1x1024 .i32) : FVec F S256x1 .f32 :=
  sumStep acc (pairMask o v5 v9 (shapeCast S1x1024 L shapeCasts_S1x1024_S1x1024))
    (lossBlk z (distBlk v1 v3 (truncf .bf16 E bitsLt_bf16_f32) (shapeCast S1x1024 N shapeCasts_S1x1024_S1x1024)))

/-- One stretch's step of the second accumulator. -/
def cntStretch (o : BitVec 32) (v5 v9 : IVec S256x1 32) (acc : FVec F S256x1 .f32) (L : Vec F S1x1024 .i32) : FVec F S256x1 .f32 :=
  cntStep (F := F) acc (pairMask o v5 v9 (shapeCast S1x1024 L shapeCasts_S1x1024_S1x1024))

/-- The first accumulator after the eight stretches, from the zero column. -/
def sumChain (v1 : FVec F S256x128 .bf16) (v3 : FVec F S256x1 .f32) (v5 v9 : IVec S256x1 32) (z : Vec F S256x1 .f32)
    (x1 : Vec F S8192x128 .f32) (x3 : Vec F S1x8192 .f32) (x5 : Vec F S1x8192 .i32) : FVec F S256x1 .f32 :=
  sumStretch 7168#32 v1 v3 v5 v9 z
    (sumStretch 6144#32 v1 v3 v5 v9 z
      (sumStretch 5120#32 v1 v3 v5 v9 z
        (sumStretch 4096#32 v1 v3 v5 v9 z
          (sumStretch 3072#32 v1 v3 v5 v9 z
            (sumStretch 2048#32 v1 v3 v5 v9 z
              (sumStretch 1024#32 v1 v3 v5 v9 z
                (sumStretch 0#32 v1 v3 v5 v9 z
                  (broadcast S256x1 (Scalar.ofBits .f32 0x00000000#32))
                  (View.ld x1 (Rect.unit (s := S8192x128) ![0, 0] S1024x128.size inb_S8192x128_S1024x128_0_0))
                  (View.ld x3 (Rect.unit (s := S1x8192) ![0, 0] S1x1024.size inb_S1x8192_S1x1024_0_0))
                  (View.ld x5 (Rect.unit (s := S1x8192) ![0, 0] S1x1024.size inb_S1x8192_S1x1024_0_0)))
                (View.ld x1 (Rect.unit (s := S8192x128) ![1024, 0] S1024x128.size inb_S8192x128_S1024x128_1024_0))
                (View.ld x3 (Rect.unit (s := S1x8192) ![0, 1024] S1x1024.size inb_S1x8192_S1x1024_0_1024))
                (View.ld x5 (Rect.unit (s := S1x8192) ![0, 1024] S1x1024.size inb_S1x8192_S1x1024_0_1024)))
              (View.ld x1 (Rect.unit (s := S8192x128) ![2048, 0] S1024x128.size inb_S8192x128_S1024x128_2048_0))
              (View.ld x3 (Rect.unit (s := S1x8192) ![0, 2048] S1x1024.size inb_S1x8192_S1x1024_0_2048))
              (View.ld x5 (Rect.unit (s := S1x8192) ![0, 2048] S1x1024.size inb_S1x8192_S1x1024_0_2048)))
            (View.ld x1 (Rect.unit (s := S8192x128) ![3072, 0] S1024x128.size inb_S8192x128_S1024x128_3072_0))
            (View.ld x3 (Rect.unit (s := S1x8192) ![0, 3072] S1x1024.size inb_S1x8192_S1x1024_0_3072))
            (View.ld x5 (Rect.unit (s := S1x8192) ![0, 3072] S1x1024.size inb_S1x8192_S1x1024_0_3072)))
          (View.ld x1 (Rect.unit (s := S8192x128) ![4096, 0] S1024x128.size inb_S8192x128_S1024x128_4096_0))
          (View.ld x3 (Rect.unit (s := S1x8192) ![0, 4096] S1x1024.size inb_S1x8192_S1x1024_0_4096))
          (View.ld x5 (Rect.unit (s := S1x8192) ![0, 4096] S1x1024.size inb_S1x8192_S1x1024_0_4096)))
        (View.ld x1 (Rect.unit (s := S8192x128) ![5120, 0] S1024x128.size inb_S8192x128_S1024x128_5120_0))
        (View.ld x3 (Rect.unit (s := S1x8192) ![0, 5120] S1x1024.size inb_S1x8192_S1x1024_0_5120))
        (View.ld x5 (Rect.unit (s := S1x8192) ![0, 5120] S1x1024.size inb_S1x8192_S1x1024_0_5120)))
      (View.ld x1 (Rect.unit (s := S8192x128) ![6144, 0] S1024x128.size inb_S8192x128_S1024x128_6144_0))
      (View.ld x3 (Rect.unit (s := S1x8192) ![0, 6144] S1x1024.size inb_S1x8192_S1x1024_0_6144))
      (View.ld x5 (Rect.unit (s := S1x8192) ![0, 6144] S1x1024.size inb_S1x8192_S1x1024_0_6144)))
    (View.ld x1 (Rect.unit (s := S8192x128) ![7168, 0] S1024x128.size inb_S8192x128_S1024x128_7168_0))
    (View.ld x3 (Rect.unit (s := S1x8192) ![0, 7168] S1x1024.size inb_S1x8192_S1x1024_0_7168))
    (View.ld x5 (Rect.unit (s := S1x8192) ![0, 7168] S1x1024.size inb_S1x8192_S1x1024_0_7168))

/-- The second accumulator after the eight stretches, from the zero column. -/
def cntChain (v5 v9 : IVec S256x1 32) (x5 : Vec F S1x8192 .i32) : FVec F S256x1 .f32 :=
  cntStretch 7168#32 v5 v9
    (cntStretch 6144#32 v5 v9
      (cntStretch 5120#32 v5 v9
        (cntStretch 4096#32 v5 v9
          (cntStretch 3072#32 v5 v9
            (cntStretch 2048#32 v5 v9
              (cntStretch 1024#32 v5 v9
                (cntStretch 0#32 v5 v9
                  (broadcast S256x1 (Scalar.ofBits .f32 0x00000000#32))
                  (View.ld x5 (Rect.unit (s := S1x8192) ![0, 0] S1x1024.size inb_S1x8192_S1x1024_0_0)))
                (View.ld x5 (Rect.unit (s := S1x8192) ![0, 1024] S1x1024.size inb_S1x8192_S1x1024_0_1024)))
              (View.ld x5 (Rect.unit (s := S1x8192) ![0, 2048] S1x1024.size inb_S1x8192_S1x1024_0_2048)))
            (View.ld x5 (Rect.unit (s := S1x8192) ![0, 3072] S1x1024.size inb_S1x8192_S1x1024_0_3072)))
          (View.ld x5 (Rect.unit (s := S1x8192) ![0, 4096] S1x1024.size inb_S1x8192_S1x1024_0_4096)))
        (View.ld x5 (Rect.unit (s := S1x8192) ![0, 5120] S1x1024.size inb_S1x8192_S1x1024_0_5120)))
      (View.ld x5 (Rect.unit (s := S1x8192) ![0, 6144] S1x1024.size inb_S1x8192_S1x1024_0_6144)))
    (View.ld x5 (Rect.unit (s := S1x8192) ![0, 7168] S1x1024.size inb_S1x8192_S1x1024_0_7168))

/-- The second pass is the two chains, over the anchors' block cast to bf16, their squared norms and labels, and their
    global indices. -/
theorem outsZ_eq (i : grid0.Coords) (x0 : Vec F S256x128 .f32) (x1 : Vec F S8192x128 .f32) (x2 : Vec F S256x1 .f32) (x3 : Vec F S1x8192 .f32)
    (x4 : Vec F S256x1 .i32) (x5 : Vec F S1x8192 .i32) (z : Vec F S256x1 .f32) :
    Hand.outsZ i x0 x1 x2 x3 x4 x5 z =
      (sumChain
          (truncf .bf16 (View.ld x0 (Rect.unit (s := S256x128) ![0, 0] S256x128.size inb_S256x128_S256x128_0_0)) bitsLt_bf16_f32)
          (shapeCast S256x1 (View.ld x2 (Rect.unit (s := S256x1) ![0, 0] S256x1.size inb_S256x1_S256x1_0_0)) shapeCasts_S256x1_S256x1)
          (shapeCast S256x1 (View.ld x4 (Rect.unit (s := S256x1) ![0, 0] S256x1.size inb_S256x1_S256x1_0_0)) shapeCasts_S256x1_S256x1)
          (k0_pay6 i) z x1 x3 x5,
       cntChain
          (shapeCast S256x1 (View.ld x4 (Rect.unit (s := S256x1) ![0, 0] S256x1.size inb_S256x1_S256x1_0_0)) shapeCasts_S256x1_S256x1)
          (k0_pay6 i) x5) := by
  rfl

end Generic

/-! ## Layout reads with a unit axis kept -/

/-- A column broadcast over the lanes: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A load through a rectangle of 1024 whole rows from row `o` reads the array's row `o + q`. -/
theorem ld_rows_apply {F : FTy → Type} {e : EltTy} (x : Vec F S8192x128 e) (o : ℕ) (ho : o + 1024 ≤ 8192)
    (h : ∀ a, (![o, 0] : Fin 2 → ℕ) a + S1024x128.size a ≤ S8192x128.size a) (q : Fin 1024) (k : Fin 128) :
    (View.ld x (Rect.unit (s := S8192x128) ![o, 0] S1024x128.size h) : Vec F S1024x128 e) (ix2 q k)
      = x (ix2 (⟨o + q.val, by have := q.isLt; omega⟩ : Fin 8192) k) := by
  show x _ = x _
  congr 1
  funext a
  apply Fin.ext
  match a with
  | ⟨0, _⟩ => show o + 1 * q.val = o + q.val; omega
  | ⟨1, _⟩ => show 0 + 1 * k.val = k.val; omega

/-- A load of 1024 lanes of a row array from lane `o` reads the array's lane `o + q`. -/
theorem ld_lanes_apply {F : FTy → Type} {e : EltTy} (x : Vec F S1x8192 e) (o : ℕ) (ho : o + 1024 ≤ 8192)
    (h : ∀ a, (![0, o] : Fin 2 → ℕ) a + S1x1024.size a ≤ S1x8192.size a) (q : Fin 1024) :
    (View.ld x (Rect.unit (s := S1x8192) ![0, o] S1x1024.size h) : Vec F S1x1024 e) (ix2 (0 : Fin 1) q)
      = x (ix2 (0 : Fin 1) (⟨o + q.val, by have := q.isLt; omega⟩ : Fin 8192)) := by
  show x _ = x _
  congr 1
  funext a
  apply Fin.ext
  match a with
  | ⟨0, _⟩ => show 0 + 1 * 0 = 0; rfl
  | ⟨1, _⟩ => show o + 1 * q.val = o + q.val; omega

/-! ## Words -/

/-- The conjunction of two bits is set exactly when both are. -/
theorem andi_eq_one_iff (a b : BitVec 1) : IntOp.andi a b = 1#1 ↔ a = 1#1 ∧ b = 1#1 := by
  rcases BitVec.eq_zero_or_eq_one a with rfl | rfl <;> rcases BitVec.eq_zero_or_eq_one b with rfl | rfl <;> decide

/-- On words of naturals below 2³¹ the signed comparison is the naturals'. -/
theorem slt_small (a b : ℕ) (ha : a < 2 ^ 31) (hb : b < 2 ^ 31) :
    IntOp.cmpi .slt (BitVec.ofNat 32 a) (BitVec.ofNat 32 b) = 1#1 ↔ a < b := by
  unfold IntOp.cmpi
  exact StableHlo.Predicate.slt_ofNat_iff a b ha hb

/-- The anchors' global indices as words: 256·t + p. -/
theorem anchorIdx_apply (i : grid0.Coords) (p : Fin 256) :
    k0_pay6 i (ix2 p (0 : Fin 1)) = BitVec.ofNat 32 (256 * (i 0).val + p.val) := by
  unfold k0_pay6
  show IntOp.addi (Scalar.muli (BitVec.ofNat 32 (i 0).val) 256#32) (iota .tc S256x1 32 [0] iota_S256x1_d0_w32 (ix2 p (0 : Fin 1))) = _
  rw [iota_single_apply]
  show BitVec.ofNat 32 (i 0).val * BitVec.ofNat 32 256 + BitVec.ofNat 32 p.val = _
  rw [← BitVec.ofNat_mul, ← BitVec.ofNat_add, Nat.mul_comm]

/-- The pair mask at `(p, q)`. -/
theorem pairMask_apply (o : BitVec 32) (v5 v9 : IVec S256x1 32) (lc : IVec S1x1024 32) (p : Fin 256) (q : Fin 1024) :
    pairMask o v5 v9 lc (ix2 p q) = 1#1 ↔
      v5 (ix2 p (0 : Fin 1)) = lc (ix2 (0 : Fin 1) q) ∧ IntOp.cmpi .slt (v9 (ix2 p (0 : Fin 1))) (o + BitVec.ofNat 32 q.val) = 1#1 := by
  have e1 := broadcastTo_a1_ab_apply v5 broadcasts_S256x1_S256x1024 p q
  have e2 := broadcastTo_1b_ab_apply lc broadcasts_S1x1024_S256x1024 p q
  have e3 := broadcastTo_a1_ab_apply v9 broadcasts_S256x1_S256x1024 p q
  have e4 := broadcastTo_1b_ab_apply (addi (broadcast S1x1024 o) (iota .tc S1x1024 32 [1] iota_S1x1024_d1_w32)) broadcasts_S1x1024_S256x1024 p q
  have e5 : (addi (broadcast S1x1024 o) (iota .tc S1x1024 32 [1] iota_S1x1024_d1_w32)) (ix2 (0 : Fin 1) q) = o + BitVec.ofNat 32 q.val := by
    show IntOp.addi o (iota .tc S1x1024 32 [1] iota_S1x1024_d1_w32 (ix2 (0 : Fin 1) q)) = _
    rw [iota_single_apply]; rfl
  unfold pairMask
  show IntOp.andi (IntOp.cmpi .eq (broadcastTo S256x1024 v5 broadcasts_S256x1_S256x1024 (ix2 p q)) (broadcastTo S256x1024 lc broadcasts_S1x1024_S256x1024 (ix2 p q)))
      (IntOp.cmpi .slt (broadcastTo S256x1024 v9 broadcasts_S256x1_S256x1024 (ix2 p q))
        (broadcastTo S256x1024 (addi (broadcast S1x1024 o) (iota .tc S1x1024 32 [1] iota_S1x1024_d1_w32)) broadcasts_S1x1024_S256x1024 (ix2 p q))) = 1#1 ↔ _
  rw [andi_eq_one_iff, StableHlo.Predicate.cmpi_eq_iff, e1, e2, e3, e4, e5]

/-! ## The accumulation steps at an index -/

/-- A lane sum with the unit axis kept reads, at row `p`, the sum of that row's 1024 entries. -/
theorem rowsum_keep_apply (src : FVec Ideal S256x1024 .f32) (p : Fin 256) :
    shapeCast S256x1 (multiReduction (F := Ideal) .add [1] S256 src 0x00000000#32 reduces_S256x1024_S256 (.inl rfl) rfl)
        shapeCasts_S256_S256x1 (ix2 p (0 : Fin 1))
      = ∑ q : Fin 1024, src (ix2 p q) := by
  refine (shapeCast_a_a1_apply _ shapeCasts_S256_S256x1 p (0 : Fin 1)).trans ?_
  refine (Ideal.multiReduction_add_single src 0x00000000#32 reduces_S256x1024_S256 (.inl rfl) rfl (ix1 p)).trans ?_
  refine Finset.sum_congr rfl fun q _ => congrArg src ?_
  funext a
  match a with
  | ⟨0, _⟩ => rfl
  | ⟨1, _⟩ => rfl

/-- A step of the first accumulator at row `p`: the sum over the stretch of the loss terms under the mask. -/
theorem sumStep_apply (acc : FVec Ideal S256x1 .f32) (m : IVec S256x1024 1) (l : FVec Ideal S256x1024 .f32) (p : Fin 256) :
    sumStep acc m l (ix2 p (0 : Fin 1)) = acc (ix2 p (0 : Fin 1)) + ∑ q : Fin 1024, if m (ix2 p q) = 1#1 then l (ix2 p q) else 0 := by
  unfold sumStep
  refine (addf_apply _ _ _).trans (congrArg (acc (ix2 p (0 : Fin 1)) + ·) ?_)
  refine (rowsum_keep_apply _ p).trans (Finset.sum_congr rfl fun q _ => ?_)
  show Scalar.select (m (ix2 p q)) (l (ix2 p q)) (Ideal.ofBits .f32 0x00000000#32) = _
  rw [Ideal.ofBits_zero_f32]
  rfl

/-- A step of the second accumulator at row `p`: the number of set bits of the mask's row. -/
theorem cntStep_apply (acc : FVec Ideal S256x1 .f32) (m : IVec S256x1024 1) (p : Fin 256) :
    cntStep acc m (ix2 p (0 : Fin 1)) = acc (ix2 p (0 : Fin 1)) + ∑ q : Fin 1024, if m (ix2 p q) = 1#1 then (1 : EReal) else 0 := by
  unfold cntStep
  refine (addf_apply _ _ _).trans (congrArg (acc (ix2 p (0 : Fin 1)) + ·) ?_)
  refine (rowsum_keep_apply _ p).trans (Finset.sum_congr rfl fun q _ => ?_)
  show ((((m (ix2 p q)).setWidth 32).toInt : ℝ) : EReal) = _
  rcases BitVec.eq_zero_or_eq_one (m (ix2 p q)) with h | h
  · rw [h, if_neg (by decide), show ((0#1 : BitVec 1).setWidth 32).toInt = 0 by decide]; simp
  · rw [h, if_pos rfl, show ((1#1 : BitVec 1).setWidth 32).toInt = 1 by decide]; simp

/-! ## The distances and the loss terms at an index -/

theorem gram_lhs_0 (j : S256x1024.Idx) (c : dot_S256x128_S128x1024_S256x1024_1_0_0_1_n_n.contr.Idx) :
    (dot_S256x128_S128x1024_S256x1024_1_0_0_1_n_n.lhsIdx j c 0).val = (j 0).val := by
  unfold DotDims.lhsIdx
  rw [dif_neg (show ¬(0 : Fin S256x128.rank) ∈ dot_S256x128_S128x1024_S256x1024_1_0_0_1_n_n.lhsBatch by decide),
    dif_pos (show (0 : Fin S256x128.rank) ∈ dot_S256x128_S128x1024_S256x1024_1_0_0_1_n_n.lhsNonContracting by decide)]
  rfl
theorem gram_lhs_1 (j : S256x1024.Idx) (c : dot_S256x128_S128x1024_S256x1024_1_0_0_1_n_n.contr.Idx) :
    (dot_S256x128_S128x1024_S256x1024_1_0_0_1_n_n.lhsIdx j c 1).val = (c ⟨0, by decide⟩).val :=
  dot_S256x128_S128x1024_S256x1024_1_0_0_1_n_n.lhsIdx_val_of_single rfl j c
theorem gram_rhs_0 (j : S256x1024.Idx) (c : dot_S256x128_S128x1024_S256x1024_1_0_0_1_n_n.contr.Idx) :
    (dot_S256x128_S128x1024_S256x1024_1_0_0_1_n_n.rhsIdx j c 0).val = (c ⟨0, by decide⟩).val :=
  dot_S256x128_S128x1024_S256x1024_1_0_0_1_n_n.rhsIdx_val_of_single rfl j c
theorem gram_rhs_1 (j : S256x1024.Idx) (c : dot_S256x128_S128x1024_S256x1024_1_0_0_1_n_n.contr.Idx) :
    (dot_S256x128_S128x1024_S256x1024_1_0_0_1_n_n.rhsIdx j c 1).val = (j 1).val := by
  unfold DotDims.rhsIdx
  rw [dif_neg (show ¬(1 : Fin S128x1024.rank) ∈ dot_S256x128_S128x1024_S256x1024_1_0_0_1_n_n.rhsBatch by decide),
    dif_pos (show (1 : Fin S128x1024.rank) ∈ dot_S256x128_S128x1024_S256x1024_1_0_0_1_n_n.rhsNonContracting by decide)]
  rfl

/-- The product of the anchors' block with the transposed stretch, at `(p, q)`: the inner product of anchor `p` and row `q`. -/
theorem gram_apply (v1 : FVec Ideal S256x128 .bf16) (xc : FVec Ideal S1024x128 .bf16) (p : Fin 256) (q : Fin 1024) :
    matmul (F := Ideal) dot_S256x128_S128x1024_S256x1024_1_0_0_1_n_n none v1 (transpose S128x1024 [1, 0] xc transposes_S1024x128_p1_0_S128x1024)
        (constant (F := Ideal) S256x1024 .f32 0x00000000#32) (ix2 p q)
      = ∑ k : Fin 128, v1 (ix2 p k) * xc (ix2 q k) := by
  refine (Ideal.matmul_constant_zero_apply dot_S256x128_S128x1024_S256x1024_1_0_0_1_n_n none v1
    (transpose S128x1024 [1, 0] xc transposes_S1024x128_p1_0_S128x1024) (ix2 p q)).trans ?_
  rw [← Equiv.sum_comp (contrEquiv1 dot_S256x128_S128x1024_S256x1024_1_0_0_1_n_n 128 rfl rfl).symm]
  refine Finset.sum_congr rfl fun k _ => ?_
  have hk := contrEquiv1_symm_val dot_S256x128_S128x1024_S256x1024_1_0_0_1_n_n 128 rfl rfl k
  have el : dot_S256x128_S128x1024_S256x1024_1_0_0_1_n_n.lhsIdx (ix2 p q) ((contrEquiv1 dot_S256x128_S128x1024_S256x1024_1_0_0_1_n_n 128 rfl rfl).symm k) = ix2 p k :=
    funext fun a => Fin.ext (by
      match a with
      | ⟨0, _⟩ => exact gram_lhs_0 _ _
      | ⟨1, _⟩ => exact (gram_lhs_1 _ _).trans hk)
  have er : dot_S256x128_S128x1024_S256x1024_1_0_0_1_n_n.rhsIdx (ix2 p q) ((contrEquiv1 dot_S256x128_S128x1024_S256x1024_1_0_0_1_n_n 128 rfl rfl).symm k) = ix2 k q :=
    funext fun a => Fin.ext (by
      match a with
      | ⟨0, _⟩ => exact (gram_rhs_0 _ _).trans hk
      | ⟨1, _⟩ => exact gram_rhs_1 _ _)
  rw [el, er, transpose_ix2_apply]

/-- The distance block at `(p, q)`. -/
theorem distBlk_apply (v1 : FVec Ideal S256x128 .bf16) (v3 : FVec Ideal S256x1 .f32) (xc : FVec Ideal S1024x128 .bf16)
    (sc : FVec Ideal S1x1024 .f32) (p : Fin 256) (q : Fin 1024) :
    distBlk v1 v3 xc sc (ix2 p q)
      = (v3 (ix2 p (0 : Fin 1)) + sc (ix2 (0 : Fin 1) q)) - Spec.two * ∑ k : Fin 128, v1 (ix2 p k) * xc (ix2 q k) := by
  unfold distBlk
  refine (subf_apply _ _ _).trans ?_
  refine congrArg₂ (· - ·) ?_ ?_
  · exact (addf_apply _ _ _).trans (congrArg₂ (· + ·) (broadcastTo_a1_ab_apply v3 broadcasts_S256x1_S256x1024 p q)
      (broadcastTo_1b_ab_apply sc broadcasts_S1x1024_S256x1024 p q))
  · exact (mulf_apply _ _ _).trans (congrArg (Spec.two * ·) (gram_apply v1 xc p q))

/-- The loss block at `(p, q)`. -/
theorem lossBlk_apply (z : Vec Ideal S256x1 .f32) (d : FVec Ideal S256x1024 .f32) (p : Fin 256) (q : Fin 1024) :
    lossBlk z d (ix2 p q) = Ideal.log1p (z (ix2 p (0 : Fin 1)) * Ideal.exp (-(d (ix2 p q)))) := by
  unfold lossBlk
  show Ideal.log1p (broadcastTo S256x1024 z broadcasts_S256x1_S256x1024 (ix2 p q) * Ideal.exp (Ideal.ofBits .f32 0x00000000#32 - d (ix2 p q))) = _
  rw [broadcastTo_a1_ab_apply, Ideal.ofBits_zero_f32, zero_sub]

/-! ## A stretch's two steps at an index -/

/-- The first accumulator's step for a stretch whose first row has index `o`, at anchor `p`: the accumulator plus the
    sum, over the stretch's rows `q` of the anchor's label with anchor index below `o + q`, of log(1 + Z·exp(−distance)). -/
theorem sumStretch_apply (o : BitVec 32) (v1 : FVec Ideal S256x128 .bf16) (v3 : FVec Ideal S256x1 .f32) (v5 v9 : IVec S256x1 32)
    (z : Vec Ideal S256x1 .f32) (acc : FVec Ideal S256x1 .f32) (E : Vec Ideal S1024x128 .f32) (N : Vec Ideal S1x1024 .f32)
    (L : Vec Ideal S1x1024 .i32) (p : Fin 256) :
    sumStretch o v1 v3 v5 v9 z acc E N L (ix2 p (0 : Fin 1))
      = acc (ix2 p (0 : Fin 1)) + ∑ q : Fin 1024,
          if v5 (ix2 p (0 : Fin 1)) = L (ix2 (0 : Fin 1) q) ∧ IntOp.cmpi .slt (v9 (ix2 p (0 : Fin 1))) (o + BitVec.ofNat 32 q.val) = 1#1
          then Ideal.log1p (z (ix2 p (0 : Fin 1)) * Ideal.exp (-((v3 (ix2 p (0 : Fin 1)) + N (ix2 (0 : Fin 1) q))
            - Spec.two * ∑ k : Fin 128, v1 (ix2 p k) * E (ix2 q k)))) else 0 := by
  unfold sumStretch
  refine (sumStep_apply _ _ _ p).trans (congrArg (acc (ix2 p (0 : Fin 1)) + ·) (Finset.sum_congr rfl fun q _ => ?_))
  refine if_congr ?_ ?_ rfl
  · refine (pairMask_apply o v5 v9 _ p q).trans ?_
    rw [shapeCast_self]
  · rw [lossBlk_apply, distBlk_apply, shapeCast_self]
    rfl

/-- The second accumulator's step likewise: the accumulator plus the number of those rows. -/
theorem cntStretch_apply (o : BitVec 32) (v5 v9 : IVec S256x1 32) (acc : FVec Ideal S256x1 .f32) (L : Vec Ideal S1x1024 .i32) (p : Fin 256) :
    cntStretch (F := Ideal) o v5 v9 acc L (ix2 p (0 : Fin 1))
      = acc (ix2 p (0 : Fin 1)) + ∑ q : Fin 1024,
          if v5 (ix2 p (0 : Fin 1)) = L (ix2 (0 : Fin 1) q) ∧ IntOp.cmpi .slt (v9 (ix2 p (0 : Fin 1))) (o + BitVec.ofNat 32 q.val) = 1#1
          then (1 : EReal) else 0 := by
  unfold cntStretch
  refine (cntStep_apply _ _ p).trans (congrArg (acc (ix2 p (0 : Fin 1)) + ·) (Finset.sum_congr rfl fun q _ => ?_))
  refine if_congr ?_ rfl rfl
  refine (pairMask_apply o v5 v9 _ p q).trans ?_
  rw [shapeCast_self]

/-! ## Eight stretches of 1024 make the sum over 8192 -/

/-- The sum of the 1024 consecutive terms of `f` from index `o`. -/
def stretch (f : Fin 8192 → EReal) (o : ℕ) (ho : o + 1024 ≤ 8192) : EReal :=
  ∑ q : Fin 1024, f ⟨o + q.val, by have := q.isLt; omega⟩

/-- The sum of the first `n` terms of `f`. -/
def headSum (f : Fin 8192 → EReal) (n : ℕ) (hn : n ≤ 8192) : EReal :=
  ∑ j : Fin n, f ⟨j.val, by have := j.isLt; omega⟩

theorem headSum_add (f : Fin 8192 → EReal) (n : ℕ) (hn : n + 1024 ≤ 8192) :
    headSum f (n + 1024) hn = headSum f n (by omega) + stretch f n hn := by
  unfold headSum stretch
  rw [Fin.sum_univ_add]
  rfl

theorem headSum_zero (f : Fin 8192 → EReal) : headSum f 0 (by omega) = 0 := by
  unfold headSum
  exact Finset.sum_empty

theorem headSum_full (f : Fin 8192 → EReal) : headSum f 8192 (le_refl _) = ∑ j, f j := rfl

/-- Addition on the extended reals is commutative and associative, so the sum over 8192 rows is the eight stretches' sums
    added up from zero in order. -/
theorem sum_eq_stretches (f : Fin 8192 → EReal) :
    ∑ j, f j = 0 + stretch f 0 (by norm_num) + stretch f 1024 (by norm_num) + stretch f 2048 (by norm_num)
      + stretch f 3072 (by norm_num) + stretch f 4096 (by norm_num) + stretch f 5120 (by norm_num)
      + stretch f 6144 (by norm_num) + stretch f 7168 (by norm_num) := by
  have e8 : headSum f 8192 (le_refl _) = headSum f 7168 (by norm_num) + stretch f 7168 (by norm_num) := headSum_add f 7168 (by norm_num)
  have e7 : headSum f 7168 (by norm_num) = headSum f 6144 (by norm_num) + stretch f 6144 (by norm_num) := headSum_add f 6144 (by norm_num)
  have e6 : headSum f 6144 (by norm_num) = headSum f 5120 (by norm_num) + stretch f 5120 (by norm_num) := headSum_add f 5120 (by norm_num)
  have e5 : headSum f 5120 (by norm_num) = headSum f 4096 (by norm_num) + stretch f 4096 (by norm_num) := headSum_add f 4096 (by norm_num)
  have e4 : headSum f 4096 (by norm_num) = headSum f 3072 (by norm_num) + stretch f 3072 (by norm_num) := headSum_add f 3072 (by norm_num)
  have e3 : headSum f 3072 (by norm_num) = headSum f 2048 (by norm_num) + stretch f 2048 (by norm_num) := headSum_add f 2048 (by norm_num)
  have e2 : headSum f 2048 (by norm_num) = headSum f 1024 (by norm_num) + stretch f 1024 (by norm_num) := headSum_add f 1024 (by norm_num)
  have e1 : headSum f 1024 (by norm_num) = headSum f 0 (by norm_num) + stretch f 0 (by norm_num) := headSum_add f 0 (by norm_num)
  rw [← headSum_full f, e8, e7, e6, e5, e4, e3, e2, e1, headSum_zero]

end Cert.KernelIdeal.Val

end
-- ==== Proof.KV.Pass2.lean ====
/- Pass 2 of a grid point at the exact instance, with the column Z given: the first accumulator ends, for anchor p of
   global index 256·t + p, at the sum over its pairs — rows of the same label with a larger global index — of
   log(1 + Z·exp(−distance)), the second at the number of its pairs, each as the sum of eight stretches of 1024 rows. -/
import proofs.«166613_j1864015806540_1_alg».proof.Proof.KI.BodySplit
import proofs.«166613_j1864015806540_1_alg».proof.Proof.Spec
import proofs.«166613_j1864015806540_1_alg».proof.Proof.KV.Pass2Chunk
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators

/-- Anchor `p`'s term of the first accumulator at row `j` of the whole table. -/
def pairTerm (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (z : Vec Ideal S256x1 .f32) (p : Fin 256) (j : Fin 8192) : EReal :=
  if Spec.IsPair (256 * (i 0).val + p.val) (x4 (ix2 p 0)) (fun j => x5 (ix2 0 j)) j
  then Ideal.log1p (z (ix2 p 0) * Ideal.exp (-(Spec.dist (fun k => x0 (ix2 p k)) (x2 (ix2 p 0)) (fun j k => x1 (ix2 j k)) (fun j => x3 (ix2 0 j)) j))) else 0

/-- Anchor `p`'s term of the second accumulator at row `j`. -/
def pairOne (i : grid0.Coords) (x4 : Vec Ideal S256x1 .i32) (x5 : Vec Ideal S1x8192 .i32) (p : Fin 256) (j : Fin 8192) : EReal :=
  if Spec.IsPair (256 * (i 0).val + p.val) (x4 (ix2 p 0)) (fun j => x5 (ix2 0 j)) j then 1 else 0

/-- The mask's condition at row `q` of the stretch from `o` is: row `o + q` pairs with the anchor. Both indices are
    below 8192, so the signed comparison of their words is the naturals'. -/
theorem pair_iff (i : grid0.Coords) (x4 : Vec Ideal S256x1 .i32) (x5 : Vec Ideal S1x8192 .i32) (v5 : IVec S256x1 32) (p : Fin 256)
    (hv5 : v5 (ix2 p (0 : Fin 1)) = x4 (ix2 p (0 : Fin 1))) (o : ℕ) (ho : o + 1024 ≤ 8192)
    (h5 : ∀ a, (![0, o] : Fin 2 → ℕ) a + S1x1024.size a ≤ S1x8192.size a) (q : Fin 1024) :
    (v5 (ix2 p (0 : Fin 1)) = (View.ld x5 (Rect.unit (s := S1x8192) ![0, o] S1x1024.size h5) : Vec Ideal S1x1024 .i32) (ix2 (0 : Fin 1) q)
        ∧ IntOp.cmpi .slt (k0_pay6 i (ix2 p (0 : Fin 1))) (BitVec.ofNat 32 o + BitVec.ofNat 32 q.val) = 1#1)
      ↔ Spec.IsPair (256 * (i 0).val + p.val) (x4 (ix2 p 0)) (fun j => x5 (ix2 0 j)) ⟨o + q.val, by have := q.isLt; omega⟩ := by
  have ht : (i 0).val < 32 := (i 0).isLt
  have hp := p.isLt
  have hq := q.isLt
  rw [hv5, ld_lanes_apply x5 o ho h5 q, anchorIdx_apply, ← BitVec.ofNat_add, slt_small _ _ (by omega) (by omega)]
  exact Iff.rfl

/-- The first accumulator's step over the stretch loaded from row `o` adds the stretch of the anchor's terms from `o`. -/
theorem sumStretch_spec (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (z : Vec Ideal S256x1 .f32) (p : Fin 256)
    (v1 : FVec Ideal S256x128 .bf16) (v3 : FVec Ideal S256x1 .f32) (v5 : IVec S256x1 32)
    (hv1 : ∀ k : Fin 128, v1 (ix2 p k) = x0 (ix2 p k)) (hv3 : v3 (ix2 p (0 : Fin 1)) = x2 (ix2 p (0 : Fin 1)))
    (hv5 : v5 (ix2 p (0 : Fin 1)) = x4 (ix2 p (0 : Fin 1))) (o : ℕ) (ho : o + 1024 ≤ 8192)
    (h1 : ∀ a, (![o, 0] : Fin 2 → ℕ) a + S1024x128.size a ≤ S8192x128.size a)
    (h3 : ∀ a, (![0, o] : Fin 2 → ℕ) a + S1x1024.size a ≤ S1x8192.size a)
    (h5 : ∀ a, (![0, o] : Fin 2 → ℕ) a + S1x1024.size a ≤ S1x8192.size a) (acc : FVec Ideal S256x1 .f32) :
    sumStretch (BitVec.ofNat 32 o) v1 v3 v5 (k0_pay6 i) z acc
        (View.ld x1 (Rect.unit (s := S8192x128) ![o, 0] S1024x128.size h1))
        (View.ld x3 (Rect.unit (s := S1x8192) ![0, o] S1x1024.size h3))
        (View.ld x5 (Rect.unit (s := S1x8192) ![0, o] S1x1024.size h5)) (ix2 p (0 : Fin 1))
      = acc (ix2 p (0 : Fin 1)) + stretch (pairTerm i x0 x1 x2 x3 x4 x5 z p) o ho := by
  refine (sumStretch_apply _ v1 v3 v5 (k0_pay6 i) z acc _ _ _ p).trans
    (congrArg (acc (ix2 p (0 : Fin 1)) + ·) (Finset.sum_congr rfl fun q _ => ?_))
  unfold pairTerm
  refine if_congr (pair_iff i x4 x5 v5 p hv5 o ho h5 q) ?_ rfl
  unfold Spec.dist
  rw [hv3, ld_lanes_apply x3 o ho h3 q]
  simp only [hv1, ld_rows_apply x1 o ho h1 q]

/-- The second accumulator's step adds the number of the stretch's rows that pair with the anchor. -/
theorem cntStretch_spec (i : grid0.Coords) (x4 : Vec Ideal S256x1 .i32) (x5 : Vec Ideal S1x8192 .i32) (p : Fin 256) (v5 : IVec S256x1 32)
    (hv5 : v5 (ix2 p (0 : Fin 1)) = x4 (ix2 p (0 : Fin 1))) (o : ℕ) (ho : o + 1024 ≤ 8192)
    (h5 : ∀ a, (![0, o] : Fin 2 → ℕ) a + S1x1024.size a ≤ S1x8192.size a) (acc : FVec Ideal S256x1 .f32) :
    cntStretch (F := Ideal) (BitVec.ofNat 32 o) v5 (k0_pay6 i) acc
        (View.ld x5 (Rect.unit (s := S1x8192) ![0, o] S1x1024.size h5)) (ix2 p (0 : Fin 1))
      = acc (ix2 p (0 : Fin 1)) + stretch (pairOne i x4 x5 p) o ho := by
  refine (cntStretch_apply _ v5 (k0_pay6 i) acc _ p).trans
    (congrArg (acc (ix2 p (0 : Fin 1)) + ·) (Finset.sum_congr rfl fun q _ => ?_))
  unfold pairOne
  exact if_congr (pair_iff i x4 x5 v5 p hv5 o ho h5 q) rfl rfl

/-- The chain of the eight steps of the first accumulator ends at the sum of the anchor's terms over the whole table. -/
theorem sumChain_apply (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (z : Vec Ideal S256x1 .f32) (p : Fin 256)
    (v1 : FVec Ideal S256x128 .bf16) (v3 : FVec Ideal S256x1 .f32) (v5 : IVec S256x1 32)
    (hv1 : ∀ k : Fin 128, v1 (ix2 p k) = x0 (ix2 p k)) (hv3 : v3 (ix2 p (0 : Fin 1)) = x2 (ix2 p (0 : Fin 1)))
    (hv5 : v5 (ix2 p (0 : Fin 1)) = x4 (ix2 p (0 : Fin 1))) :
    sumChain v1 v3 v5 (k0_pay6 i) z x1 x3 x5 (ix2 p (0 : Fin 1)) = ∑ j, pairTerm i x0 x1 x2 x3 x4 x5 z p j := by
  have S := fun o ho h1 h3 h5 acc => sumStretch_spec i x0 x1 x2 x3 x4 x5 z p v1 v3 v5 hv1 hv3 hv5 o ho h1 h3 h5 acc
  unfold sumChain
  rw [S 7168 (by norm_num), S 6144 (by norm_num), S 5120 (by norm_num), S 4096 (by norm_num), S 3072 (by norm_num),
    S 2048 (by norm_num), S 1024 (by norm_num), S 0 (by norm_num), sum_eq_stretches]
  show Ideal.ofBits .f32 0x00000000#32 + _ + _ + _ + _ + _ + _ + _ + _ = _
  rw [Ideal.ofBits_zero_f32]

/-- The chain of the eight steps of the second accumulator ends at the number of the anchor's pairs. -/
theorem cntChain_apply (i : grid0.Coords) (x4 : Vec Ideal S256x1 .i32) (x5 : Vec Ideal S1x8192 .i32) (p : Fin 256) (v5 : IVec S256x1 32)
    (hv5 : v5 (ix2 p (0 : Fin 1)) = x4 (ix2 p (0 : Fin 1))) :
    cntChain (F := Ideal) v5 (k0_pay6 i) x5 (ix2 p (0 : Fin 1)) = ∑ j, pairOne i x4 x5 p j := by
  have S := fun o ho h5 acc => cntStretch_spec i x4 x5 p v5 hv5 o ho h5 acc
  unfold cntChain
  rw [S 7168 (by norm_num), S 6144 (by norm_num), S 5120 (by norm_num), S 4096 (by norm_num), S 3072 (by norm_num),
    S 2048 (by norm_num), S 1024 (by norm_num), S 0 (by norm_num), sum_eq_stretches]
  show Ideal.ofBits .f32 0x00000000#32 + _ + _ + _ + _ + _ + _ + _ + _ = _
  rw [Ideal.ofBits_zero_f32]

/-- The zero offsets of a whole-block rectangle. -/
theorem zero_offsets : (![0, 0] : Fin 2 → ℕ) = fun _ => 0 := by
  funext a
  match a with
  | ⟨0, _⟩ => rfl
  | ⟨1, _⟩ => rfl

theorem outsZ_fst_apply (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (z : Vec Ideal S256x1 .f32) (p : Fin 256) :
    (Hand.outsZ (F := Ideal) i x0 x1 x2 x3 x4 x5 z).1 (ix2 p 0)
      = ∑ j : Fin 8192, if Spec.IsPair (256 * (i 0).val + p.val) (x4 (ix2 p 0)) (fun j => x5 (ix2 0 j)) j
          then Ideal.log1p (z (ix2 p 0) * Ideal.exp (-(Spec.dist (fun k => x0 (ix2 p k)) (x2 (ix2 p 0)) (fun j k => x1 (ix2 j k)) (fun j => x3 (ix2 0 j)) j))) else 0 := by
  rw [outsZ_eq]
  refine (sumChain_apply i x0 x1 x2 x3 x4 x5 z p _ _ _ (fun k => ?_) ?_ ?_).trans rfl
  · show (View.ld x0 (Rect.unit (s := S256x128) ![0, 0] S256x128.size inb_S256x128_S256x128_0_0) : Vec Ideal S256x128 .f32) (ix2 p k) = _
    rw [View.ld_unit_zero zero_offsets]
  · exact (congrFun (shapeCast_self (s := S256x1) _ shapeCasts_S256x1_S256x1) _).trans
      (congrFun (View.ld_unit_zero zero_offsets inb_S256x1_S256x1_0_0 x2) _)
  · exact (congrFun (shapeCast_self (s := S256x1) _ shapeCasts_S256x1_S256x1) _).trans
      (congrFun (View.ld_unit_zero zero_offsets inb_S256x1_S256x1_0_0 x4) _)

theorem outsZ_snd_apply (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (z : Vec Ideal S256x1 .f32) (p : Fin 256) :
    (Hand.outsZ (F := Ideal) i x0 x1 x2 x3 x4 x5 z).2 (ix2 p 0)
      = Spec.rowCnt (256 * (i 0).val + p.val) (x4 (ix2 p 0)) (fun j => x5 (ix2 0 j)) := by
  rw [outsZ_eq]
  refine (cntChain_apply i x4 x5 p _ ?_).trans rfl
  exact (congrFun (shapeCast_self (s := S256x1) _ shapeCasts_S256x1_S256x1) _).trans
    (congrFun (View.ld_unit_zero zero_offsets inb_S256x1_S256x1_0_0 x4) _)

end Cert.KernelIdeal.Val

end
-- ==== Proof.KV.PointVal.lean ====
/- One grid point's two result blocks at the exact instance, read at an anchor: the specification's row loss and row
   count for the anchor of global index 256·t + p against all 8192 rows. -/
import proofs.«166613_j1864015806540_1_alg».proof.Proof.KV.Pass1
import proofs.«166613_j1864015806540_1_alg».proof.Proof.KV.Pass2

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators

theorem outs_eq {F : FTy → Type} [FloatOps F] (i : grid0.Coords) (x0 : Vec F S256x128 .f32) (x1 : Vec F S8192x128 .f32) (x2 : Vec F S256x1 .f32)
    (x3 : Vec F S1x8192 .f32) (x4 : Vec F S256x1 .i32) (x5 : Vec F S1x8192 .i32) :
    Hand.outs i x0 x1 x2 x3 x4 x5 = Hand.outsZ i x0 x1 x2 x3 x4 x5 (Hand.zcol i x0 x1 x2 x3 x4 x5) := rfl

theorem out6_apply (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (p : Fin 256) :
    Hand.out6 (F := Ideal) i x0 x1 x2 x3 x4 x5 (ix2 p 0)
      = Spec.rowSum (256 * (i 0).val + p.val) (fun k => x0 (ix2 p k)) (x2 (ix2 p 0)) (x4 (ix2 p 0)) (fun j k => x1 (ix2 j k)) (fun j => x3 (ix2 0 j)) (fun j => x5 (ix2 0 j)) := by
  unfold Hand.out6; rw [outs_eq, outsZ_fst_apply, zcol_apply]; rfl

theorem out7_apply (i : grid0.Coords) (x0 : Vec Ideal S256x128 .f32) (x1 : Vec Ideal S8192x128 .f32) (x2 : Vec Ideal S256x1 .f32) (x3 : Vec Ideal S1x8192 .f32) (x4 : Vec Ideal S256x1 .i32) (x5 : Vec Ideal S1x8192 .i32) (p : Fin 256) :
    Hand.out7 (F := Ideal) i x0 x1 x2 x3 x4 x5 (ix2 p 0)
      = Spec.rowCnt (256 * (i 0).val + p.val) (x4 (ix2 p 0)) (fun j => x5 (ix2 0 j)) := by
  unfold Hand.out7; rw [outs_eq, outsZ_snd_apply]

end Cert.KernelIdeal.Val

end
-- ==== Proof.KV.ArrVal.lean ====
/- The two result arrays after the region, read at a row, at the exact instance: row r of the first holds the
   specification's loss of row r against the whole table, row r of the second its pair count. Row r lies in the block
   of point r / 256 at place r mod 256; that point's six input blocks are rows 256·(r / 256) … of the embedding table,
   of the squared-norm column and of the label column, and the whole table, squared-norm row and label row; so the
   anchor's global index 256·(r / 256) + r mod 256 is r itself. -/
import proofs.«166613_j1864015806540_1_alg».proof.Proof.KV.Cover
import proofs.«166613_j1864015806540_1_alg».proof.Proof.KV.Reads
import proofs.«166613_j1864015806540_1_alg».proof.Proof.KV.PointVal

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Hand
open scoped BigOperators

/-- A column [a, 1] flattened to [a], read at an entry. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i 0) :=
  shapeCast_apply x h _ _ (by
    rw [Shape.rowMajor_val_two, Shape.rowMajor_val_one]
    show i.val * 1 + (0 : Fin 1).val = i.val
    simp)

/-- The grid is one axis of 32 points: a point's coordinate is its number. -/
theorem coords_val : ∀ t : Fin cfg0.N, ((grid0.coords t) 0).val = t.val :=
  (by decide +kernel : ∀ t : Fin grid0.N, ((grid0.coords t) 0).val = t.val)

/-- Row r is entry r mod 256 of the block of point r / 256. -/
theorem grow_ptOf (r : Fin 8192) : grow (ptOf r) (rowIn r) = r :=
  Fin.ext (by rw [grow_val]; show 256 * (r.val / 256) + r.val % 256 = r.val; omega)

variable (m : (ℓ : Loc nD τ sig) → Buf (Elt Ideal) ℓ)

/-- The launch memory's embedding table, squared norms (the host reduction, not opened) and labels as plain functions. -/
abbrev emb (c : Dev nD) : Fin 8192 → Fin 128 → EReal := fun r k => (m ((c.tc : Thread nD τ).loc main_arg0) : S8192x128.Idx → EReal) (ix2 r k)
abbrev sqv (c : Dev nD) : Fin 8192 → EReal := fun r => sqTerm (F := Ideal) (m ((c.tc : Thread nD τ).loc main_arg0)) (ix1 r)
abbrev lab (c : Dev nD) : Fin 8192 → BitVec 32 := fun r => (m ((c.tc : Thread nD τ).loc main_arg1) : S8192.Idx → BitVec 32) (ix1 r)

theorem arr6_row (c : Dev nD) (r : Fin 8192) :
    ((dat0 (V1 m) c).arrAt 6 cfg0.N : S8192x1.Idx → EReal) (ix2 r 0) = Spec.rowSumAt (emb m c) (sqv m c) (lab m c) r := by
  rw [arrAt6_apply]
  unfold blk6
  rw [out6_apply]
  simp only [b0_apply, b1_apply, b2_apply, b3_apply, b4_apply, b5_apply, grow_ptOf, V1_arg0, V1_v2_apply, V1_v3_apply, V1_v4_apply, V1_v5_apply]
  unfold Spec.rowSumAt
  congr 1
  all_goals first
    | exact V1_v2_apply m c r
    | exact V1_v4_apply m c r
    | exact funext fun j => V1_v3_apply m c j
    | exact funext fun j => V1_v5_apply m c j
    | (rw [coords_val]; show 256 * (r.val / 256) + r.val % 256 = r.val; omega)

theorem arr7_row (c : Dev nD) (r : Fin 8192) :
    ((dat0 (V1 m) c).arrAt 7 cfg0.N : S8192x1.Idx → EReal) (ix2 r 0) = Spec.rowCntAt (lab m c) r := by
  rw [arrAt7_apply]
  unfold blk7
  rw [out7_apply]
  simp only [b4_apply, b5_apply, grow_ptOf, V1_v4_apply, V1_v5_apply]
  unfold Spec.rowCntAt
  congr 1
  all_goals first
    | exact V1_v2_apply m c r
    | exact V1_v4_apply m c r
    | exact funext fun j => V1_v3_apply m c j
    | exact funext fun j => V1_v5_apply m c j
    | (rw [coords_val]; show 256 * (r.val / 256) + r.val % 256 = r.val; omega)

/-- The two arrays flattened to vectors over the 8192 rows, as the host operations after the region read them. -/
theorem rs_apply (c : Dev nD) (r : Fin 8192) :
    shapeCast S8192 ((dat m c).arrAt 6 cfg0.N : FVec Ideal S8192x1 .f32) shapeCasts_S8192x1_S8192 (ix1 r) = Spec.rowSumAt (emb m c) (sqv m c) (lab m c) r :=
  (shapeCast_a1_a_apply _ _ r).trans (arr6_row m c r)
theorem rc_apply (c : Dev nD) (r : Fin 8192) :
    shapeCast S8192 ((dat m c).arrAt 7 cfg0.N : FVec Ideal S8192x1 .f32) shapeCasts_S8192x1_S8192 (ix1 r) = Spec.rowCntAt (lab m c) r :=
  (shapeCast_a1_a_apply _ _ r).trans (arr7_row m c r)

end Cert.KernelIdeal.Val

end
-- ==== Proof.lean ====
/- The certificate's claims for the N-pair loss kernel against its reference.
   FRAMES. The kernel program is host operations (the squared norms, four reshapes), one kernel region on a grid of
   32 row blocks, and host operations after it (segment sums, a masked mean, a quotient). Its run is proved from the
   body's triple and the region's proof data; the embedding table is staged through two windows, so its array enters
   the region in two half shares that are joined again at the exit, both windows only reading it. The same text serves
   the word-level program and the idealized one. The reference is host operations only: its run is read back whole.
   VALUE. At the exact instance a grid point computes, for each of its 256 anchors, Z = the sum over the rows of another
   label of exp(distance), accumulated over eight column chunks, then the sum over the anchor's pairs (same label,
   larger index) of log(1 + Z·exp(−distance)) and the number of pairs, over eight more chunks; sums over 8192 rows are
   regrouped into eight stretches of 1024, which addition on the extended reals allows without any finiteness. The
   reference computes the same two per-row quantities over the full matrix, counting pairs in 32-bit integers (at most
   8192, so no wrap) before converting. Both programs then apply the same host operations to the two per-row arrays and
   the labels, so that last stretch is carried as one function and never opened. The precondition is not used. -/
import proofs.«166613_j1864015806540_1_alg».proof.Defs
import proofs.«166613_j1864015806540_1_alg».proof.Proof.Gen.Kernel
import proofs.«166613_j1864015806540_1_alg».proof.Proof.Gen.KernelIdeal
import proofs.«166613_j1864015806540_1_alg».proof.Proof.Gen.ReferenceIdeal
import proofs.«166613_j1864015806540_1_alg».proof.Proof.Gen.Pre_finite_inputs
import proofs.«166613_j1864015806540_1_alg».proof.Proof.K.Launch
import proofs.«166613_j1864015806540_1_alg».proof.Proof.KI.Launch
import proofs.«166613_j1864015806540_1_alg».proof.Proof.RefRunP
import proofs.«166613_j1864015806540_1_alg».proof.Proof.RefReadP
import proofs.«166613_j1864015806540_1_alg».proof.Proof.RefVal
import proofs.«166613_j1864015806540_1_alg».proof.Proof.RefTail
import proofs.«166613_j1864015806540_1_alg».proof.Proof.KV.ArrVal
import proofs.«166613_j1864015806540_1_alg».proof.Proof.KV.Tail
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ =>
  (θ_run Cert.Kernel.defs _ _).mono (fun _ h c => ⟨(h c).2.1, (h c).2.2⟩) (Cert.Kernel.Hand.run_main (F := Bits) m ρ)

theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

/-- The reference's squared norms are the kernel program's: one host row reduction of the squared table. -/
theorem sq_eq (a : FVec Ideal Cert.KernelIdeal.S8192x128 .f32) (r : Fin 8192) :
    Cert.ReferenceIdeal.ReadP.val_main_v1 (F := Ideal) a (ix1 r) = Cert.KernelIdeal.Val.sqTerm (F := Ideal) a (ix1 r) := rfl

/-- At the exact instance both programs end at the shared last stretch applied to equal per-row losses, equal per-row
    counts and the same labels: row by row both are the specification's. -/
theorem algebraic : Cert.algebraic_KernelIdeal_ReferenceIdeal := by
  intro m ρ m' ρ' _ hagree
  refine ⟨fun c => Cert.KernelIdeal.Val.tailK (F := Ideal)
      (shapeCast Cert.KernelIdeal.S8192 ((Cert.KernelIdeal.Hand.dat m c).arrAt 6 Cert.KernelIdeal.cfg0.N : FVec Ideal Cert.KernelIdeal.S8192x1 .f32) Cert.KernelIdeal.Facts₀.shapeCasts_S8192x1_S8192)
      (shapeCast Cert.KernelIdeal.S8192 ((Cert.KernelIdeal.Hand.dat m c).arrAt 7 Cert.KernelIdeal.cfg0.N : FVec Ideal Cert.KernelIdeal.S8192x1 .f32) Cert.KernelIdeal.Facts₀.shapeCasts_S8192x1_S8192)
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Val.W5_v26 (F := Ideal) m c), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v56_eq, Cert.ReferenceIdeal.RefValue.v56_tail, (hagree c).1, (hagree c).2]
    have hrs : Cert.ReferenceIdeal.ReadP.val_main_v35 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
        = shapeCast Cert.KernelIdeal.S8192 ((Cert.KernelIdeal.Hand.dat m c).arrAt 6 Cert.KernelIdeal.cfg0.N : FVec Ideal Cert.KernelIdeal.S8192x1 .f32) Cert.KernelIdeal.Facts₀.shapeCasts_S8192x1_S8192 := by
      funext i
      obtain ⟨r, rfl⟩ : ∃ r : Fin 8192, i = ix1 r := ⟨i 0, eq_ix1 i⟩
      rw [Cert.ReferenceIdeal.RefValue.rowsum_apply, Cert.KernelIdeal.Val.rs_apply]
      rfl
    have hrc : Cert.ReferenceIdeal.ReadP.val_main_v38 (F := Ideal)
          (m ((c.tc : Thread Cert.KernelIdeal.nD Cert.KernelIdeal.τ).loc Cert.KernelIdeal.main_arg1))
        = shapeCast Cert.KernelIdeal.S8192 ((Cert.KernelIdeal.Hand.dat m c).arrAt 7 Cert.KernelIdeal.cfg0.N : FVec Ideal Cert.KernelIdeal.S8192x1 .f32) Cert.KernelIdeal.Facts₀.shapeCasts_S8192x1_S8192 := by
      funext i
      obtain ⟨r, rfl⟩ : ∃ r : Fin 8192, i = ix1 r := ⟨i 0, eq_ix1 i⟩
      rw [Cert.ReferenceIdeal.RefValue.rowcnt_apply, Cert.KernelIdeal.Val.rc_apply]
    rw [hrs, hrc]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
